-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S512x1000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384x768 : Shape := ⟨2, ![16384, 768]⟩
abbrev S1000x768 : Shape := ⟨2, ![1000, 768]⟩
abbrev S16384 : Shape := ⟨1, ![16384]⟩
abbrev S1000 : Shape := ⟨1, ![1000]⟩
abbrev S1 : Shape := ⟨1, ![1]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S1000x768 : S_.BroadcastsInDim S1000x768 (![] : Fin 0 → Fin S1000x768.rank)
  reducesTo_S1000x768_S_d0_1 : S1000x768.ReducesTo [0, 1] S_
  bcast_S_S1000 : S_.BroadcastsInDim S1000 (![] : Fin 0 → Fin S1000.rank)
  reducesTo_S1000_S_d0 : S1000.ReducesTo [0] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg3 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg3 main_v34
  let main_c_13 : IVec S_ 32 := constantI S_ 32 1000#32
  let main_v36 : IVec S16384 32 := broadcastInDim S16384 ![] bcast_S_S16384 main_c_13
  let main_v37 : IVec S16384 1 := cmpi .slt main_arg3 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  main_v40

def fn_part1 {F : FTy → Type} [FloatOps F] (main_arg3 : IVec S16384 32) (main_arg5 : FVec F S1000x768 .f32) (main_arg6 : FVec F S1000x768 .f32) (main_arg7 : FVec F S1 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000x768 .f32 := Host.absf main_arg5
  let main_cst_6 : FVec F S_ .f32 := constant S_ .f32 0x7F800000#32
  let main_v20 : FVec F S1000x768 .f32 := broadcastInDim S1000x768 ![] bcast_S_S1000x768 main_cst_6
  let main_v21 : IVec S1000x768 1 := cmpf .olt main_v19 main_v20
  let main_c_7 : IVec S_ 1 := constantI S_ 1 1#1
  let main_v22 : IVec S_ 1 := (fun x v => Host.reduce IntOp.andi x v reducesTo_S1000x768_S_d0_1 h_S_) main_v21 main_c_7
  let main_v23 : IVec S_ 1 := andi main_v18 main_v22
  let main_v24 : FVec F S1000x768 .f32 := Host.absf main_arg6
  let main_cst_8 : FVec F S_ .f32 := constant S_ .f32 0x7F800000#32
  let main_v25 : FVec F S1000x768 .f32 := broadcastInDim S1000x768 ![] bcast_S_S1000x768 main_cst_8
  let main_v26 : IVec S1000x768 1 := cmpf .olt main_v24 main_v25
  let main_c_9 : IVec S_ 1 := constantI S_ 1 1#1
  let main_v27 : IVec S_ 1 := (fun x v => Host.reduce IntOp.andi x v reducesTo_S1000x768_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg3 main_v33

def fn {F : FTy → Type} [FloatOps F] (main_arg0 : FVec F S16384x1000 .f32) (main_arg1 : FVec F S16384x768 .f32) (main_arg2 : FVec F S1000x768 .f32) (main_arg3 : IVec S16384 32) (main_arg4 : FVec F S1000 .f32) (main_arg5 : FVec F S1000x768 .f32) (main_arg6 : FVec F S1000x768 .f32) (main_arg7 : FVec F S1 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1000x768 .f32 := Host.absf main_arg2
  let main_cst_2 : FVec F S_ .f32 := constant S_ .f32 0x7F800000#32
  let main_v10 : FVec F S1000x768 .f32 := broadcastInDim S1000x768 ![] bcast_S_S1000x768 main_cst_2
  let main_v11 : IVec S1000x768 1 := cmpf .olt main_v9 main_v10
  let main_c_3 : IVec S_ 1 := constantI S_ 1 1#1
  let main_v12 : IVec S_ 1 := (fun x v => Host.reduce IntOp.andi x v reducesTo_S1000x768_S_d0_1 h_S_) main_v11 main_c_3
  let main_v13 : IVec S_ 1 := andi main_v8 main_v12
  let main_v14 : FVec F S1000 .f32 := Host.absf main_arg4
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg3 main_arg5 main_arg6 main_arg7 main_v13 main_v16
-- ==== Kernel.lean ====
abbrev S16384x1000 : Shape := ⟨2, ![16384, 1000]⟩
abbrev S16384x768 : Shape := ⟨2, ![16384, 768]⟩
abbrev S1000x768 : Shape := ⟨2, ![1000, 768]⟩
abbrev S16384 : Shape := ⟨1, ![16384]⟩
abbrev S1000 : Shape := ⟨1, ![1000]⟩
abbrev S1 : Shape := ⟨1, ![1]⟩
abbrev S2x1000x768 : Shape := ⟨3, ![2, 1000, 768]⟩
abbrev S2x1x1000 : Shape := ⟨3, ![2, 1, 1000]⟩
abbrev S512x768 : Shape := ⟨2, ![512, 768]⟩
abbrev S512 : Shape := ⟨1, ![512]⟩
abbrev S1x1000x768 : Shape := ⟨3, ![1, 1000, 768]⟩
abbrev S1x1x1000 : Shape := ⟨3, ![1, 1, 1000]⟩
abbrev S1x1000 : Shape := ⟨2, ![1, 1000]⟩
abbrev S512x1000 : Shape := ⟨2, ![512, 1000]⟩
abbrev S512x1 : Shape := ⟨2, ![512, 1]⟩
abbrev S512x1536 : Shape := ⟨2, ![512, 1536]⟩
abbrev S1000x1536 : Shape := ⟨2, ![1000, 1536]⟩
abbrev S_ : Shape := ⟨0, ![]⟩
abbrev S1000x1 : Shape := ⟨2, ![1000, 1]⟩
abbrev S768x1000 : Shape := ⟨2, ![768, 1000]⟩
abbrev S1000x1000 : Shape := ⟨2, ![1000, 1000]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 97
  | .vmem => 18
  | .smem => 0
  | _ => 0

abbrev bufTy : (tb : Table) → Fin (tcTables nBuf tb) → BufTy
  | .hbm, ⟨0, _⟩ => ⟨S16384x1000, .f32⟩
  | .hbm, ⟨1, _⟩ => ⟨S16384x768, .f32⟩
  | .hbm, ⟨2, _⟩ => ⟨S1000x768, .f32⟩
  | .hbm, ⟨3, _⟩ => ⟨S16384, .i32⟩
  | .hbm, ⟨4, _⟩ => ⟨S1000, .f32⟩
  | .hbm, ⟨5, _⟩ => ⟨S1000x768, .f32⟩
  | .hbm, ⟨6, _⟩ => ⟨S1000x768, .f32⟩
  | .hbm, ⟨7, _⟩ => ⟨S1, .f32⟩
  | .hbm, ⟨8, _⟩ => ⟨S2x1000x768, .f32⟩
  | .hbm, ⟨9, _⟩ => ⟨S2x1000x768, .f32⟩
  | .hbm, ⟨10, _⟩ => ⟨S2x1x1000, .f32⟩
  | .hbm, ⟨11, _⟩ => ⟨S_, .f32⟩
  | .hbm, ⟨12, _⟩ => ⟨S1000x768, .f32⟩
  | .hbm, ⟨13, _⟩ => ⟨S_, .f32⟩
  | .hbm, ⟨14, _⟩ => ⟨S1000x768, .f32⟩
  | .hbm, ⟨15, _⟩ => ⟨S_, .f32⟩
  | .hbm, ⟨16, _⟩ => ⟨S1x1000, .f32⟩
  | .hbm, ⟨17, _⟩ => ⟨S1000, .f32⟩
  | .hbm, ⟨18, _⟩ => ⟨S_, .f32⟩
  | .hbm, ⟨19, _⟩ => ⟨S1000, .f32⟩
  | .hbm, ⟨20, _⟩ => ⟨S1000, .f32⟩
  | .hbm, ⟨21, _⟩ => ⟨S1000x1, .f32⟩
  | .hbm, ⟨22, _⟩ => ⟨S1000x768, .f32⟩
  | .hbm, ⟨23, _⟩ => ⟨S1000x768, .f32⟩
  | .hbm, ⟨24, _⟩ => ⟨S_, .f32⟩
  | .hbm, ⟨25, _⟩ => ⟨S1000x768, .f32⟩
  | .hbm, ⟨26, _⟩ => ⟨S1000x768, .f32⟩
  | .hbm, ⟨27, _⟩ => ⟨S1000x768, .f32⟩
  | .hbm, ⟨28, _⟩ => ⟨S1000x768, .f32⟩
  | .hbm, ⟨29, _⟩ => ⟨S1000x1, .f32⟩
  | .hbm, ⟨30, _⟩ => ⟨S1000x768, .f32⟩
  | .hbm, ⟨31, _⟩ => ⟨S1000x768, .f32⟩
  | .hbm, ⟨32, _⟩ => ⟨S1000x768, .f32⟩
  | .hbm, ⟨33, _⟩ => ⟨S1000x768, .f32⟩
  | .hbm, ⟨34, _⟩ => ⟨S1000x768, .f32⟩
  | .hbm, ⟨35, _⟩ => ⟨S1000x768, .f32⟩
  | .hbm, ⟨36, _⟩ => ⟨S_, .f32⟩
  | .hbm, ⟨37, _⟩ => ⟨S1000x768, .f32⟩
  | .hbm, ⟨38, _⟩ => ⟨S1000x768, .f32⟩
  | .hbm, ⟨39, _⟩ => ⟨S1000x1, .f32⟩
  | .hbm, ⟨40, _⟩ => ⟨S1000x1, .f32⟩
  | .hbm, ⟨41, _⟩ => ⟨S1000x1, .f32⟩
  | .hbm, ⟨42, _⟩ => ⟨S_, .f32⟩
  | .hbm, ⟨43, _⟩ => ⟨S1000x1, .f32⟩
  | .hbm, ⟨44, _⟩ => ⟨S1000x1, .i1⟩
  | .hbm, ⟨45, _⟩ => ⟨S1000x1, .f32⟩
  | .hbm, ⟨46, _⟩ => ⟨S_, .f32⟩
  | .hbm, ⟨47, _⟩ => ⟨S1000x1, .f32⟩
  | .hbm, ⟨48, _⟩ => ⟨S1000x1, .f32⟩
  | .hbm, ⟨49, _⟩ => ⟨S1000x1, .f32⟩
  | .hbm, ⟨50, _⟩ => ⟨S_, .f32⟩
  | .hbm, ⟨51, _⟩ => ⟨S_, .f32⟩
  | .hbm, ⟨52, _⟩ => ⟨S1000x1, .f32⟩
  | .hbm, ⟨53, _⟩ => ⟨S1000x1, .f32⟩
  | .hbm, ⟨54, _⟩ => ⟨S_, .f32⟩
  | .hbm, ⟨55, _⟩ => ⟨S1000x1, .f32⟩
  | .hbm, ⟨56, _⟩ => ⟨S1000x1, .f32⟩
  | .hbm, ⟨57, _⟩ => ⟨S1000x768, .f32⟩
  | .hbm, ⟨58, _⟩ => ⟨S1000x768, .f32⟩
  | .hbm, ⟨59, _⟩ => ⟨S1000x768, .f32⟩
  | .hbm, ⟨60, _⟩ => ⟨S1000x768, .f32⟩
  | .hbm, ⟨61, _⟩ => ⟨S1000x768, .f32⟩
  | .hbm, ⟨62, _⟩ => ⟨S_, .f32⟩
  | .hbm, ⟨63, _⟩ => ⟨S1000x1, .f32⟩
  | .hbm, ⟨64, _⟩ => ⟨S1000x1, .f32⟩
  | .hbm, ⟨65, _⟩ => ⟨S1000x1, .f32⟩
  | .hbm, ⟨66, _⟩ => ⟨S1000x768, .f32⟩
  | .hbm, ⟨67, _⟩ => ⟨S1000x768, .f32⟩
  | .hbm, ⟨68, _⟩ => ⟨S1000x768, .f32⟩
  | .hbm, ⟨69, _⟩ => ⟨S1000x768, .f32⟩
  | .hbm, ⟨70, _⟩ => ⟨S1000x768, .f32⟩
  | .hbm, ⟨71, _⟩ => ⟨S1000x768, .f32⟩
  | .hbm, ⟨72, _⟩ => ⟨S768x1000, .f32⟩
  | .hbm, ⟨73, _⟩ => ⟨S1000x1000, .f32⟩
  | .hbm, ⟨74, _⟩ => ⟨S1000x768, .f32⟩
  | .hbm, ⟨75, _⟩ => ⟨S768x1000, .f32⟩
  | .hbm, ⟨76, _⟩ => ⟨S1000x1000, .f32⟩
  | .hbm, ⟨77, _⟩ => ⟨S1000x768, .f32⟩
  | .hbm, ⟨78, _⟩ => ⟨S_, .f32⟩
  | .hbm, ⟨79, _⟩ => ⟨S1000, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1000x1000, .f32⟩
  | .hbm, ⟨85, _⟩ => ⟨S1000x1000, .f32⟩
  | .hbm, ⟨86, _⟩ => ⟨S1000x1000, .f32⟩
  | .hbm, ⟨87, _⟩ => ⟨S1000x1, .f32⟩
  | .hbm, ⟨88, _⟩ => ⟨S1000x1000, .f32⟩
  | .hbm, ⟨89, _⟩ => ⟨S1000x1000, .f32⟩
  | .hbm, ⟨90, _⟩ => ⟨S1000x1000, .f32⟩
  | .hbm, ⟨91, _⟩ => ⟨S1000x1000, .f32⟩
  | .hbm, ⟨92, _⟩ => ⟨S1000x1000, .bf16⟩
  | .hbm, ⟨93, _⟩ => ⟨S1000x1000, .f32⟩
  | .hbm, ⟨94, _⟩ => ⟨S1000x1000, .f32⟩
  | .hbm, ⟨95, _⟩ => ⟨S1000x1000, .bf16⟩
  | .hbm, ⟨96, _⟩ => ⟨S16384x1000, .f32⟩
  | .local _ .vmem, ⟨0, _⟩ => ⟨S512x768, .f32⟩
  | .local _ .vmem, ⟨1, _⟩ => ⟨S512x768, .f32⟩
  | .local _ .vmem, ⟨2, _⟩ => ⟨S512, .i32⟩
  | .local _ .vmem, ⟨3, _⟩ => ⟨S512, .i32⟩
  | .local _ .vmem, ⟨4, _⟩ => ⟨S1x1000x768, .f32⟩
  | .local _ .vmem, ⟨5, _⟩ => ⟨S1x1000x768, .f32⟩
  | .local _ .vmem, ⟨6, _⟩ => ⟨S1x1000x768, .f32⟩
  | .local _ .vmem, ⟨7, _⟩ => ⟨S1x1000x768, .f32⟩
  | .local _ .vmem, ⟨8, _⟩ => ⟨S1x1x1000, .f32⟩
  | .local _ .vmem, ⟨9, _⟩ => ⟨S1x1x1000, .f32⟩
  | .local _ .vmem, ⟨10, _⟩ => ⟨S1024x1000, .f32⟩
  | .local _ .vmem, ⟨11, _⟩ => ⟨S1024x1000, .f32⟩
  | .local _ .vmem, ⟨12, _⟩ => ⟨S1024, .i32⟩
  | .local _ .vmem, ⟨13, _⟩ => ⟨S1024, .i32⟩
  | .local _ .vmem, ⟨14, _⟩ => ⟨S1000x1000, .bf16⟩
  | .local _ .vmem, ⟨15, _⟩ => ⟨S1000x1000, .bf16⟩
  | .local _ .vmem, ⟨16, _⟩ => ⟨S1024x1000, .f32⟩
  | .local _ .vmem, ⟨17, _⟩ => ⟨S1024x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1000x1000 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x1000 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1x1000x768_S1x1000x768_0_0_0 : ∀ a, (![0, 0, 0] : Fin 3 → Nat) a + S1x1000x768.size a ≤ S1x1000x768.size a
  h_S1x1000x768 : 0 < S1x1000x768.numel
  shapeCasts_S1x1000x768_S1000x768 : S1x1000x768.ShapeCasts S1000x768
  shapeCasts_S1000x768_S1x1000x768 : S1000x768.ShapeCasts S1x1000x768
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  inb_S512_S512_0 : ∀ a, (![0] : Fin 1 → Nat) a + S512.size a ≤ S512.size a
  h_S512 : 0 < S512.numel
  inb_S512x768_S512x768_0_0 : ∀ a, (![0, 0] : Fin 2 → Nat) a + S512x768.size a ≤ S512x768.size a
  h_S512x768 : 0 < S512x768.numel
  iota_S512x1000_d1_w32 : S512x1000.Iotas .tc 32 [1]
  shapeCasts_S512_S512x1 : S512.ShapeCasts S512x1
  broadcasts_S512x1_S512x1000 : S512x1.Broadcasts S512x1000
  natLt_1_32 : 1 < 32
  bitsLt_bf16_f32 : FTy.bits .bf16 < FTy.bits .f32
  concatenates_S512x768_S512x768_S512x1536_d1 : Shape.Concatenates [S512x768, S512x768] S512x1536 1
  slices_S1000x1536_o0_0_S1000x768 : S1000x1536.Slices ![0, 0] S1000x768
  slices_S1000x1536_o0_768_S1000x768 : S1000x1536.Slices ![0, 768] S1000x768
  reduces_S512x1000_S1000 : S512x1000.Reduces [0] S1000
  shapeCasts_S1000_S1x1000 : S1000.ShapeCasts S1x1000
  reducesTo_S2x1000x768_S1000x768_d0 : S2x1000x768.ReducesTo [0] S1000x768
  h_S_ : 0 < S_.numel
  reducesTo_S2x1x1000_S1x1000_d0 : S2x1x1000.ReducesTo [0] S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x768_0_1 : S1000x1.BroadcastsInDim S1000x768 (![0, 1] : Fin 2 → Fin S1000x768.rank)
  bcast_S_S1000x768 : S_.BroadcastsInDim S1000x768 (![] : Fin 0 → Fin S1000x768.rank)
  shapeCasts_S1000_S1000x1 : S1000.ShapeCasts S1000x1
  bcast_S_S1000x1 : S_.BroadcastsInDim S1000x1 (![] : Fin 0 → Fin S1000x1.rank)
  transposes_S1000x768_S768x1000_1_0 : S1000x768.Transposes [1, 0] S768x1000
  reducesTo_S1000x768_S1000_d1 : S1000x768.ReducesTo [1] S1000
  shapeCasts_S1_S_ : S1.ShapeCasts S_
  bcast_S_S1000x1000 : S_.BroadcastsInDim S1000x1000 (![] : Fin 0 → Fin S1000x1000.rank)
  bcast_S1000x1_S1000x1000_0_1 : S1000x1.BroadcastsInDim S1000x1000 (![0, 1] : Fin 2 → Fin S1000x1000.rank)
  inb_S1024_S1024_0 : ∀ a, (![0] : Fin 1 → Nat) a + S1024.size a ≤ S1024.size a
  h_S1024 : 0 < S1024.numel
  iota_S1024x1000_d1_w32 : S1024x1000.Iotas .tc 32 [1]
  shapeCasts_S1024_S1024x1 : S1024.ShapeCasts S1024x1
  broadcasts_S1024x1_S1024x1000 : S1024x1.Broadcasts S1024x1000
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S1024x1000_S1024x1000_0_0 : ∀ a, (![0, 0] : Fin 2 → Nat) a + S1024x1000.size a ≤ S1024x1000.size a
  h_S1024x1000 : 0 < S1024x1000.numel
  dot_S512x1000_S512x1536_S1000x1536_0_0_1_1_n_n_wf : DotDims.WF S512x1000 S512x1536 S1000x1536 [0] [0] [1] [1] [] []
  dot_S1000x768_S768x1000_S1000x1000_1_0_0_1_n_n_wf : DotDims.WF S1000x768 S768x1000 S1000x1000 [1] [0] [0] [1] [] []
  dot_S1024x1000_S1000x1000_S1024x1000_1_0_0_1_n_n_wf : DotDims.WF S1024x1000 S1000x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S16384.size a
  hwx0_1 : ∀ i : grid0.Coords, EltTy.bits .i32 = 32 ∨ (Rect.block (s := S16384) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x768.size a ≤ S2x1000x768.size a
  hwx0_2 : ∀ i : grid0.Coords, EltTy.bits .f32 = 32 ∨ (Rect.block (s := S2x1000x768) S1x1000x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x768.size a ≤ S2x1000x768.size a
  hwx0_3 : ∀ i : grid0.Coords, EltTy.bits .f32 = 32 ∨ (Rect.block (s := S2x1000x768) S1x1000x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1000.size a ≤ S2x1x1000.size a
  hwx0_4 : ∀ i : grid0.Coords, EltTy.bits .f32 = 32 ∨ (Rect.block (s := S2x1x1000) S1x1x1000.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1000.size a ≤ S16384x1000.size a
  hwx1_0 : ∀ i : grid1.Coords, EltTy.bits .f32 = 32 ∨ (Rect.block (s := S16384x1000) S1024x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S16384.size a
  hwx1_1 : ∀ i : grid1.Coords, EltTy.bits .i32 = 32 ∨ (Rect.block (s := S16384) S1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x1000.size a ≤ S1000x1000.size a
  hwx1_2 : ∀ i : grid1.Coords, EltTy.bits .bf16 = 32 ∨ (Rect.block (s := S1000x1000) S1000x1000.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x1000.size a ≤ S1000x1000.size a
  hwx1_3 : ∀ i : grid1.Coords, EltTy.bits .bf16 = 32 ∨ (Rect.block (s := S1000x1000) S1000x1000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1000.size a ≤ S16384x1000.size a
  hwx1_4 : ∀ i : grid1.Coords, EltTy.bits .f32 = 32 ∨ (Rect.block (s := S16384x1000) S1024x1000.size (cc1_transform_4 i) (hinb1_4 i)).WholeWords (EltTy.packing .f32)

variable [Facts₀]

def dot_S512x1000_S512x1536_S1000x1536_0_0_1_1_n_n : DotDims S512x1000 S512x1536 S1000x1536 where
  lhsContracting := [0]
  rhsContracting := [0]
  lhsNonContracting := [1]
  rhsNonContracting := [1]
  lhsBatch := []
  rhsBatch := []
  wf := dot_S512x1000_S512x1536_S1000x1536_0_0_1_1_n_n_wf
def dot_S1000x768_S768x1000_S1000x1000_1_0_0_1_n_n : DotDims S1000x768 S768x1000 S1000x1000 where
  lhsContracting := [1]
  rhsContracting := [0]
  lhsNonContracting := [0]
  rhsNonContracting := [1]
  lhsBatch := []
  rhsBatch := []
  wf := dot_S1000x768_S768x1000_S1000x1000_1_0_0_1_n_n_wf
def dot_S1024x1000_S1000x1000_S1024x1000_1_0_0_1_n_n : DotDims S1024x1000 S1000x1000 S1024x1000 where
  lhsContracting := [1]
  rhsContracting := [0]
  lhsNonContracting := [0]
  rhsNonContracting := [1]
  lhsBatch := []
  rhsBatch := []
  wf := dot_S1024x1000_S1000x1000_S1024x1000_1_0_0_1_n_n_wf

abbrev win0_0 : Pipeline.Window sig grid0 :=
  Pipeline.Window.ofSpec (Memref.whole main_arg1) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1000x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1000x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1000x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1000x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1024x1000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x1000 : Shape := ⟨2, ![16384, 1000]⟩
abbrev S16384x768 : Shape := ⟨2, ![16384, 768]⟩
abbrev S1000x768 : Shape := ⟨2, ![1000, 768]⟩
abbrev S16384 : Shape := ⟨1, ![16384]⟩
abbrev S1000 : Shape := ⟨1, ![1000]⟩
abbrev S1 : Shape := ⟨1, ![1]⟩
abbrev S16384x1 : Shape := ⟨2, ![16384, 1]⟩
abbrev S1x1000 : Shape := ⟨2, ![1, 1000]⟩
abbrev S_ : Shape := ⟨0, ![]⟩
abbrev S1000x1 : Shape := ⟨2, ![1000, 1]⟩
abbrev S1000x16384 : Shape := ⟨2, ![1000, 16384]⟩
abbrev S768x1000 : Shape := ⟨2, ![768, 1000]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x768, .f32⟩
  | .hbm, ⟨2, _⟩ => ⟨S1000x768, .f32⟩
  | .hbm, ⟨3, _⟩ => ⟨S16384, .i32⟩
  | .hbm, ⟨4, _⟩ => ⟨S1000, .f32⟩
  | .hbm, ⟨5, _⟩ => ⟨S1000x768, .f32⟩
  | .hbm, ⟨6, _⟩ => ⟨S1000x768, .f32⟩
  | .hbm, ⟨7, _⟩ => ⟨S1, .f32⟩
  | .hbm, ⟨8, _⟩ => ⟨S16384x1, .i32⟩
  | .hbm, ⟨9, _⟩ => ⟨S1x1000, .i32⟩
  | .hbm, ⟨10, _⟩ => ⟨S16384x1000, .i32⟩
  | .hbm, ⟨11, _⟩ => ⟨S16384x1000, .i32⟩
  | .hbm, ⟨12, _⟩ => ⟨S16384x1000, .i1⟩
  | .hbm, ⟨13, _⟩ => ⟨S16384x1000, .f32⟩
  | .hbm, ⟨14, _⟩ => ⟨S_, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x16384, .f32⟩
  | .hbm, ⟨21, _⟩ => ⟨S1000x768, .f32⟩
  | .hbm, ⟨22, _⟩ => ⟨S1000x768, .f32⟩
  | .hbm, ⟨23, _⟩ => ⟨S1000x768, .f32⟩
  | .hbm, ⟨24, _⟩ => ⟨S1000x16384, .f32⟩
  | .hbm, ⟨25, _⟩ => ⟨S16384x768, .f32⟩
  | .hbm, ⟨26, _⟩ => ⟨S1000x768, .f32⟩
  | .hbm, ⟨27, _⟩ => ⟨S_, .f32⟩
  | .hbm, ⟨28, _⟩ => ⟨S1000x768, .f32⟩
  | .hbm, ⟨29, _⟩ => ⟨S1000x768, .f32⟩
  | .hbm, ⟨30, _⟩ => ⟨S1000x768, .f32⟩
  | .hbm, ⟨31, _⟩ => ⟨S1000x768, .f32⟩
  | .hbm, ⟨32, _⟩ => ⟨S1000x1, .f32⟩
  | .hbm, ⟨33, _⟩ => ⟨S1000x768, .f32⟩
  | .hbm, ⟨34, _⟩ => ⟨S1000x768, .f32⟩
  | .hbm, ⟨35, _⟩ => ⟨S1000x768, .f32⟩
  | .hbm, ⟨36, _⟩ => ⟨S1000x768, .f32⟩
  | .hbm, ⟨37, _⟩ => ⟨S1000x768, .f32⟩
  | .hbm, ⟨38, _⟩ => ⟨S1000x768, .f32⟩
  | .hbm, ⟨39, _⟩ => ⟨S1000, .f32⟩
  | .hbm, ⟨40, _⟩ => ⟨S_, .f32⟩
  | .hbm, ⟨41, _⟩ => ⟨S1000, .f32⟩
  | .hbm, ⟨42, _⟩ => ⟨S1000, .i1⟩
  | .hbm, ⟨43, _⟩ => ⟨S_, .f32⟩
  | .hbm, ⟨44, _⟩ => ⟨S1000, .f32⟩
  | .hbm, ⟨45, _⟩ => ⟨S1000, .f32⟩
  | .hbm, ⟨46, _⟩ => ⟨S1000, .f32⟩
  | .hbm, ⟨47, _⟩ => ⟨S_, .f32⟩
  | .hbm, ⟨48, _⟩ => ⟨S_, .f32⟩
  | .hbm, ⟨49, _⟩ => ⟨S1000, .f32⟩
  | .hbm, ⟨50, _⟩ => ⟨S1000, .f32⟩
  | .hbm, ⟨51, _⟩ => ⟨S1000x1, .f32⟩
  | .hbm, ⟨52, _⟩ => ⟨S_, .f32⟩
  | .hbm, ⟨53, _⟩ => ⟨S1000x1, .f32⟩
  | .hbm, ⟨54, _⟩ => ⟨S1000x1, .f32⟩
  | .hbm, ⟨55, _⟩ => ⟨S1000x768, .f32⟩
  | .hbm, ⟨56, _⟩ => ⟨S1000x768, .f32⟩
  | .hbm, ⟨57, _⟩ => ⟨S1000x768, .f32⟩
  | .hbm, ⟨58, _⟩ => ⟨S1000x768, .f32⟩
  | .hbm, ⟨59, _⟩ => ⟨S1000x768, .f32⟩
  | .hbm, ⟨60, _⟩ => ⟨S_, .f32⟩
  | .hbm, ⟨61, _⟩ => ⟨S1000x1, .f32⟩
  | .hbm, ⟨62, _⟩ => ⟨S1000x1, .f32⟩
  | .hbm, ⟨63, _⟩ => ⟨S1000x1, .f32⟩
  | .hbm, ⟨64, _⟩ => ⟨S1000x768, .f32⟩
  | .hbm, ⟨65, _⟩ => ⟨S1000x768, .f32⟩
  | .hbm, ⟨66, _⟩ => ⟨S1000x768, .f32⟩
  | .hbm, ⟨67, _⟩ => ⟨S1000x768, .f32⟩
  | .hbm, ⟨68, _⟩ => ⟨S1000x768, .f32⟩
  | .hbm, ⟨69, _⟩ => ⟨S_, .i32⟩
  | .hbm, ⟨70, _⟩ => ⟨S16384, .i32⟩
  | .hbm, ⟨71, _⟩ => ⟨S16384, .i1⟩
  | .hbm, ⟨72, _⟩ => ⟨S_, .i32⟩
  | .hbm, ⟨73, _⟩ => ⟨S16384, .i32⟩
  | .hbm, ⟨74, _⟩ => ⟨S16384, .i32⟩
  | .hbm, ⟨75, _⟩ => ⟨S16384, .i32⟩
  | .hbm, ⟨76, _⟩ => ⟨S16384x1, .i32⟩
  | .hbm, ⟨77, _⟩ => ⟨S16384x768, .f32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384x768, .f32⟩
  | .hbm, ⟨87, _⟩ => ⟨S1000x768, .f32⟩
  | .hbm, ⟨88, _⟩ => ⟨S768x1000, .f32⟩
  | .hbm, ⟨89, _⟩ => ⟨S16384x1000, .f32⟩
  | .hbm, ⟨90, _⟩ => ⟨S16384x768, .f32⟩
  | .hbm, ⟨91, _⟩ => ⟨S768x1000, .f32⟩
  | .hbm, ⟨92, _⟩ => ⟨S16384x1000, .f32⟩
  | .hbm, ⟨93, _⟩ => ⟨S16384x768, .f32⟩
  | .hbm, ⟨94, _⟩ => ⟨S16384x768, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S_, .f32⟩
  | .hbm, ⟨99, _⟩ => ⟨S16384x1000, .f32⟩
  | .hbm, ⟨100, _⟩ => ⟨S16384x1000, .f32⟩
  | .hbm, ⟨101, _⟩ => ⟨S16384x1000, .f32⟩
  | .hbm, ⟨102, _⟩ => ⟨S16384x1000, .f32⟩
  | .hbm, ⟨103, _⟩ => ⟨S16384x1000, .f32⟩
  | .hbm, ⟨104, _⟩ => ⟨S1x1, .f32⟩
  | .hbm, ⟨105, _⟩ => ⟨S16384x1000, .f32⟩
  | .hbm, ⟨106, _⟩ => ⟨S16384x1000, .f32⟩
  | .hbm, ⟨107, _⟩ => ⟨S_, .f32⟩
  | .hbm, ⟨108, _⟩ => ⟨S16384x1000, .f32⟩
  | .hbm, ⟨109, _⟩ => ⟨S16384x1000, .f32⟩
  | .hbm, ⟨110, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_8 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  reducesTo_S16384x1000_S1000_d0 : S16384x1000.ReducesTo [0] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  transposes_S16384x1000_S1000x16384_1_0 : S16384x1000.Transposes [1, 0] S1000x16384
  bcast_S1000x1_S1000x768_0_1 : S1000x1.BroadcastsInDim S1000x768 (![0, 1] : Fin 2 → Fin S1000x768.rank)
  bcast_S_S1000x768 : S_.BroadcastsInDim S1000x768 (![] : Fin 0 → Fin S1000x768.rank)
  bcast_S_S1000x1 : S_.BroadcastsInDim S1000x1 (![] : Fin 0 → Fin S1000x1.rank)
  bcast_S_S16384 : S_.BroadcastsInDim S16384 (![] : Fin 0 → Fin S16384.rank)
  transposes_S1000x768_S768x1000_1_0 : S1000x768.Transposes [1, 0] S768x1000
  reducesTo_S16384x768_S16384_d1 : S16384x768.ReducesTo [1] S16384
  bcast_S_S16384x1000 : S_.BroadcastsInDim S16384x1000 (![] : Fin 0 → Fin S16384x1000.rank)
  bcast_S1_S1x1_1 : S1.BroadcastsInDim S1x1 (![1] : Fin 1 → Fin S1x1.rank)
  bcast_S1x1_S16384x1000_0_1 : S1x1.BroadcastsInDim S16384x1000 (![0, 1] : Fin 2 → Fin S16384x1000.rank)
  dot_S1000x16384_S16384x768_S1000x768_1_0_0_1_n_n_wf : DotDims.WF S1000x16384 S16384x768 S1000x768 [1] [0] [0] [1] [] []
  gather_S1000x768_S16384x1_S16384x768_1_0_n_n_0_1_1768_wf : GatherDims.WF S1000x768 S16384x1 S16384x768 [1] [0] [] [0] [] 1 ![1, 768]
  dot_S16384x768_S768x1000_S16384x1000_1_0_0_1_n_n_wf : DotDims.WF S16384x768 S768x1000 S16384x1000 [1] [0] [0] [1] [] []

variable [Facts₀]

def dot_S1000x16384_S16384x768_S1000x768_1_0_0_1_n_n : DotDims S1000x16384 S16384x768 S1000x768 where
  lhsContracting := [1]
  rhsContracting := [0]
  lhsNonContracting := [0]
  rhsNonContracting := [1]
  lhsBatch := []
  rhsBatch := []
  wf := dot_S1000x16384_S16384x768_S1000x768_1_0_0_1_n_n_wf
def gather_S1000x768_S16384x1_S16384x768_1_0_n_n_0_1_1768 : GatherDims S1000x768 S16384x1 S16384x768 where
  offsetDims := [1]
  collapsedSliceDims := [0]
  operandBatchingDims := []
  startIndicesBatchingDims := []
  startIndexMap := [0]
  indexVectorDim := 1
  sliceSizes := ![1, 768]
  wf := gather_S1000x768_S16384x1_S16384x768_1_0_n_n_0_1_1768_wf
def dot_S16384x768_S768x1000_S16384x1000_1_0_0_1_n_n : DotDims S16384x768 S768x1000 S16384x1000 where
  lhsContracting := [1]
  rhsContracting := [0]
  lhsNonContracting := [0]
  rhsNonContracting := [1]
  lhsBatch := []
  rhsBatch := []
  wf := dot_S16384x768_S768x1000_S16384x1000_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Group.Finset.Basic

/-!
  The mathematics both programs compute, stated once over plain index types.

  From integer labels `l n` and features `f n a` the per-class moments are the one-hot sums
  `cnt k = Σₙ [l n = k]`, `sf k a = Σₙ [l n = k] · f n a`, `sf2 k a = Σₙ [l n = k] · f n a²`.
  A class's mean is `sf / max cnt 1`, its variance `(sf2 − 2·ave·sf + cnt·ave²) / max cnt 1`, and the
  covariance estimate is blended with the running one by the weight `cnt / max (cnt + cnt₀) 1`
  (zero when `cnt + cnt₀ ≤ 0`).  The augmentation term of class `k` against class `c` is the quadratic
  form `Σₐ nc k a · W c a² − 2 Σₐ W k a · nc k a · W c a + Σₐ W k a² · nc k a = Σₐ nc k a (W c a − W k a)²`.

  One program clamps the variance below at zero and looks the form up through a one-hot product of a
  table computed per class; the other gathers the class's rows per sample.  Both are written here with
  the float literals kept as their words, so that neither side evaluates one.
-/

noncomputable section

namespace Cert.Spec

open Idealize.ShloMosaic
open scoped BigOperators

/-- The words of the literals 0, 1, 2 and 1/2. -/
abbrev w0 : EReal := Ideal.ofBits .f32 0x00000000#32
abbrev w1 : EReal := Ideal.ofBits .f32 0x3F800000#32
abbrev w2 : EReal := Ideal.ofBits .f32 0x40000000#32
abbrev wh : EReal := Ideal.ofBits .f32 0x3F000000#32

/-- A one-hot entry: one where the label is the class, zero elsewhere. -/
def oh (l : BitVec 32) (k : Fin 1000) : EReal := if l = BitVec.ofNat 32 k.val then 1 else 0

/-- The number of samples of class `k`. -/
def cnt (l : Fin 16384 → BitVec 32) (k : Fin 1000) : EReal := ∑ n, oh (l n) k
/-- The sum of feature `a` over the samples of class `k`. -/
def sf (l : Fin 16384 → BitVec 32) (f : Fin 16384 → Fin 768 → EReal) (k : Fin 1000) (a : Fin 768) : EReal :=
  ∑ n, oh (l n) k * f n a
/-- The sum of the squared feature `a` over the samples of class `k`. -/
def sf2 (l : Fin 16384 → BitVec 32) (f : Fin 16384 → Fin 768 → EReal) (k : Fin 1000) (a : Fin 768) : EReal :=
  ∑ n, oh (l n) k * (f n a * f n a)

/-- The divisor `max cnt 1`. -/
def amount (c : EReal) : EReal := max c w1
/-- The class mean of a feature. -/
def ave (s c : EReal) : EReal := Ideal.div s (amount c)
/-- The class variance of a feature, by the expanded square. -/
def var0 (s s2 c : EReal) : EReal :=
  Ideal.div ((s2 - (w2 * ave s c) * s) + (c * ave s c) * ave s c) (amount c)
/-- The blending weight of the new estimate. -/
def wgt (c c0 : EReal) : EReal :=
  Scalar.select (Ideal.cmp .ogt (c + c0) w0) (Ideal.div c (max (c + c0) w1)) w0
/-- The blended covariance from a variance `v`. -/
def ncovOf (v s c c0 mean cov : EReal) : EReal :=
  (cov * (w1 - wgt c c0) + v * wgt c c0) + (wgt c c0 * (w1 - wgt c c0)) * ((mean - ave s c) * (mean - ave s c))
/-- With the variance clamped below at zero. -/
def ncovK (s s2 c c0 mean cov : EReal) : EReal := ncovOf (max (var0 s s2 c) w0) s c c0 mean cov
/-- With the variance as computed. -/
def ncovR (s s2 c c0 mean cov : EReal) : EReal := ncovOf (var0 s s2 c) s c c0 mean cov

/-- The blended covariance table from the moments `cn`, `s`, `s2`, variance clamped. -/
def ncTabK (cn : Fin 1000 → EReal) (s s2 : Fin 1000 → Fin 768 → EReal) (c0 : Fin 1000 → EReal)
    (mean cov : Fin 1000 → Fin 768 → EReal) (k : Fin 1000) (a : Fin 768) : EReal :=
  ncovK (s k a) (s2 k a) (cn k) (c0 k) (mean k a) (cov k a)
/-- The blended covariance table from the moments, variance as computed. -/
def ncTabR (cn : Fin 1000 → EReal) (s s2 : Fin 1000 → Fin 768 → EReal) (c0 : Fin 1000 → EReal)
    (mean cov : Fin 1000 → Fin 768 → EReal) (k : Fin 1000) (a : Fin 768) : EReal :=
  ncovR (s k a) (s2 k a) (cn k) (c0 k) (mean k a) (cov k a)

/-- The quadratic form of class `k`'s covariance row against weight rows `c` and `k`. -/
def quad (nc W : Fin 1000 → Fin 768 → EReal) (k c : Fin 1000) : EReal :=
  ((∑ a, nc k a * (W c a * W c a)) - w2 * (∑ a, (W k a * nc k a) * W c a)) + ∑ a, (W k a * W k a) * nc k a

/-- The per-class table: half the ratio times the form. -/
def tab (nc W : Fin 1000 → Fin 768 → EReal) (ratio : EReal) (k c : Fin 1000) : EReal :=
  (wh * ratio) * quad nc W k c

/-- The table looked up by a one-hot product, in a high and a low part, added to `y`. -/
def lookup (y : Fin 16384 → Fin 1000 → EReal) (l : Fin 16384 → BitVec 32) (hi lo : Fin 1000 → Fin 1000 → EReal)
    (n : Fin 16384) (c : Fin 1000) : EReal :=
  (y n c + ∑ j, oh (l n) j * hi j c) + ∑ j, oh (l n) j * lo j c

/-- The result by the table and the one-hot lookup. -/
def KOut (y : Fin 16384 → Fin 1000 → EReal) (f : Fin 16384 → Fin 768 → EReal) (W : Fin 1000 → Fin 768 → EReal)
    (l : Fin 16384 → BitVec 32) (c0 : Fin 1000 → EReal) (mean cov : Fin 1000 → Fin 768 → EReal) (ratio : EReal)
    (n : Fin 16384) (c : Fin 1000) : EReal :=
  lookup y l (tab (ncTabK (cnt l) (sf l f) (sf2 l f) c0 mean cov) W ratio)
    (fun j q => tab (ncTabK (cnt l) (sf l f) (sf2 l f) c0 mean cov) W ratio j q
      - tab (ncTabK (cnt l) (sf l f) (sf2 l f) c0 mean cov) W ratio j q) n c

/-- Sample `512·(16·p + j) + r`: row `r` of tile `j` of half `p` of the samples. -/
def row (p : Fin 2) (j : Fin 16) (r : Fin 512) : Fin 16384 := ⟨8192 * p.val + 512 * j.val + r.val, by omega⟩

/-- A label as a row index: negative labels wrapped by the extent, then read signed and clamped. -/
def rowOf (l : BitVec 32) : Fin 1000 :=
  ⟨min (Scalar.select (IntOp.cmpi .slt l 0#32) (l + 1000#32) l).toInt.toNat 999, by omega⟩

/-- The result by gathering the class's rows per sample. -/
def ROut (y : Fin 16384 → Fin 1000 → EReal) (f : Fin 16384 → Fin 768 → EReal) (W : Fin 1000 → Fin 768 → EReal)
    (l : Fin 16384 → BitVec 32) (c0 : Fin 1000 → EReal) (mean cov : Fin 1000 → Fin 768 → EReal) (ratio : EReal)
    (n : Fin 16384) (c : Fin 1000) : EReal :=
  y n c + wh * (ratio * quad (ncTabR (cnt l) (sf l f) (sf2 l f) c0 mean cov) W (rowOf (l n)) c)

end Cert.Spec

end
-- ==== Proof.Region0.lean ====
import proofs.«402928_j18021682774196_3_alg».proof.Proof.Gen.KernelIdeal.Frame
import proofs.«402928_j18021682774196_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

/-!
  The first region's three result arrays: per half `p` of the samples, the one-hot sums over that half's
  sixteen tiles of 512 rows — the class sums of the features, of their squares, and the class counts.
-/

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## The body's arithmetic at an index, over the extended reals -/

/-- The word a comparison bit converts to: one when the two words agree, zero when not. -/
theorem onehot_word (l y : BitVec 32) :
    (FloatOps.sitofp (F := Ideal) .f32 ((IntOp.cmpi .eq l y).setWidth 32) : EReal) = if l = y then 1 else 0 := by
  show (((BitVec.setWidth 32 (IntOp.cmpi .eq l y)).toInt : ℝ) : EReal) = _
  by_cases h : l = y
  · subst h
    have e : IntOp.cmpi .eq l l = 1#1 := by simp [IntOp.cmpi]
    rw [e, if_pos rfl]
    have e2 : (BitVec.setWidth 32 1#1).toInt = 1 := by decide
    rw [e2]; simp
  · have hb : (l == y) = false := beq_eq_false_iff_ne.mpr h
    have e : IntOp.cmpi .eq l y = 0#1 := by
      show BitVec.ofBool (l == y) = 0#1
      rw [hb]; rfl
    rw [e, if_neg h]
    have e2 : (BitVec.setWidth 32 0#1).toInt = 0 := by decide
    rw [e2]; simp

/-- The one-hot matrix of a tile: entry (r, k) is one when row r's label is class k. -/
theorem pay5_apply (x1 : Vec Ideal S512 .i32) (r : Fin 512) (k : Fin 1000) :
    k0_pay5 (F := Ideal) x1 (ix2 r k) = Spec.oh (x1 (ix1 r)) k := by
  have e1 : ∀ (h1 : S512.ShapeCasts S512x1) (h2 : S512x1.Broadcasts S512x1000),
      broadcastTo S512x1000 (shapeCast S512x1 x1 h1) h2 (ix2 r k) = x1 (ix1 r) := fun h1 h2 => by
    refine (broadcastTo_apply _ h2 (ix2 r k) (ix2 r (0 : Fin 1)) ?_).trans ?_
    · intro a
      match a with
      | ⟨0, _⟩ => show r.val = if (512 : Nat) = 1 then 0 else r.val; rw [if_neg (by decide)]
      | ⟨1, _⟩ => show (0 : Nat) = if (1 : Nat) = 1 then 0 else k.val; rw [if_pos rfl]
    · refine shapeCast_apply x1 h1 (ix2 r (0 : Fin 1)) (ix1 r) ?_
      rw [Shape.rowMajor_val_one, Shape.rowMajor_val_two]
      show r.val = r.val * 1 + 0
      omega
  have e2 : ∀ h3, iota .tc S512x1000 32 [1] h3 (ix2 r k) = BitVec.ofNat 32 k.val :=
    fun h3 => iota_single_apply _ _ _ _ h3 _
  unfold k0_pay5 Spec.oh
  show FloatOps.sitofp .f32 ((IntOp.cmpi .eq (broadcastTo S512x1000 (shapeCast S512x1 x1 _) _ (ix2 r k))
    (iota .tc S512x1000 32 [1] _ (ix2 r k))).setWidth 32) = _
  rw [e1, e2]
  exact onehot_word _ _

/-- The matmul's operand indices, axis by axis: both operands are contracted over their rows. -/
theorem lhs_mm_0 (i : S1000x1536.Idx) (q : dot_S512x1000_S512x1536_S1000x1536_0_0_1_1_n_n.contr.Idx) :
    (dot_S512x1000_S512x1536_S1000x1536_0_0_1_1_n_n.lhsIdx i q 0).val = (q ⟨0, by decide⟩).val :=
  dot_S512x1000_S512x1536_S1000x1536_0_0_1_1_n_n.lhsIdx_val_of_single rfl i q
theorem lhs_mm_1 (i : S1000x1536.Idx) (q : dot_S512x1000_S512x1536_S1000x1536_0_0_1_1_n_n.contr.Idx) :
    (dot_S512x1000_S512x1536_S1000x1536_0_0_1_1_n_n.lhsIdx i q 1).val = (i 0).val := by
  unfold DotDims.lhsIdx
  rw [dif_neg (show ¬(1 : Fin S512x1000.rank) ∈ dot_S512x1000_S512x1536_S1000x1536_0_0_1_1_n_n.lhsBatch by decide), dif_pos (show (1 : Fin S512x1000.rank) ∈ dot_S512x1000_S512x1536_S1000x1536_0_0_1_1_n_n.lhsNonContracting by decide)]
  rfl
theorem rhs_mm_0 (i : S1000x1536.Idx) (q : dot_S512x1000_S512x1536_S1000x1536_0_0_1_1_n_n.contr.Idx) :
    (dot_S512x1000_S512x1536_S1000x1536_0_0_1_1_n_n.rhsIdx i q 0).val = (q ⟨0, by decide⟩).val :=
  dot_S512x1000_S512x1536_S1000x1536_0_0_1_1_n_n.rhsIdx_val_of_single rfl i q
theorem rhs_mm_1 (i : S1000x1536.Idx) (q : dot_S512x1000_S512x1536_S1000x1536_0_0_1_1_n_n.contr.Idx) :
    (dot_S512x1000_S512x1536_S1000x1536_0_0_1_1_n_n.rhsIdx i q 1).val = (i 1).val := by
  unfold DotDims.rhsIdx
  rw [dif_neg (show ¬(1 : Fin S512x1536.rank) ∈ dot_S512x1000_S512x1536_S1000x1536_0_0_1_1_n_n.rhsBatch by decide), dif_pos (show (1 : Fin S512x1536.rank) ∈ dot_S512x1000_S512x1536_S1000x1536_0_0_1_1_n_n.rhsNonContracting by decide)]
  rfl

/-- The product into a zero accumulator: entry (k, a) sums, over the tile's rows, the products of the operands' rows. -/
theorem mm_apply (L : FVec Ideal S512x1000 .bf16) (R : FVec Ideal S512x1536 .bf16) (k : Fin 1000) (a : Fin 1536) :
    matmul dot_S512x1000_S512x1536_S1000x1536_0_0_1_1_n_n none L R (constant (F := Ideal) S1000x1536 .f32 0x00000000#32) (ix2 k a)
      = ∑ r : Fin 512, L (ix2 r k) * R (ix2 r a) := by
  simp only [matmul]
  rw [Ideal.matmul_constant_zero_apply, ← Equiv.sum_comp (contrEquiv1 dot_S512x1000_S512x1536_S1000x1536_0_0_1_1_n_n 512 rfl rfl).symm]
  refine Finset.sum_congr rfl fun r _ => ?_
  have hk := contrEquiv1_symm_val dot_S512x1000_S512x1536_S1000x1536_0_0_1_1_n_n 512 rfl rfl r
  have el : dot_S512x1000_S512x1536_S1000x1536_0_0_1_1_n_n.lhsIdx (ix2 k a) ((contrEquiv1 dot_S512x1000_S512x1536_S1000x1536_0_0_1_1_n_n 512 rfl rfl).symm r) = ix2 r k := funext fun b => Fin.ext (by
    match b with
    | ⟨0, _⟩ => exact (lhs_mm_0 _ _).trans hk
    | ⟨1, _⟩ => exact lhs_mm_1 _ _)
  have er : dot_S512x1000_S512x1536_S1000x1536_0_0_1_1_n_n.rhsIdx (ix2 k a) ((contrEquiv1 dot_S512x1000_S512x1536_S1000x1536_0_0_1_1_n_n 512 rfl rfl).symm r) = ix2 r a := funext fun b => Fin.ext (by
    match b with
    | ⟨0, _⟩ => exact (rhs_mm_0 _ _).trans hk
    | ⟨1, _⟩ => exact rhs_mm_1 _ _)
  rw [el, er]

/-- The left half of the product's columns: the one-hot sums of the features. -/
theorem pay6_left (x1 : Vec Ideal S512 .i32) (x0 : Vec Ideal S512x768 .f32) (k : Fin 1000) (a : Fin 768) :
    k0_pay6 (F := Ideal) x1 x0 (ix2 k (⟨a.val, by omega⟩ : Fin 1536))
      = ∑ r : Fin 512, Spec.oh (x1 (ix1 r)) k * x0 (ix2 r a) := by
  unfold k0_pay6
  refine (mm_apply _ _ k _).trans (Finset.sum_congr rfl fun r _ => ?_)
  refine congrArg₂ (· * ·) (pay5_apply x1 r k) ?_
  exact concatenate_pair_apply_left (t := S512x1536) (s₁ := S512x768) (s₂ := S512x768) (1 : Fin 2) _ _ _ (ix2 r (⟨a.val, by omega⟩ : Fin 1536)) rfl (ix2 r a)
    (fun b => by match b with | ⟨0, _⟩ => rfl | ⟨1, _⟩ => rfl)

/-- The right half of the product's columns: the one-hot sums of the squared features. -/
theorem pay6_right (x1 : Vec Ideal S512 .i32) (x0 : Vec Ideal S512x768 .f32) (k : Fin 1000) (a : Fin 768) :
    k0_pay6 (F := Ideal) x1 x0 (ix2 k (⟨768 + a.val, by omega⟩ : Fin 1536))
      = ∑ r : Fin 512, Spec.oh (x1 (ix1 r)) k * (x0 (ix2 r a) * x0 (ix2 r a)) := by
  unfold k0_pay6
  refine (mm_apply _ _ k _).trans (Finset.sum_congr rfl fun r _ => ?_)
  refine congrArg₂ (· * ·) (pay5_apply x1 r k) ?_
  exact concatenate_pair_apply_right (t := S512x1536) (s₁ := S512x768) (s₂ := S512x768) (1 : Fin 2) _ _ _ (ix2 r (⟨768 + a.val, by omega⟩ : Fin 1536)) rfl rfl (ix2 r a)
    (fun b hb => by match b with | ⟨0, _⟩ => rfl | ⟨1, _⟩ => exact absurd rfl hb)
    (show a.val + 768 = 768 + a.val by omega)

/-- What the update leaves in the first buffer at (0, k, a): what it held plus the tile's one-hot sum of feature a. -/
theorem pay8_apply (x1 : Vec Ideal S512 .i32) (x0 : Vec Ideal S512x768 .f32) (v22 : Vec Ideal S1x1000x768 .f32)
    (k : Fin 1000) (a : Fin 768) :
    k0_pay8 (F := Ideal) x1 x0 v22 (ix3 (0 : Fin 1) k a)
      = v22 (ix3 (0 : Fin 1) k a) + ∑ r : Fin 512, Spec.oh (x1 (ix1 r)) k * x0 (ix2 r a) := by
  unfold k0_pay8
  refine (shapeCast_ab_1ab_apply _ _ (0 : Fin 1) k a).trans ?_
  refine (addf_apply _ _ _).trans ?_
  refine congrArg₂ (· + ·) (shapeCast_1ab_ab_apply v22 _ k a) ?_
  exact (slice2_axis1_apply 0 _ _ k a (⟨a.val, by omega⟩ : Fin 1536) (Nat.zero_add _).symm).trans (pay6_left x1 x0 k a)

/-- What the update leaves in the second buffer at (0, k, a): what it held plus the tile's one-hot sum of the squared feature. -/
theorem pay9_apply (x1 : Vec Ideal S512 .i32) (x0 : Vec Ideal S512x768 .f32) (v28 : Vec Ideal S1x1000x768 .f32)
    (k : Fin 1000) (a : Fin 768) :
    k0_pay9 (F := Ideal) x1 x0 v28 (ix3 (0 : Fin 1) k a)
      = v28 (ix3 (0 : Fin 1) k a) + ∑ r : Fin 512, Spec.oh (x1 (ix1 r)) k * (x0 (ix2 r a) * x0 (ix2 r a)) := by
  unfold k0_pay9
  refine (shapeCast_ab_1ab_apply _ _ (0 : Fin 1) k a).trans ?_
  refine (addf_apply _ _ _).trans ?_
  refine congrArg₂ (· + ·) (shapeCast_1ab_ab_apply v28 _ k a) ?_
  exact (slice2_axis1_apply 768 _ _ k a (⟨768 + a.val, by omega⟩ : Fin 1536) rfl).trans (pay6_right x1 x0 k a)

/-- The tile's class counts: the column sums of the one-hot matrix. -/
theorem pay7_apply (x1 : Vec Ideal S512 .i32) (k : Fin 1000) :
    k0_pay7 (F := Ideal) x1 (ix2 (0 : Fin 1) k) = ∑ r : Fin 512, Spec.oh (x1 (ix1 r)) k := by
  unfold k0_pay7
  refine (shapeCast_a_1a_apply _ _ (0 : Fin 1) k).trans ?_
  refine (Ideal.multiReduction_add_single (k0_pay5 (F := Ideal) x1) 0x00000000#32 _ _ _ (ix1 k)).trans ?_
  refine Finset.sum_congr rfl fun r _ => ?_
  refine Eq.trans (congrArg (k0_pay5 (F := Ideal) x1) ?_) (pay5_apply x1 r k)
  funext b
  match b with
  | ⟨0, _⟩ => rfl
  | ⟨1, _⟩ => rfl

/-- What the update leaves in the third buffer at (0, 0, k): what it held plus the tile's count of class k. -/
theorem pay1_apply (x1 : Vec Ideal S512 .i32) (v34 : Vec Ideal S1x1x1000 .f32) (k : Fin 1000) :
    k0_pay1 (F := Ideal) (k0_pay7 (F := Ideal) x1) v34 (ix3 (0 : Fin 1) (0 : Fin 1) k)
      = v34 (ix3 (0 : Fin 1) (0 : Fin 1) k) + ∑ r : Fin 512, Spec.oh (x1 (ix1 r)) k := by
  unfold k0_pay1
  refine (shapeCast_ab_1ab_apply _ _ (0 : Fin 1) (0 : Fin 1) k).trans ?_
  refine (addf_apply _ _ _).trans ?_
  exact congrArg₂ (· + ·) (shapeCast_1ab_ab_apply v34 _ (0 : Fin 1) k) (pay7_apply x1 k)

/-- The reset's blocks are zero everywhere. -/
theorem pay2_apply (j : S1x1000x768.Idx) : k0_pay2 (F := Ideal) j = 0 := by
  unfold k0_pay2
  exact Ideal.ofBits_zero_f32
theorem pay3_apply (j : S1x1000x768.Idx) : k0_pay3 (F := Ideal) j = 0 := by
  unfold k0_pay3
  exact Ideal.ofBits_zero_f32
theorem pay4_apply (j : S1x1x1000.Idx) : k0_pay4 (F := Ideal) j = 0 := by
  unfold k0_pay4
  exact Ideal.ofBits_zero_f32

/-! ## What each case of the body leaves in the three buffers

A point whose second grid coordinate is zero first stores zero blocks and then updates them; every other point
updates what the point before left. Each buffer ends at one whole-block store, so what it holds is that store's value
at the whole-block loads of the inputs and of the buffer itself. -/

section Pieces
variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- An updating point leaves in the first buffer the update of what it held. -/
theorem piece_B_2 (c : Dev nD) (i : grid0.Coords) (a2 : Memref sig .tc .vmem S512x768 .f32) (h2 : a2.IsWhole) (a3 : Memref sig .tc .vmem S512 .i32) (h3 : a3.IsWhole) (a4 : Memref sig .tc .vmem S1x1000x768 .f32) (h4 : a4.IsWhole) (a5 : Memref sig .tc .vmem S1x1000x768 .f32) (h5 : a5.IsWhole) (a6 : Memref sig .tc .vmem S1x1x1000 .f32) (h6 : a6.IsWhole) (hc : ¬cond0_0 i)
    (x0 : Vec F S512x768 .f32) (x1 : Vec F S512 .i32) (xo2 : Vec F S1x1000x768 .f32) (xo3 : Vec F S1x1000x768 .f32) (xo4 : Vec F S1x1x1000 .f32) :
    out0_B_2 c i a2 h2 a3 h3 a4 h4 a5 h5 a6 h6 hc x0 x1 xo2 xo3 xo4 = k0_pay8 x1 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S512x768) hz2, View.ld_unit_zero (S := S512) hz1, View.ld_unit_zero (S := S1x1000x768) hz3,
    View.ld_unit_zero (S := S1x1x1000) hz3]

/-- An updating point leaves in the second buffer the update of what it held. -/
theorem piece_B_3 (c : Dev nD) (i : grid0.Coords) (a2 : Memref sig .tc .vmem S512x768 .f32) (h2 : a2.IsWhole) (a3 : Memref sig .tc .vmem S512 .i32) (h3 : a3.IsWhole) (a4 : Memref sig .tc .vmem S1x1000x768 .f32) (h4 : a4.IsWhole) (a5 : Memref sig .tc .vmem S1x1000x768 .f32) (h5 : a5.IsWhole) (a6 : Memref sig .tc .vmem S1x1x1000 .f32) (h6 : a6.IsWhole) (hc : ¬cond0_0 i)
    (x0 : Vec F S512x768 .f32) (x1 : Vec F S512 .i32) (xo2 : Vec F S1x1000x768 .f32) (xo3 : Vec F S1x1000x768 .f32) (xo4 : Vec F S1x1x1000 .f32) :
    out0_B_3 c i a2 h2 a3 h3 a4 h4 a5 h5 a6 h6 hc x0 x1 xo2 xo3 xo4 = k0_pay9 x1 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S512x768) hz2, View.ld_unit_zero (S := S512) hz1, View.ld_unit_zero (S := S1x1000x768) hz3,
    View.ld_unit_zero (S := S1x1x1000) hz3]

/-- An updating point leaves in the third buffer the update of what it held. -/
theorem piece_B_4 (c : Dev nD) (i : grid0.Coords) (a2 : Memref sig .tc .vmem S512x768 .f32) (h2 : a2.IsWhole) (a3 : Memref sig .tc .vmem S512 .i32) (h3 : a3.IsWhole) (a4 : Memref sig .tc .vmem S1x1000x768 .f32) (h4 : a4.IsWhole) (a5 : Memref sig .tc .vmem S1x1000x768 .f32) (h5 : a5.IsWhole) (a6 : Memref sig .tc .vmem S1x1x1000 .f32) (h6 : a6.IsWhole) (hc : ¬cond0_0 i)
    (x0 : Vec F S512x768 .f32) (x1 : Vec F S512 .i32) (xo2 : Vec F S1x1000x768 .f32) (xo3 : Vec F S1x1000x768 .f32) (xo4 : Vec F S1x1x1000 .f32) :
    out0_B_4 c i a2 h2 a3 h3 a4 h4 a5 h5 a6 h6 hc x0 x1 xo2 xo3 xo4 = k0_pay1 (k0_pay7 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S512x768) hz2, View.ld_unit_zero (S := S512) hz1, View.ld_unit_zero (S := S1x1000x768) hz3,
    View.ld_unit_zero (S := S1x1x1000) hz3]

/-- A resetting point leaves in the first buffer the update of the zero block. -/
theorem piece_A_2 (c : Dev nD) (i : grid0.Coords) (a2 : Memref sig .tc .vmem S512x768 .f32) (h2 : a2.IsWhole) (a3 : Memref sig .tc .vmem S512 .i32) (h3 : a3.IsWhole) (a4 : Memref sig .tc .vmem S1x1000x768 .f32) (h4 : a4.IsWhole) (a5 : Memref sig .tc .vmem S1x1000x768 .f32) (h5 : a5.IsWhole) (a6 : Memref sig .tc .vmem S1x1x1000 .f32) (h6 : a6.IsWhole) (hc : cond0_0 i)
    (x0 : Vec F S512x768 .f32) (x1 : Vec F S512 .i32) :
    out0_A_2 c i a2 h2 a3 h3 a4 h4 a5 h5 a6 h6 hc x0 x1 = k0_pay8 x1 x0 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1000x768) hz3, View.readCov_unit_zero (S := S1x1000x768) _ hz3]
  simp only [View.readAt_eq_ld, h2.read_unread, h3.read_unread, h4.read_unread, h5.read_unread, h6.read_unread,
    View.ld_unit_zero (S := S512x768) hz2, View.ld_unit_zero (S := S512) hz1, View.ld_unit_zero (S := S1x1000x768) hz3,
    View.ld_unit_zero (S := S1x1x1000) hz3]

/-- A resetting point leaves in the second buffer the update of the zero block. -/
theorem piece_A_3 (c : Dev nD) (i : grid0.Coords) (a2 : Memref sig .tc .vmem S512x768 .f32) (h2 : a2.IsWhole) (a3 : Memref sig .tc .vmem S512 .i32) (h3 : a3.IsWhole) (a4 : Memref sig .tc .vmem S1x1000x768 .f32) (h4 : a4.IsWhole) (a5 : Memref sig .tc .vmem S1x1000x768 .f32) (h5 : a5.IsWhole) (a6 : Memref sig .tc .vmem S1x1x1000 .f32) (h6 : a6.IsWhole) (hc : cond0_0 i)
    (x0 : Vec F S512x768 .f32) (x1 : Vec F S512 .i32) :
    out0_A_3 c i a2 h2 a3 h3 a4 h4 a5 h5 a6 h6 hc x0 x1 = k0_pay9 x1 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1000x768) hz3, View.readCov_unit_zero (S := S1x1000x768) _ hz3]
  simp only [View.readAt_eq_ld, h2.read_unread, h3.read_unread, h4.read_unread, h5.read_unread, h6.read_unread,
    View.ld_unit_zero (S := S512x768) hz2, View.ld_unit_zero (S := S512) hz1, View.ld_unit_zero (S := S1x1000x768) hz3,
    View.ld_unit_zero (S := S1x1x1000) hz3]

/-- A resetting point leaves in the third buffer the update of the zero block. -/
theorem piece_A_4 (c : Dev nD) (i : grid0.Coords) (a2 : Memref sig .tc .vmem S512x768 .f32) (h2 : a2.IsWhole) (a3 : Memref sig .tc .vmem S512 .i32) (h3 : a3.IsWhole) (a4 : Memref sig .tc .vmem S1x1000x768 .f32) (h4 : a4.IsWhole) (a5 : Memref sig .tc .vmem S1x1000x768 .f32) (h5 : a5.IsWhole) (a6 : Memref sig .tc .vmem S1x1x1000 .f32) (h6 : a6.IsWhole) (hc : cond0_0 i)
    (x0 : Vec F S512x768 .f32) (x1 : Vec F S512 .i32) :
    out0_A_4 c i a2 h2 a3 h3 a4 h4 a5 h5 a6 h6 hc x0 x1 = k0_pay1 (k0_pay7 x1) (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x1000) hz3, View.readCov_unit_zero (S := S1x1x1000) _ hz3]
  simp only [View.readAt_eq_ld, h2.read_unread, h3.read_unread, h4.read_unread, h5.read_unread, h6.read_unread,
    View.ld_unit_zero (S := S512x768) hz2, View.ld_unit_zero (S := S512) hz1, View.ld_unit_zero (S := S1x1000x768) hz3,
    View.ld_unit_zero (S := S1x1x1000) hz3]

end Pieces

variable (V : (c : Dev nD) → (b : Ref sig .tc) → Buf (Elt Ideal) ((c : Thread nD τ).loc b))

/-- The labels the region finds, by sample. -/
abbrev lab0 (c : Dev nD) : Fin 16384 → BitVec 32 := fun n => V c main_arg3 (ix1 n)
/-- The features the region finds, by sample and feature. -/
abbrev feat0 (c : Dev nD) : Fin 16384 → Fin 768 → EReal := fun n a => V c main_arg1 (ix2 n a)

/-! ## The tiles the region reads -/

/-- Tile `t`'s rows of the features. -/
abbrev fblk (c : Dev nD) (t : Fin cfg0.N) : Vec Ideal S512x768 .f32 := iblk0 V c 0 t
/-- Tile `t`'s rows of the labels. -/
abbrev lblk (c : Dev nD) (t : Fin cfg0.N) : Vec Ideal S512 .i32 := iblk0 V c 1 t

/-- The index maps over the grid: point `t` reads tile `t` of both inputs and writes half `t / 16` of each result. -/
theorem idx_facts : ∀ t : Fin cfg0.N, win0_0.index t (0 : Fin 2) = t.val ∧ win0_0.index t (1 : Fin 2) = 0
    ∧ win0_1.index t (0 : Fin 1) = t.val
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- Row `r` of tile `t` of the features is sample `512 t + r`. -/
theorem fblk_apply (c : Dev nD) (t : Fin cfg0.N) (r : Fin 512) (a : Fin 768) (n : Fin 16384)
    (hn : n.val = 512 * t.val + r.val) : fblk V c t (ix2 r a) = feat0 V c n a := by
  show iblk0 V c 0 t (ix2 r a) = V c main_arg1 (ix2 n a)
  unfold iblk0
  rw [View.read_apply]
  show V c main_arg1 _ = V c main_arg1 _
  congr 1
  funext b
  apply Fin.ext
  have e0 : win0_0.index t (0 : Fin 2) = t.val := (idx_facts t).1
  have e1 : win0_0.index t (1 : Fin 2) = 0 := (idx_facts t).2.1
  match b with
  | ⟨0, _⟩ => show win0_0.index t (0 : Fin 2) * 512 + 1 * r.val = n.val; rw [e0]; omega
  | ⟨1, _⟩ => show win0_0.index t (1 : Fin 2) * 768 + 1 * a.val = a.val; rw [e1]; omega

/-- Row `r` of tile `t` of the labels is sample `512 t + r`. -/
theorem lblk_apply (c : Dev nD) (t : Fin cfg0.N) (r : Fin 512) (n : Fin 16384)
    (hn : n.val = 512 * t.val + r.val) : lblk V c t (ix1 r) = lab0 V c n := by
  show iblk0 V c 1 t (ix1 r) = V c main_arg3 (ix1 n)
  unfold iblk0
  rw [View.read_apply]
  show V c main_arg3 _ = V c main_arg3 _
  congr 1
  funext b
  apply Fin.ext
  have e0 : win0_1.index t (0 : Fin 1) = t.val := (idx_facts t).2.2.1
  match b with
  | ⟨0, _⟩ => show win0_1.index t (0 : Fin 1) * 512 + 1 * r.val = n.val; rw [e0]; omega

/-! ## The running sums

Within a half the sixteen points run in order; the first restarts each buffer from zero and every point adds its
tile's one-hot sums, so after a half's point `j` a buffer holds the sums over the half's tiles `0 … j`. -/

/-- A tile's contribution `g` of its labels and features, by tile number (zero past the grid). -/
def tsum (g : Vec Ideal S512 .i32 → Vec Ideal S512x768 .f32 → EReal) (c : Dev nD) (n : ℕ) : EReal :=
  if h : n < cfg0.N then g (lblk V c ⟨n, h⟩) (fblk V c ⟨n, h⟩) else 0

/-- Inside the grid it is the contribution of that tile. -/
theorem tsum_pos (g : Vec Ideal S512 .i32 → Vec Ideal S512x768 .f32 → EReal) (c : Dev nD) (n : ℕ) (h : n < cfg0.N) :
    tsum V g c n = g (lblk V c ⟨n, h⟩) (fblk V c ⟨n, h⟩) := dif_pos h

/-- A quantity that restarts at `0 + T n` at the points `n ≡ 0 (mod 16)` and grows by `T n` at the others is, after
    point `n`, the sum of `T` from the last restart to `n`. -/
theorem acc_closed (S : (n : ℕ) → n < cfg0.N → EReal) (T : ℕ → EReal)
    (hA : ∀ n (hn : n < cfg0.N), n % 16 = 0 → S n hn = 0 + T n)
    (hB : ∀ n (hn : n < cfg0.N) (hn' : n + 1 < cfg0.N), ¬(n + 1) % 16 = 0 → S (n + 1) hn' = S n hn + T (n + 1)) :
    ∀ n (hn : n < cfg0.N), S n hn = ∑ i ∈ Finset.range (n % 16 + 1), T (n - n % 16 + i)
  | 0, hn => by rw [hA 0 hn rfl]; simp
  | n + 1, hn => by
    by_cases h : (n + 1) % 16 = 0
    · rw [hA _ hn h, h]; simp
    · have hn0 : n < cfg0.N := Nat.lt_of_succ_lt hn
      rw [hB n hn0 hn h, acc_closed S T hA hB n hn0]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-- A tile's one-hot sum of feature `a` for class `k`, of its square, and its count of class `k`. -/
abbrev gF (k : Fin 1000) (a : Fin 768) : Vec Ideal S512 .i32 → Vec Ideal S512x768 .f32 → EReal :=
  fun x1 x0 => ∑ r : Fin 512, Spec.oh (x1 (ix1 r)) k * x0 (ix2 r a)
abbrev gF2 (k : Fin 1000) (a : Fin 768) : Vec Ideal S512 .i32 → Vec Ideal S512x768 .f32 → EReal :=
  fun x1 x0 => ∑ r : Fin 512, Spec.oh (x1 (ix1 r)) k * (x0 (ix2 r a) * x0 (ix2 r a))
abbrev gC (k : Fin 1000) : Vec Ideal S512 .i32 → Vec Ideal S512x768 .f32 → EReal :=
  fun x1 _ => ∑ r : Fin 512, Spec.oh (x1 (ix1 r)) k

/-! ### Each buffer after a point, by the point's case -/

/-- The first buffer after a resetting point: the update of the zero block by the point's tile. -/
theorem outA_2 (c : Dev nD) (t : Fin cfg0.N) (h0 : t.val % 16 = 0) :
    (outsAt0 V c t.val t.isLt).1 = k0_pay8 (F := Ideal) (lblk V c t) (fblk V c t) (k0_pay2 (F := Ideal)) := by
  rw [outsAt0_A V c t h0]
  dsimp only
  exact piece_A_2 (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk0 V c 0 t) (iblk0 V c 1 t)
/-- The first buffer after any other point: the update, by the point's tile, of what the point before left. -/
theorem outB_2 (c : Dev nD) (t : Fin cfg0.N) (h0 : ¬t.val % 16 = 0) :
    (outsAt0 V c t.val t.isLt).1 = k0_pay8 (F := Ideal) (lblk V c t) (fblk V c t) (outsAt0 V c (t.val - 1) (Nat.lt_of_le_of_lt (Nat.sub_le _ _) t.isLt)).1 := by
  rw [outsAt0_B V c t h0]
  dsimp only
  exact piece_B_2 (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2

/-- The second buffer after a resetting point: the update of the zero block by the point's tile. -/
theorem outA_3 (c : Dev nD) (t : Fin cfg0.N) (h0 : t.val % 16 = 0) :
    (outsAt0 V c t.val t.isLt).2.1 = k0_pay9 (F := Ideal) (lblk V c t) (fblk V c t) (k0_pay3 (F := Ideal)) := by
  rw [outsAt0_A V c t h0]
  dsimp only
  exact piece_A_3 (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk0 V c 0 t) (iblk0 V c 1 t)
/-- The second buffer after any other point: the update, by the point's tile, of what the point before left. -/
theorem outB_3 (c : Dev nD) (t : Fin cfg0.N) (h0 : ¬t.val % 16 = 0) :
    (outsAt0 V c t.val t.isLt).2.1 = k0_pay9 (F := Ideal) (lblk V c t) (fblk V c t) (outsAt0 V c (t.val - 1) (Nat.lt_of_le_of_lt (Nat.sub_le _ _) t.isLt)).2.1 := by
  rw [outsAt0_B V c t h0]
  dsimp only
  exact piece_B_3 (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2

/-- The third buffer after a resetting point: the update of the zero block by the point's tile. -/
theorem outA_4 (c : Dev nD) (t : Fin cfg0.N) (h0 : t.val % 16 = 0) :
    (outsAt0 V c t.val t.isLt).2.2 = k0_pay1 (F := Ideal) (k0_pay7 (F := Ideal) (lblk V c t)) (k0_pay4 (F := Ideal)) := by
  rw [outsAt0_A V c t h0]
  dsimp only
  exact piece_A_4 (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk0 V c 0 t) (iblk0 V c 1 t)
/-- The third buffer after any other point: the update, by the point's tile, of what the point before left. -/
theorem outB_4 (c : Dev nD) (t : Fin cfg0.N) (h0 : ¬t.val % 16 = 0) :
    (outsAt0 V c t.val t.isLt).2.2 = k0_pay1 (F := Ideal) (k0_pay7 (F := Ideal) (lblk V c t)) (outsAt0 V c (t.val - 1) (Nat.lt_of_le_of_lt (Nat.sub_le _ _) t.isLt)).2.2 := by
  rw [outsAt0_B V c t h0]
  dsimp only
  exact piece_B_4 (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2

/-! ### Each buffer after a point, in closed form -/

/-- An entry of the first buffer after point `n`: the sum of the tiles' contributions from the half's first point to `n`. -/
theorem inv_2 (c : Dev nD) (k : Fin 1000) (a : Fin 768) (n : ℕ) (hn : n < cfg0.N) :
    (outsAt0 V c n hn).1 (ix3 (0 : Fin 1) k a) = ∑ i ∈ Finset.range (n % 16 + 1), tsum V (gF k a) c (n - n % 16 + i) := by
  refine acc_closed (fun n hn => (outsAt0 V c n hn).1 (ix3 (0 : Fin 1) k a)) (tsum V (gF k a) c) ?_ ?_ n hn
  · intro n hn h
    refine (congrFun (outA_2 V c ⟨n, hn⟩ h) (ix3 (0 : Fin 1) k a)).trans ?_
    refine (pay8_apply (lblk V c ⟨n, hn⟩) (fblk V c ⟨n, hn⟩) (k0_pay2 (F := Ideal)) k a).trans ?_
    rw [pay2_apply]
    exact congrArg (fun z => (0 : EReal) + z) (tsum_pos V (gF k a) c n hn).symm
  · intro n hn hn' h
    refine (congrFun (outB_2 V c ⟨n + 1, hn'⟩ h) (ix3 (0 : Fin 1) k a)).trans ?_
    refine (pay8_apply (lblk V c ⟨n + 1, hn'⟩) (fblk V c ⟨n + 1, hn'⟩) _ k a).trans ?_
    exact congrArg₂ (· + ·) rfl (tsum_pos V (gF k a) c (n + 1) hn').symm

/-- An entry of the second buffer after point `n`: the sum of the tiles' contributions from the half's first point to `n`. -/
theorem inv_3 (c : Dev nD) (k : Fin 1000) (a : Fin 768) (n : ℕ) (hn : n < cfg0.N) :
    (outsAt0 V c n hn).2.1 (ix3 (0 : Fin 1) k a) = ∑ i ∈ Finset.range (n % 16 + 1), tsum V (gF2 k a) c (n - n % 16 + i) := by
  refine acc_closed (fun n hn => (outsAt0 V c n hn).2.1 (ix3 (0 : Fin 1) k a)) (tsum V (gF2 k a) c) ?_ ?_ n hn
  · intro n hn h
    refine (congrFun (outA_3 V c ⟨n, hn⟩ h) (ix3 (0 : Fin 1) k a)).trans ?_
    refine (pay9_apply (lblk V c ⟨n, hn⟩) (fblk V c ⟨n, hn⟩) (k0_pay3 (F := Ideal)) k a).trans ?_
    rw [pay3_apply]
    exact congrArg (fun z => (0 : EReal) + z) (tsum_pos V (gF2 k a) c n hn).symm
  · intro n hn hn' h
    refine (congrFun (outB_3 V c ⟨n + 1, hn'⟩ h) (ix3 (0 : Fin 1) k a)).trans ?_
    refine (pay9_apply (lblk V c ⟨n + 1, hn'⟩) (fblk V c ⟨n + 1, hn'⟩) _ k a).trans ?_
    exact congrArg₂ (· + ·) rfl (tsum_pos V (gF2 k a) c (n + 1) hn').symm

/-- An entry of the third buffer after point `n`: the sum of the tiles' contributions from the half's first point to `n`. -/
theorem inv_4 (c : Dev nD) (k : Fin 1000) (n : ℕ) (hn : n < cfg0.N) :
    (outsAt0 V c n hn).2.2 (ix3 (0 : Fin 1) (0 : Fin 1) k) = ∑ i ∈ Finset.range (n % 16 + 1), tsum V (gC k) c (n - n % 16 + i) := by
  refine acc_closed (fun n hn => (outsAt0 V c n hn).2.2 (ix3 (0 : Fin 1) (0 : Fin 1) k)) (tsum V (gC k) c) ?_ ?_ n hn
  · intro n hn h
    refine (congrFun (outA_4 V c ⟨n, hn⟩ h) (ix3 (0 : Fin 1) (0 : Fin 1) k)).trans ?_
    refine (pay1_apply (lblk V c ⟨n, hn⟩) (k0_pay4 (F := Ideal)) k).trans ?_
    rw [pay4_apply]
    exact congrArg (fun z => (0 : EReal) + z) (tsum_pos V (gC k) c n hn).symm
  · intro n hn hn' h
    refine (congrFun (outB_4 V c ⟨n + 1, hn'⟩ h) (ix3 (0 : Fin 1) (0 : Fin 1) k)).trans ?_
    refine (pay1_apply (lblk V c ⟨n + 1, hn'⟩) _ k).trans ?_
    exact congrArg₂ (· + ·) rfl (tsum_pos V (gC k) c (n + 1) hn').symm

/-! ### After a half's last point: the half's sums over its samples -/

/-- An entry of the first buffer after half `p`'s last point: the sum over the half's sixteen tiles, each over its 512 samples. -/
theorem last_2 (c : Dev nD) (t : Fin cfg0.N) (p : Fin 2) (hp : t.val = 16 * p.val + 15) (k : Fin 1000) (a : Fin 768) :
    (outsAt0 V c t.val t.isLt).1 (ix3 (0 : Fin 1) k a) = ∑ j : Fin 16, ∑ r : Fin 512, Spec.oh (lab0 V c (Spec.row p j r)) k * feat0 V c (Spec.row p j r) a := by
  have hN : cfg0.N = 32 := N_0
  rw [inv_2 V c k a t.val t.isLt]
  have e1 : t.val % 16 + 1 = 16 := by omega
  have e2 : t.val - t.val % 16 = 16 * p.val := by omega
  rw [e1, e2, Finset.sum_range]
  refine Finset.sum_congr rfl fun j _ => ?_
  have hj : 16 * p.val + j.val < cfg0.N := by rw [hN]; omega
  unfold tsum
  rw [dif_pos hj]
  refine Finset.sum_congr rfl fun r _ => ?_
  have hrow : (Spec.row p j r).val = 512 * (16 * p.val + j.val) + r.val := by
    show 8192 * p.val + 512 * j.val + r.val = _
    omega
  exact congrArg₂ (· * ·) (congrArg (fun l => Spec.oh l k) (lblk_apply V c ⟨_, hj⟩ r (Spec.row p j r) hrow))
    (fblk_apply V c ⟨_, hj⟩ r a (Spec.row p j r) hrow)

/-- An entry of the second buffer after half `p`'s last point: the sum over the half's sixteen tiles, each over its 512 samples. -/
theorem last_3 (c : Dev nD) (t : Fin cfg0.N) (p : Fin 2) (hp : t.val = 16 * p.val + 15) (k : Fin 1000) (a : Fin 768) :
    (outsAt0 V c t.val t.isLt).2.1 (ix3 (0 : Fin 1) k a) = ∑ j : Fin 16, ∑ r : Fin 512, Spec.oh (lab0 V c (Spec.row p j r)) k
          * (feat0 V c (Spec.row p j r) a * feat0 V c (Spec.row p j r) a) := by
  have hN : cfg0.N = 32 := N_0
  rw [inv_3 V c k a t.val t.isLt]
  have e1 : t.val % 16 + 1 = 16 := by omega
  have e2 : t.val - t.val % 16 = 16 * p.val := by omega
  rw [e1, e2, Finset.sum_range]
  refine Finset.sum_congr rfl fun j _ => ?_
  have hj : 16 * p.val + j.val < cfg0.N := by rw [hN]; omega
  unfold tsum
  rw [dif_pos hj]
  refine Finset.sum_congr rfl fun r _ => ?_
  have hrow : (Spec.row p j r).val = 512 * (16 * p.val + j.val) + r.val := by
    show 8192 * p.val + 512 * j.val + r.val = _
    omega
  exact congrArg₂ (· * ·) (congrArg (fun l => Spec.oh l k) (lblk_apply V c ⟨_, hj⟩ r (Spec.row p j r) hrow))
    (congrArg₂ (· * ·) (fblk_apply V c ⟨_, hj⟩ r a (Spec.row p j r) hrow) (fblk_apply V c ⟨_, hj⟩ r a (Spec.row p j r) hrow))

/-- An entry of the third buffer after half `p`'s last point: the sum over the half's sixteen tiles, each over its 512 samples. -/
theorem last_4 (c : Dev nD) (t : Fin cfg0.N) (p : Fin 2) (hp : t.val = 16 * p.val + 15) (k : Fin 1000) :
    (outsAt0 V c t.val t.isLt).2.2 (ix3 (0 : Fin 1) (0 : Fin 1) k) = ∑ j : Fin 16, ∑ r : Fin 512, Spec.oh (lab0 V c (Spec.row p j r)) k := by
  have hN : cfg0.N = 32 := N_0
  rw [inv_4 V c k t.val t.isLt]
  have e1 : t.val % 16 + 1 = 16 := by omega
  have e2 : t.val - t.val % 16 = 16 * p.val := by omega
  rw [e1, e2, Finset.sum_range]
  refine Finset.sum_congr rfl fun j _ => ?_
  have hj : 16 * p.val + j.val < cfg0.N := by rw [hN]; omega
  unfold tsum
  rw [dif_pos hj]
  refine Finset.sum_congr rfl fun r _ => ?_
  have hrow : (Spec.row p j r).val = 512 * (16 * p.val + j.val) + r.val := by
    show 8192 * p.val + 512 * j.val + r.val = _
    omega
  exact congrArg (fun l => Spec.oh l k) (lblk_apply V c ⟨_, hj⟩ r (Spec.row p j r) hrow)

/-! ## The result arrays

Each result array's block `p` is written back once, after the last point of half `p`. -/

/-- The three result arrays as functions of the inputs. -/
abbrev G2 (c : Dev nD) : S2x1000x768.Idx → EReal := fun i =>
  ∑ j : Fin 16, ∑ r : Fin 512, Spec.oh (lab0 V c (Spec.row (i 0) j r)) (i 1) * feat0 V c (Spec.row (i 0) j r) (i 2)
abbrev G3 (c : Dev nD) : S2x1000x768.Idx → EReal := fun i =>
  ∑ j : Fin 16, ∑ r : Fin 512, Spec.oh (lab0 V c (Spec.row (i 0) j r)) (i 1)
    * (feat0 V c (Spec.row (i 0) j r) (i 2) * feat0 V c (Spec.row (i 0) j r) (i 2))
abbrev G4 (c : Dev nD) : S2x1x1000.Idx → EReal := fun i =>
  ∑ j : Fin 16, ∑ r : Fin 512, Spec.oh (lab0 V c (Spec.row (i 0) j r)) (i 2)

/-- What a write-back of the first buffer writes is its block of the first result array: the point is a half's last, and the block's entry (0, ·, ·) is the array's entry (p, ·, ·). -/
theorem flushed2_eq (c : Dev nD) (t : Fin cfg0.N) (hf : (cfg0.win 2).flush t = true) :
    (dat0 V c).flushed 2 t = ((cfg0.win 2).blk t).view.read (Elt Ideal) (G2 V c) := by
  have hN : cfg0.N = 32 := N_0
  have h15 : t.val % 16 = 15 := (flush0_2 t).mp hf
  have hlt : t.val < 32 := lt_of_lt_of_eq t.isLt hN
  show (cfg0.win 2).cut (grid0.coords t) ((dat0 V c).after 2 t) = _
  rw [after0_2]
  show ((outsAt0 V c t.val t.isLt).1 : Vec Ideal S1x1000x768 .f32) = fun y : S1x1000x768.Idx => G2 V c (((cfg0.win 2).blk t).view.emb y)
  funext y
  obtain ⟨u, k, a, rfl⟩ : ∃ (u : Fin 1) (k : Fin 1000) (a : Fin 768), y = ix3 u k a := ⟨y 0, y 1, y 2, eq_ix3 y⟩
  obtain rfl : u = 0 := Subsingleton.elim _ _
  have e0 : win0_2.index t (0 : Fin 3) = t.val / 16 := (idx_facts t).2.2.2.1
  have e1 : win0_2.index t (1 : Fin 3) = 0 := (idx_facts t).2.2.2.2.1
  have e2 : win0_2.index t (2 : Fin 3) = 0 := (idx_facts t).2.2.2.2.2.1
  have hemb : ((cfg0.win 2).blk t).view.emb (ix3 (0 : Fin 1) k a) = ix3 (⟨t.val / 16, by omega⟩ : Fin 2) k a := by
    funext b
    apply Fin.ext
    match b with
    | ⟨0, _⟩ => show win0_2.index t (0 : Fin 3) * 1 + 1 * 0 = t.val / 16; rw [e0] <;> omega
    | ⟨1, _⟩ => show win0_2.index t (1 : Fin 3) * 1000 + 1 * k.val = k.val; rw [e1]; omega
    | ⟨2, _⟩ => show win0_2.index t (2 : Fin 3) * 768 + 1 * a.val = a.val; rw [e2]; omega
  refine (last_2 V c t ⟨t.val / 16, by omega⟩ (by show t.val = 16 * (t.val / 16) + 15; omega) k a).trans ?_
  exact (congrArg (G2 V c) hemb).symm

/-- What a write-back of the second buffer writes is its block of the second result array: the point is a half's last, and the block's entry (0, ·, ·) is the array's entry (p, ·, ·). -/
theorem flushed3_eq (c : Dev nD) (t : Fin cfg0.N) (hf : (cfg0.win 3).flush t = true) :
    (dat0 V c).flushed 3 t = ((cfg0.win 3).blk t).view.read (Elt Ideal) (G3 V c) := by
  have hN : cfg0.N = 32 := N_0
  have h15 : t.val % 16 = 15 := (flush0_3 t).mp hf
  have hlt : t.val < 32 := lt_of_lt_of_eq t.isLt hN
  show (cfg0.win 3).cut (grid0.coords t) ((dat0 V c).after 3 t) = _
  rw [after0_3]
  show ((outsAt0 V c t.val t.isLt).2.1 : Vec Ideal S1x1000x768 .f32) = fun y : S1x1000x768.Idx => G3 V c (((cfg0.win 3).blk t).view.emb y)
  funext y
  obtain ⟨u, k, a, rfl⟩ : ∃ (u : Fin 1) (k : Fin 1000) (a : Fin 768), y = ix3 u k a := ⟨y 0, y 1, y 2, eq_ix3 y⟩
  obtain rfl : u = 0 := Subsingleton.elim _ _
  have e0 : win0_3.index t (0 : Fin 3) = t.val / 16 := (idx_facts t).2.2.2.2.2.2.1
  have e1 : win0_3.index t (1 : Fin 3) = 0 := (idx_facts t).2.2.2.2.2.2.2.1
  have e2 : win0_3.index t (2 : Fin 3) = 0 := (idx_facts t).2.2.2.2.2.2.2.2.1
  have hemb : ((cfg0.win 3).blk t).view.emb (ix3 (0 : Fin 1) k a) = ix3 (⟨t.val / 16, by omega⟩ : Fin 2) k a := by
    funext b
    apply Fin.ext
    match b with
    | ⟨0, _⟩ => show win0_3.index t (0 : Fin 3) * 1 + 1 * 0 = t.val / 16; rw [e0] <;> omega
    | ⟨1, _⟩ => show win0_3.index t (1 : Fin 3) * 1000 + 1 * k.val = k.val; rw [e1]; omega
    | ⟨2, _⟩ => show win0_3.index t (2 : Fin 3) * 768 + 1 * a.val = a.val; rw [e2]; omega
  refine (last_3 V c t ⟨t.val / 16, by omega⟩ (by show t.val = 16 * (t.val / 16) + 15; omega) k a).trans ?_
  exact (congrArg (G3 V c) hemb).symm

/-- What a write-back of the third buffer writes is its block of the third result array: the point is a half's last, and the block's entry (0, ·, ·) is the array's entry (p, ·, ·). -/
theorem flushed4_eq (c : Dev nD) (t : Fin cfg0.N) (hf : (cfg0.win 4).flush t = true) :
    (dat0 V c).flushed 4 t = ((cfg0.win 4).blk t).view.read (Elt Ideal) (G4 V c) := by
  have hN : cfg0.N = 32 := N_0
  have h15 : t.val % 16 = 15 := (flush0_4 t).mp hf
  have hlt : t.val < 32 := lt_of_lt_of_eq t.isLt hN
  show (cfg0.win 4).cut (grid0.coords t) ((dat0 V c).after 4 t) = _
  rw [after0_4]
  show ((outsAt0 V c t.val t.isLt).2.2 : Vec Ideal S1x1x1000 .f32) = fun y : S1x1x1000.Idx => G4 V c (((cfg0.win 4).blk t).view.emb y)
  funext y
  obtain ⟨u, u', k, rfl⟩ : ∃ (u : Fin 1) (u' : Fin 1) (k : Fin 1000), y = ix3 u u' k := ⟨y 0, y 1, y 2, eq_ix3 y⟩
  obtain rfl : u = 0 := Subsingleton.elim _ _
  obtain rfl : u' = 0 := Subsingleton.elim _ _
  have e0 : win0_4.index t (0 : Fin 3) = t.val / 16 := (idx_facts t).2.2.2.2.2.2.2.2.2.1
  have e1 : win0_4.index t (1 : Fin 3) = 0 := (idx_facts t).2.2.2.2.2.2.2.2.2.2.1
  have e2 : win0_4.index t (2 : Fin 3) = 0 := (idx_facts t).2.2.2.2.2.2.2.2.2.2.2
  have hemb : ((cfg0.win 4).blk t).view.emb (ix3 (0 : Fin 1) (0 : Fin 1) k) = ix3 (⟨t.val / 16, by omega⟩ : Fin 2) (0 : Fin 1) k := by
    funext b
    apply Fin.ext
    match b with
    | ⟨0, _⟩ => show win0_4.index t (0 : Fin 3) * 1 + 1 * 0 = t.val / 16; rw [e0] <;> omega
    | ⟨1, _⟩ => show win0_4.index t (1 : Fin 3) * 1 + 1 * 0 = 0; rw [e1] <;> omega
    | ⟨2, _⟩ => show win0_4.index t (2 : Fin 3) * 1000 + 1 * k.val = k.val; rw [e2]; omega
  refine (last_4 V c t ⟨t.val / 16, by omega⟩ (by show t.val = 16 * (t.val / 16) + 15; omega) k).trans ?_
  exact (congrArg (G4 V c) hemb).symm

/-- Half `p`'s class sums of the features. -/
theorem region0_sumf (c : Dev nD) (p : Fin 2) (k : Fin 1000) (a : Fin 768) :
    ((dat0 V c).arrAt 2 cfg0.N : S2x1000x768.Idx → EReal) (ix3 p k a)
      = ∑ j : Fin 16, ∑ r : Fin 512, Spec.oh (lab0 V c (Spec.row p j r)) k * feat0 V c (Spec.row p j r) a := by
  have hN : cfg0.N = 32 := N_0
  have hp : p.val < 2 := p.isLt
  have ht : 16 * p.val + 15 < cfg0.N := by rw [hN]; omega
  have e0 : win0_2.index (⟨16 * p.val + 15, ht⟩ : Fin cfg0.N) (0 : Fin 3) = (16 * p.val + 15) / 16 := (idx_facts (⟨16 * p.val + 15, ht⟩ : Fin cfg0.N)).2.2.2.1
  have e1 : win0_2.index (⟨16 * p.val + 15, ht⟩ : Fin cfg0.N) (1 : Fin 3) = 0 := (idx_facts (⟨16 * p.val + 15, ht⟩ : Fin cfg0.N)).2.2.2.2.1
  have e2 : win0_2.index (⟨16 * p.val + 15, ht⟩ : Fin cfg0.N) (2 : Fin 3) = 0 := (idx_facts (⟨16 * p.val + 15, ht⟩ : Fin cfg0.N)).2.2.2.2.2.1
  refine (dat0 V c).arrAt_apply_of_mem 2 (G2 V c) (fun t hf => flushed2_eq V c t hf) cfg0.N (⟨16 * p.val + 15, ht⟩ : Fin cfg0.N) (ix3 p k a) ht
    ((flush0_2 _).mpr (by show (16 * p.val + 15) % 16 = 15; omega)) ?_
  show ix3 p k a ∈ ((View.whole main_v0_0).slice (win0_2.rect (⟨16 * p.val + 15, ht⟩ : Fin cfg0.N))).set
  rw [View.set_slice_whole, Rect.mem_set_unit]
  intro b
  match b with
  | ⟨0, _⟩ =>
    show win0_2.index (⟨16 * p.val + 15, ht⟩ : Fin cfg0.N) (0 : Fin 3) * 1 ≤ p.val ∧ p.val < win0_2.index (⟨16 * p.val + 15, ht⟩ : Fin cfg0.N) (0 : Fin 3) * 1 + 1
    rw [e0]; omega
  | ⟨1, _⟩ =>
    show win0_2.index (⟨16 * p.val + 15, ht⟩ : Fin cfg0.N) (1 : Fin 3) * 1000 ≤ k.val ∧ k.val < win0_2.index (⟨16 * p.val + 15, ht⟩ : Fin cfg0.N) (1 : Fin 3) * 1000 + 1000
    rw [e1]; have := k.isLt; omega
  | ⟨2, _⟩ =>
    show win0_2.index (⟨16 * p.val + 15, ht⟩ : Fin cfg0.N) (2 : Fin 3) * 768 ≤ a.val ∧ a.val < win0_2.index (⟨16 * p.val + 15, ht⟩ : Fin cfg0.N) (2 : Fin 3) * 768 + 768
    rw [e2]; have := a.isLt; omega

/-- Half `p`'s class sums of the squared features. -/
theorem region0_sumf2 (c : Dev nD) (p : Fin 2) (k : Fin 1000) (a : Fin 768) :
    ((dat0 V c).arrAt 3 cfg0.N : S2x1000x768.Idx → EReal) (ix3 p k a)
      = ∑ j : Fin 16, ∑ r : Fin 512, Spec.oh (lab0 V c (Spec.row p j r)) k
          * (feat0 V c (Spec.row p j r) a * feat0 V c (Spec.row p j r) a) := by
  have hN : cfg0.N = 32 := N_0
  have hp : p.val < 2 := p.isLt
  have ht : 16 * p.val + 15 < cfg0.N := by rw [hN]; omega
  have e0 : win0_3.index (⟨16 * p.val + 15, ht⟩ : Fin cfg0.N) (0 : Fin 3) = (16 * p.val + 15) / 16 := (idx_facts (⟨16 * p.val + 15, ht⟩ : Fin cfg0.N)).2.2.2.2.2.2.1
  have e1 : win0_3.index (⟨16 * p.val + 15, ht⟩ : Fin cfg0.N) (1 : Fin 3) = 0 := (idx_facts (⟨16 * p.val + 15, ht⟩ : Fin cfg0.N)).2.2.2.2.2.2.2.1
  have e2 : win0_3.index (⟨16 * p.val + 15, ht⟩ : Fin cfg0.N) (2 : Fin 3) = 0 := (idx_facts (⟨16 * p.val + 15, ht⟩ : Fin cfg0.N)).2.2.2.2.2.2.2.2.1
  refine (dat0 V c).arrAt_apply_of_mem 3 (G3 V c) (fun t hf => flushed3_eq V c t hf) cfg0.N (⟨16 * p.val + 15, ht⟩ : Fin cfg0.N) (ix3 p k a) ht
    ((flush0_3 _).mpr (by show (16 * p.val + 15) % 16 = 15; omega)) ?_
  show ix3 p k a ∈ ((View.whole main_v0_1).slice (win0_3.rect (⟨16 * p.val + 15, ht⟩ : Fin cfg0.N))).set
  rw [View.set_slice_whole, Rect.mem_set_unit]
  intro b
  match b with
  | ⟨0, _⟩ =>
    show win0_3.index (⟨16 * p.val + 15, ht⟩ : Fin cfg0.N) (0 : Fin 3) * 1 ≤ p.val ∧ p.val < win0_3.index (⟨16 * p.val + 15, ht⟩ : Fin cfg0.N) (0 : Fin 3) * 1 + 1
    rw [e0]; omega
  | ⟨1, _⟩ =>
    show win0_3.index (⟨16 * p.val + 15, ht⟩ : Fin cfg0.N) (1 : Fin 3) * 1000 ≤ k.val ∧ k.val < win0_3.index (⟨16 * p.val + 15, ht⟩ : Fin cfg0.N) (1 : Fin 3) * 1000 + 1000
    rw [e1]; have := k.isLt; omega
  | ⟨2, _⟩ =>
    show win0_3.index (⟨16 * p.val + 15, ht⟩ : Fin cfg0.N) (2 : Fin 3) * 768 ≤ a.val ∧ a.val < win0_3.index (⟨16 * p.val + 15, ht⟩ : Fin cfg0.N) (2 : Fin 3) * 768 + 768
    rw [e2]; have := a.isLt; omega

/-- Half `p`'s class counts. -/
theorem region0_cnt (c : Dev nD) (p : Fin 2) (k : Fin 1000) :
    ((dat0 V c).arrAt 4 cfg0.N : S2x1x1000.Idx → EReal) (ix3 p (0 : Fin 1) k)
      = ∑ j : Fin 16, ∑ r : Fin 512, Spec.oh (lab0 V c (Spec.row p j r)) k := by
  have hN : cfg0.N = 32 := N_0
  have hp : p.val < 2 := p.isLt
  have ht : 16 * p.val + 15 < cfg0.N := by rw [hN]; omega
  have e0 : win0_4.index (⟨16 * p.val + 15, ht⟩ : Fin cfg0.N) (0 : Fin 3) = (16 * p.val + 15) / 16 := (idx_facts (⟨16 * p.val + 15, ht⟩ : Fin cfg0.N)).2.2.2.2.2.2.2.2.2.1
  have e1 : win0_4.index (⟨16 * p.val + 15, ht⟩ : Fin cfg0.N) (1 : Fin 3) = 0 := (idx_facts (⟨16 * p.val + 15, ht⟩ : Fin cfg0.N)).2.2.2.2.2.2.2.2.2.2.1
  have e2 : win0_4.index (⟨16 * p.val + 15, ht⟩ : Fin cfg0.N) (2 : Fin 3) = 0 := (idx_facts (⟨16 * p.val + 15, ht⟩ : Fin cfg0.N)).2.2.2.2.2.2.2.2.2.2.2
  refine (dat0 V c).arrAt_apply_of_mem 4 (G4 V c) (fun t hf => flushed4_eq V c t hf) cfg0.N (⟨16 * p.val + 15, ht⟩ : Fin cfg0.N) (ix3 p (0 : Fin 1) k) ht
    ((flush0_4 _).mpr (by show (16 * p.val + 15) % 16 = 15; omega)) ?_
  show ix3 p (0 : Fin 1) k ∈ ((View.whole main_v0_2).slice (win0_4.rect (⟨16 * p.val + 15, ht⟩ : Fin cfg0.N))).set
  rw [View.set_slice_whole, Rect.mem_set_unit]
  intro b
  match b with
  | ⟨0, _⟩ =>
    show win0_4.index (⟨16 * p.val + 15, ht⟩ : Fin cfg0.N) (0 : Fin 3) * 1 ≤ p.val ∧ p.val < win0_4.index (⟨16 * p.val + 15, ht⟩ : Fin cfg0.N) (0 : Fin 3) * 1 + 1
    rw [e0]; omega
  | ⟨1, _⟩ =>
    show win0_4.index (⟨16 * p.val + 15, ht⟩ : Fin cfg0.N) (1 : Fin 3) * 1 ≤ 0 ∧ 0 < win0_4.index (⟨16 * p.val + 15, ht⟩ : Fin cfg0.N) (1 : Fin 3) * 1 + 1
    rw [e1]; omega
  | ⟨2, _⟩ =>
    show win0_4.index (⟨16 * p.val + 15, ht⟩ : Fin cfg0.N) (2 : Fin 3) * 1000 ≤ k.val ∧ k.val < win0_4.index (⟨16 * p.val + 15, ht⟩ : Fin cfg0.N) (2 : Fin 3) * 1000 + 1000
    rw [e2]; have := k.isLt; omega

end Cert.KernelIdeal.Val

end
-- ==== Proof.HostMid.lean ====
import proofs.«402928_j18021682774196_3_alg».proof.Proof.Gen.KernelIdeal.Frame
import proofs.«402928_j18021682774196_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

/-!
  The host operations between the two regions, read at an index: from the first region's per-half sums they
  form the moments (summing the two halves), the blended covariance with the variance clamped at zero, and the
  per-class table; its high part is the table and its low part the table minus itself.
-/

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (Wv : Valuation τ sig (Elt Ideal))

/-- The buffer contents after the three host stretches. -/
abbrev mid : Valuation τ sig (Elt Ideal) :=
  StableHlo.after hostOps1_2 (StableHlo.after hostOps1_1 (StableHlo.after hostOps1 Wv))

/-- The class counts: the two halves' counts added. -/
abbrev cntW (k : Fin 1000) : EReal := ∑ p : Fin 2, (Wv (Proc.devRef .tc main_v0_2) : S2x1x1000.Idx → EReal) (ix3 p (0 : Fin 1) k)
/-- The class sums of the features: the two halves' sums added. -/
abbrev sfW (k : Fin 1000) (a : Fin 768) : EReal := ∑ p : Fin 2, (Wv (Proc.devRef .tc main_v0_0) : S2x1000x768.Idx → EReal) (ix3 p k a)
/-- The class sums of the squared features: the two halves' sums added. -/
abbrev sf2W (k : Fin 1000) (a : Fin 768) : EReal := ∑ p : Fin 2, (Wv (Proc.devRef .tc main_v0_1) : S2x1000x768.Idx → EReal) (ix3 p k a)

/-- The table the stretches compute from those moments and the arguments. -/
abbrev tabW (k q : Fin 1000) : EReal :=
  Spec.tab (Spec.ncTabK (cntW Wv) (sfW Wv) (sf2W Wv)
      (fun k => (Wv (Proc.devRef .tc main_arg4) : S1000.Idx → EReal) (ix1 k))
      (fun k a => (Wv (Proc.devRef .tc main_arg5) : S1000x768.Idx → EReal) (ix2 k a))
      (fun k a => (Wv (Proc.devRef .tc main_arg6) : S1000x768.Idx → EReal) (ix2 k a)))
    (fun k a => (Wv (Proc.devRef .tc main_arg2) : S1000x768.Idx → EReal) (ix2 k a))
    ((Wv (Proc.devRef .tc main_arg7) : S1.Idx → EReal) (ix1 (0 : Fin 1))) k q

/-! ## The layout operations read at an index, the stretches' values named, and what each stretch leaves at a buffer -/

namespace HostMid

/-! ### Layout operations of this program read at an index -/

section Readers
variable {α : Type}

/-- A rank-zero array broadcast to any shape reads its one element everywhere. -/
theorem bc_nil_apply {t : Shape} (h : S_.BroadcastsInDim t (![] : Fin 0 → Fin t.rank)) (x : S_.Idx → α) (j : t.Idx) :
    broadcastInDim t (no_index ![]) h x j = x ix0 :=
  broadcastInDim_apply _ h x j ix0 fun a => a.elim0

/-- A vector broadcast along a new trailing unit axis reads the vector at the row. -/
theorem bc_col_apply (x : S1000.Idx → α) (k : Fin 1000) (u : Fin 1) :
    broadcastInDim S1000x1 (no_index ![0]) bcast_S1000_S1000x1_0 x (ix2 k u) = x (ix1 k) :=
  broadcastInDim_apply _ bcast_S1000_S1000x1_0 x _ (ix1 k) fun a => match a with
    | ⟨0, _⟩ => by show k.val = if (1000 : Nat) = 1 then 0 else k.val; rw [if_neg (by decide)]

/-- A column broadcast across 768 columns reads the column at the row. -/
theorem bc_row768_apply (x : S1000x1.Idx → α) (k : Fin 1000) (a : Fin 768) :
    broadcastInDim S1000x768 (no_index ![0, 1]) bcast_S1000x1_S1000x768_0_1 x (ix2 k a) = x (ix2 k (0 : Fin 1)) :=
  broadcastInDim_apply _ bcast_S1000x1_S1000x768_0_1 x _ (ix2 k (0 : Fin 1)) fun b => match b with
    | ⟨0, _⟩ => by show k.val = if (1000 : Nat) = 1 then 0 else k.val; rw [if_neg (by decide)]
    | ⟨1, _⟩ => by show (0 : Nat) = if (1 : Nat) = 1 then 0 else a.val; rw [if_pos rfl]

/-- A column broadcast across 1000 columns reads the column at the row. -/
theorem bc_row1000_apply (x : S1000x1.Idx → α) (k q : Fin 1000) :
    broadcastInDim S1000x1000 (no_index ![0, 1]) bcast_S1000x1_S1000x1000_0_1 x (ix2 k q) = x (ix2 k (0 : Fin 1)) :=
  broadcastInDim_apply _ bcast_S1000x1_S1000x1000_0_1 x _ (ix2 k (0 : Fin 1)) fun b => match b with
    | ⟨0, _⟩ => by show k.val = if (1000 : Nat) = 1 then 0 else k.val; rw [if_neg (by decide)]
    | ⟨1, _⟩ => by show (0 : Nat) = if (1 : Nat) = 1 then 0 else q.val; rw [if_pos rfl]

/-- A vector recast as a column reads the vector at the row. -/
theorem sc_col_apply (x : S1000.Idx → α) (k : Fin 1000) (u : Fin 1) :
    shapeCast S1000x1 x shapeCasts_S1000_S1000x1 (ix2 k u) = x (ix1 k) :=
  shapeCast_apply x _ _ _ (by
    have hu : u.val = 0 := by omega
    rw [Shape.rowMajor_val_two, Shape.rowMajor_val_one]
    show k.val = k.val * 1 + u.val
    rw [hu, Nat.mul_one, Nat.add_zero])

/-- A one-element vector recast as a scalar reads its element. -/
theorem sc_scalar_apply (x : S1.Idx → α) (j : S_.Idx) :
    shapeCast S_ x shapeCasts_S1_S_ j = x (ix1 (0 : Fin 1)) :=
  shapeCast_apply x _ _ _ (by
    rw [Shape.rowMajor_val_one]
    show (0 : Nat) = (Shape.rowMajorPi _ j).val
    rw [Shape.rowMajorPi_zero])

/-- The weights transposed read the weights at the swapped coordinates. -/
theorem tr_apply (x : S1000x768.Idx → α) (a : Fin 768) (q : Fin 1000) :
    transpose S768x1000 (no_index [1, 0]) x transposes_S1000x768_S768x1000_1_0 (ix2 a q) = x (ix2 q a) :=
  transpose_ix2_apply x transposes_S1000x768_S768x1000_1_0 a q

end Readers

/-- The host's quotient at an index. -/
theorem hdivf_apply {s : Shape} {φ : FTy} (x y : FVec Ideal s φ) (i : s.Idx) : Host.divf x y i = Ideal.div (x i) (y i) := rfl

/-- The sum over the two halves of a [2, 1000, 768] array. -/
theorem sum_halves_apply (x : FVec Ideal S2x1000x768 .f32) (k : Fin 1000) (a : Fin 768) :
    Host.reduceAdd x (constant S_ .f32 0x00000000#32) reducesTo_S2x1000x768_S1000x768_d0 h_S_ (ix2 k a)
      = ∑ p : Fin 2, x (ix3 p k a) := by
  simp only [Host.reduceAdd, Ideal.hostReduceAdd_def]
  rw [Ideal.hostReduceAdd_single reducesTo_S2x1000x768_S1000x768_d0 (by decide), constant_apply, Ideal.ofBits_zero_f32, zero_add]
  exact Finset.sum_congr rfl fun p _ => congrArg x (funext fun d => Fin.ext (by
    match d with | ⟨0, _⟩ => rfl | ⟨1, _⟩ => rfl | ⟨2, _⟩ => rfl))

/-- The sum over the two halves of a [2, 1, 1000] array. -/
theorem sum_halves_row_apply (x : FVec Ideal S2x1x1000 .f32) (u : Fin 1) (k : Fin 1000) :
    Host.reduceAdd x (constant S_ .f32 0x00000000#32) reducesTo_S2x1x1000_S1x1000_d0 h_S_ (ix2 u k)
      = ∑ p : Fin 2, x (ix3 p u k) := by
  simp only [Host.reduceAdd, Ideal.hostReduceAdd_def]
  rw [Ideal.hostReduceAdd_single reducesTo_S2x1x1000_S1x1000_d0 (by decide), constant_apply, Ideal.ofBits_zero_f32, zero_add]
  exact Finset.sum_congr rfl fun p _ => congrArg x (funext fun d => Fin.ext (by
    match d with | ⟨0, _⟩ => rfl | ⟨1, _⟩ => rfl | ⟨2, _⟩ => rfl))

/-- The sum along the rows of a [1000, 768] array. -/
theorem sum_row_apply (x : FVec Ideal S1000x768 .f32) (k : Fin 1000) :
    Host.reduceAdd x (constant S_ .f32 0x00000000#32) reducesTo_S1000x768_S1000_d1 h_S_ (ix1 k)
      = ∑ a : Fin 768, x (ix2 k a) := by
  simp only [Host.reduceAdd, Ideal.hostReduceAdd_def]
  rw [Ideal.hostReduceAdd_single reducesTo_S1000x768_S1000_d1 (by decide), constant_apply, Ideal.ofBits_zero_f32, zero_add]
  exact Finset.sum_congr rfl fun a _ => congrArg x (funext fun d => Fin.ext (by
    match d with | ⟨0, _⟩ => rfl | ⟨1, _⟩ => rfl))

/-! The product of a [1000, 768] by a [768, 1000] array: the four coordinates of its operand indices. -/

theorem dotL0 (i : S1000x1000.Idx) (c : dot_S1000x768_S768x1000_S1000x1000_1_0_0_1_n_n.contr.Idx) :
    (dot_S1000x768_S768x1000_S1000x1000_1_0_0_1_n_n.lhsIdx i c 0).val = (i 0).val := by
  unfold DotDims.lhsIdx
  rw [dif_neg (show ¬(0 : Fin S1000x768.rank) ∈ dot_S1000x768_S768x1000_S1000x1000_1_0_0_1_n_n.lhsBatch by decide),
    dif_pos (show (0 : Fin S1000x768.rank) ∈ dot_S1000x768_S768x1000_S1000x1000_1_0_0_1_n_n.lhsNonContracting by decide)]
  rfl
theorem dotL1 (i : S1000x1000.Idx) (c : dot_S1000x768_S768x1000_S1000x1000_1_0_0_1_n_n.contr.Idx) :
    (dot_S1000x768_S768x1000_S1000x1000_1_0_0_1_n_n.lhsIdx i c 1).val = (c ⟨0, by decide⟩).val :=
  dot_S1000x768_S768x1000_S1000x1000_1_0_0_1_n_n.lhsIdx_val_of_single rfl i c
theorem dotR0 (i : S1000x1000.Idx) (c : dot_S1000x768_S768x1000_S1000x1000_1_0_0_1_n_n.contr.Idx) :
    (dot_S1000x768_S768x1000_S1000x1000_1_0_0_1_n_n.rhsIdx i c 0).val = (c ⟨0, by decide⟩).val :=
  dot_S1000x768_S768x1000_S1000x1000_1_0_0_1_n_n.rhsIdx_val_of_single rfl i c
theorem dotR1 (i : S1000x1000.Idx) (c : dot_S1000x768_S768x1000_S1000x1000_1_0_0_1_n_n.contr.Idx) :
    (dot_S1000x768_S768x1000_S1000x1000_1_0_0_1_n_n.rhsIdx i c 1).val = (i 1).val := by
  unfold DotDims.rhsIdx
  rw [dif_neg (show ¬(1 : Fin S768x1000.rank) ∈ dot_S1000x768_S768x1000_S1000x1000_1_0_0_1_n_n.rhsBatch by decide),
    dif_pos (show (1 : Fin S768x1000.rank) ∈ dot_S1000x768_S768x1000_S1000x1000_1_0_0_1_n_n.rhsNonContracting by decide)]
  rfl

/-- That product at an index: the sum over the 768 contracted coordinates. -/
theorem dot_apply (l : FVec Ideal S1000x768 .f32) (r : FVec Ideal S768x1000 .f32) (k q : Fin 1000) :
    Host.dotGeneral dot_S1000x768_S768x1000_S1000x1000_1_0_0_1_n_n none l r (ix2 k q)
      = ∑ a : Fin 768, l (ix2 k a) * r (ix2 a q) := by
  simp only [Host.dotGeneral]
  rw [Ideal.dotGeneral_apply, ← Equiv.sum_comp (ValueIdx.contrEquiv1 dot_S1000x768_S768x1000_S1000x1000_1_0_0_1_n_n 768 rfl rfl).symm]
  refine Finset.sum_congr rfl fun a _ => ?_
  have ha := ValueIdx.contrEquiv1_symm_val dot_S1000x768_S768x1000_S1000x1000_1_0_0_1_n_n 768 rfl rfl a
  have el : dot_S1000x768_S768x1000_S1000x1000_1_0_0_1_n_n.lhsIdx (ix2 k q) ((ValueIdx.contrEquiv1 dot_S1000x768_S768x1000_S1000x1000_1_0_0_1_n_n 768 rfl rfl).symm a) = ix2 k a := funext fun d => Fin.ext (by
    match d with
    | ⟨0, _⟩ => exact dotL0 _ _
    | ⟨1, _⟩ => exact (dotL1 _ _).trans ha)
  have er : dot_S1000x768_S768x1000_S1000x1000_1_0_0_1_n_n.rhsIdx (ix2 k q) ((ValueIdx.contrEquiv1 dot_S1000x768_S768x1000_S1000x1000_1_0_0_1_n_n 768 rfl rfl).symm a) = ix2 a q := funext fun d => Fin.ext (by
    match d with
    | ⟨0, _⟩ => exact (dotR0 _ _).trans ha
    | ⟨1, _⟩ => exact dotR1 _ _)
  rw [el, er]

/-! ### The stretches' values, named -/

/-- A [2, 1000, 768] array summed over its two halves. -/
def sumT (x : FVec Ideal S2x1000x768 .f32) : FVec Ideal S1000x768 .f32 :=
  Host.reduceAdd x (constant S_ .f32 0x00000000#32) reducesTo_S2x1000x768_S1000x768_d0 h_S_
/-- The class counts as a vector. -/
def cntT (x : FVec Ideal S2x1x1000 .f32) : FVec Ideal S1000 .f32 :=
  shapeCast S1000 (Host.reduceAdd x (constant S_ .f32 0x00000000#32) reducesTo_S2x1x1000_S1x1000_d0 h_S_) shapeCasts_S1x1000_S1000
/-- The counts as a column. -/
def colT (x : FVec Ideal S2x1x1000 .f32) : FVec Ideal S1000x1 .f32 :=
  broadcastInDim S1000x1 ![0] bcast_S1000_S1000x1_0 (cntT x)
/-- The divisor: the larger of the count and one, as a column. -/
def amtT (x : FVec Ideal S2x1x1000 .f32) : FVec Ideal S1000x1 .f32 :=
  broadcastInDim S1000x1 ![0] bcast_S1000_S1000x1_0
    (maximumf (cntT x) (broadcastInDim S1000 ![] bcast_S_S1000 (constant S_ .f32 0x3F800000#32)))
/-- The class means. -/
def aveT (x0 : FVec Ideal S2x1000x768 .f32) (x2 : FVec Ideal S2x1x1000 .f32) : FVec Ideal S1000x768 .f32 :=
  Host.divf (sumT x0) (broadcastInDim S1000x768 ![0, 1] bcast_S1000x1_S1000x768_0_1 (amtT x2))
/-- The class variances, clamped below at zero. -/
def varT (x0 x1 : FVec Ideal S2x1000x768 .f32) (x2 : FVec Ideal S2x1x1000 .f32) : FVec Ideal S1000x768 .f32 :=
  maximumf
    (Host.divf
      (addf
        (subf (sumT x1)
          (mulf (mulf (broadcastInDim S1000x768 ![] bcast_S_S1000x768 (constant S_ .f32 0x40000000#32)) (aveT x0 x2)) (sumT x0)))
        (mulf (mulf (broadcastInDim S1000x768 ![0, 1] bcast_S1000x1_S1000x768_0_1 (colT x2)) (aveT x0 x2)) (aveT x0 x2)))
      (broadcastInDim S1000x768 ![0, 1] bcast_S1000x1_S1000x768_0_1 (amtT x2)))
    (broadcastInDim S1000x768 ![] bcast_S_S1000x768 (constant S_ .f32 0x00000000#32))
/-- The new count plus the running one, as a column. -/
def denT (x2 : FVec Ideal S2x1x1000 .f32) (a4 : FVec Ideal S1000 .f32) : FVec Ideal S1000x1 .f32 :=
  addf (colT x2) (shapeCast S1000x1 a4 shapeCasts_S1000_S1000x1)
/-- Whether that total is positive. -/
def posT (x2 : FVec Ideal S2x1x1000 .f32) (a4 : FVec Ideal S1000 .f32) : IVec S1000x1 1 :=
  cmpf .ogt (denT x2 a4) (broadcastInDim S1000x1 ![] bcast_S_S1000x1 (constant S_ .f32 0x00000000#32))
/-- The new count over the larger of the total and one. -/
def ratT (x2 : FVec Ideal S2x1x1000 .f32) (a4 : FVec Ideal S1000 .f32) : FVec Ideal S1000x1 .f32 :=
  Host.divf (colT x2) (maximumf (denT x2 a4) (broadcastInDim S1000x1 ![] bcast_S_S1000x1 (constant S_ .f32 0x3F800000#32)))
/-- The blending weight: the ratio where the total is positive, else the given scalar. -/
def wgtT (c : IVec S1000x1 1) (r : FVec Ideal S1000x1 .f32) (z : FVec Ideal S_ .f32) : FVec Ideal S1000x1 .f32 :=
  select c r (broadcastInDim S1000x1 ![] bcast_S_S1000x1 z)
/-- One minus the weight. -/
def omwT (w : FVec Ideal S1000x1 .f32) : FVec Ideal S1000x1 .f32 :=
  subf (broadcastInDim S1000x1 ![] bcast_S_S1000x1 (constant S_ .f32 0x3F800000#32)) w
/-- The blended covariance from the weight `w`, the variance `vr`, the mean `av`, the running mean `a5` and covariance `a6`. -/
def ncT (w : FVec Ideal S1000x1 .f32) (vr av a5 a6 : FVec Ideal S1000x768 .f32) : FVec Ideal S1000x768 .f32 :=
  addf
    (addf (mulf a6 (broadcastInDim S1000x768 ![0, 1] bcast_S1000x1_S1000x768_0_1 (omwT w)))
      (mulf vr (broadcastInDim S1000x768 ![0, 1] bcast_S1000x1_S1000x768_0_1 w)))
    (mulf (broadcastInDim S1000x768 ![0, 1] bcast_S1000x1_S1000x768_0_1 (mulf w (omwT w)))
      (mulf (subf a5 av) (subf a5 av)))
/-- The per-class table from the covariance `nc`, the weights `a2` and the ratio `a7`. -/
def tabT (nc a2 : FVec Ideal S1000x768 .f32) (a7 : FVec Ideal S1 .f32) : FVec Ideal S1000x1000 .f32 :=
  mulf
    (broadcastInDim S1000x1000 ![] bcast_S_S1000x1000
      (mulf (constant S_ .f32 0x3F000000#32) (shapeCast S_ a7 shapeCasts_S1_S_)))
    (addf
      (subf
        (Host.dotGeneral dot_S1000x768_S768x1000_S1000x1000_1_0_0_1_n_n none nc
          (transpose S768x1000 [1, 0] (mulf a2 a2) transposes_S1000x768_S768x1000_1_0))
        (mulf (broadcastInDim S1000x1000 ![] bcast_S_S1000x1000 (constant S_ .f32 0x40000000#32))
          (Host.dotGeneral dot_S1000x768_S768x1000_S1000x1000_1_0_0_1_n_n none (mulf a2 nc)
            (transpose S768x1000 [1, 0] a2 transposes_S1000x768_S768x1000_1_0))))
      (broadcastInDim S1000x1000 ![0, 1] bcast_S1000x1_S1000x1000_0_1
        (broadcastInDim S1000x1 ![0] bcast_S1000_S1000x1_0
          (Host.reduceAdd (mulf (mulf a2 a2) nc) (constant S_ .f32 0x00000000#32) reducesTo_S1000x768_S1000_d1 h_S_))))
/-- The table the third stretch computes from the buffers it reads. -/
def tabOf (V : Valuation τ sig (Elt Ideal)) : FVec Ideal S1000x1000 .f32 :=
  tabT (ncT (V (Proc.devRef .tc main_v32)) (V (Proc.devRef .tc main_v22)) (V (Proc.devRef .tc main_v9))
      (V (Proc.devRef .tc main_arg5)) (V (Proc.devRef .tc main_arg6)))
    (V (Proc.devRef .tc main_arg2)) (V (Proc.devRef .tc main_arg7))

/-! ### What each stretch leaves at the buffers read later -/

/-- A buffer none of the listed operations writes keeps its contents. -/
local macro "keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

section Stretches
variable (V : Valuation τ sig (Elt Ideal))

theorem s1_v9 : StableHlo.after hostOps1 V (Proc.devRef .tc main_v9)
    = aveT (V (Proc.devRef .tc main_v0_0)) (V (Proc.devRef .tc main_v0_2)) := by
  after_results_simp; rfl
theorem s1_v22 : StableHlo.after hostOps1 V (Proc.devRef .tc main_v22)
    = varT (V (Proc.devRef .tc main_v0_0)) (V (Proc.devRef .tc main_v0_1)) (V (Proc.devRef .tc main_v0_2)) := by
  after_results_simp; rfl
theorem s1_v27 : StableHlo.after hostOps1 V (Proc.devRef .tc main_v27)
    = posT (V (Proc.devRef .tc main_v0_2)) (V (Proc.devRef .tc main_arg4)) := by
  after_results_simp; rfl
theorem s1_v31 : StableHlo.after hostOps1 V (Proc.devRef .tc main_v31)
    = ratT (V (Proc.devRef .tc main_v0_2)) (V (Proc.devRef .tc main_arg4)) := by
  after_results_simp; rfl
theorem s1_cst7 : StableHlo.after hostOps1 V (Proc.devRef .tc main_cst_7) = (constant S_ .f32 0x00000000#32 : FVec Ideal S_ .f32) := by
  after_results_simp
theorem s1_arg0 : StableHlo.after hostOps1 V (Proc.devRef .tc main_arg0) = V (Proc.devRef .tc main_arg0) := by keeps hostOps1
theorem s1_arg2 : StableHlo.after hostOps1 V (Proc.devRef .tc main_arg2) = V (Proc.devRef .tc main_arg2) := by keeps hostOps1
theorem s1_arg3 : StableHlo.after hostOps1 V (Proc.devRef .tc main_arg3) = V (Proc.devRef .tc main_arg3) := by keeps hostOps1
theorem s1_arg5 : StableHlo.after hostOps1 V (Proc.devRef .tc main_arg5) = V (Proc.devRef .tc main_arg5) := by keeps hostOps1
theorem s1_arg6 : StableHlo.after hostOps1 V (Proc.devRef .tc main_arg6) = V (Proc.devRef .tc main_arg6) := by keeps hostOps1
theorem s1_arg7 : StableHlo.after hostOps1 V (Proc.devRef .tc main_arg7) = V (Proc.devRef .tc main_arg7) := by keeps hostOps1

theorem s2_v32 : StableHlo.after hostOps1_1 V (Proc.devRef .tc main_v32)
    = wgtT (V (Proc.devRef .tc main_v27)) (V (Proc.devRef .tc main_v31)) (V (Proc.devRef .tc main_cst_7)) := by
  after_results; rfl
theorem s2_v9 : StableHlo.after hostOps1_1 V (Proc.devRef .tc main_v9) = V (Proc.devRef .tc main_v9) := by keeps hostOps1_1
theorem s2_v22 : StableHlo.after hostOps1_1 V (Proc.devRef .tc main_v22) = V (Proc.devRef .tc main_v22) := by keeps hostOps1_1
theorem s2_arg0 : StableHlo.after hostOps1_1 V (Proc.devRef .tc main_arg0) = V (Proc.devRef .tc main_arg0) := by keeps hostOps1_1
theorem s2_arg2 : StableHlo.after hostOps1_1 V (Proc.devRef .tc main_arg2) = V (Proc.devRef .tc main_arg2) := by keeps hostOps1_1
theorem s2_arg3 : StableHlo.after hostOps1_1 V (Proc.devRef .tc main_arg3) = V (Proc.devRef .tc main_arg3) := by keeps hostOps1_1
theorem s2_arg5 : StableHlo.after hostOps1_1 V (Proc.devRef .tc main_arg5) = V (Proc.devRef .tc main_arg5) := by keeps hostOps1_1
theorem s2_arg6 : StableHlo.after hostOps1_1 V (Proc.devRef .tc main_arg6) = V (Proc.devRef .tc main_arg6) := by keeps hostOps1_1
theorem s2_arg7 : StableHlo.after hostOps1_1 V (Proc.devRef .tc main_arg7) = V (Proc.devRef .tc main_arg7) := by keeps hostOps1_1

theorem s3_v66 : StableHlo.after hostOps1_2 V (Proc.devRef .tc main_v66) = truncf .bf16 (tabOf V) bitsLt_bf16_f32 := by
  after_results_simp; rfl
theorem s3_v69 : StableHlo.after hostOps1_2 V (Proc.devRef .tc main_v69)
    = truncf .bf16 (subf (tabOf V) (extf .f32 (truncf .bf16 (tabOf V) bitsLt_bf16_f32) bitsLt_bf16_f32)) bitsLt_bf16_f32 := by
  after_results_simp; rfl
theorem s3_arg0 : StableHlo.after hostOps1_2 V (Proc.devRef .tc main_arg0) = V (Proc.devRef .tc main_arg0) := by keeps hostOps1_2
theorem s3_arg3 : StableHlo.after hostOps1_2 V (Proc.devRef .tc main_arg3) = V (Proc.devRef .tc main_arg3) := by keeps hostOps1_2

end Stretches

/-! ### The named values at an index -/

section Reads
variable (x0 x1 : FVec Ideal S2x1000x768 .f32) (x2 : FVec Ideal S2x1x1000 .f32) (a4 : FVec Ideal S1000 .f32)

theorem sumT_apply (k : Fin 1000) (a : Fin 768) : sumT x0 (ix2 k a) = ∑ p : Fin 2, x0 (ix3 p k a) :=
  sum_halves_apply x0 k a

theorem cntT_apply (k : Fin 1000) : cntT x2 (ix1 k) = ∑ p : Fin 2, x2 (ix3 p (0 : Fin 1) k) := by
  unfold cntT
  exact (shapeCast_1a_a_apply _ shapeCasts_S1x1000_S1000 k).trans (sum_halves_row_apply x2 0 k)

theorem colT_apply (k : Fin 1000) (u : Fin 1) : colT x2 (ix2 k u) = cntT x2 (ix1 k) := by
  unfold colT; exact bc_col_apply _ k u

theorem amtT_apply (k : Fin 1000) (u : Fin 1) : amtT x2 (ix2 k u) = Spec.amount (cntT x2 (ix1 k)) := by
  unfold amtT
  rw [bc_col_apply, maximumf_apply, bc_nil_apply]
  rfl

theorem aveT_apply (k : Fin 1000) (a : Fin 768) :
    aveT x0 x2 (ix2 k a) = Spec.ave (sumT x0 (ix2 k a)) (cntT x2 (ix1 k)) := by
  unfold aveT
  rw [hdivf_apply, bc_row768_apply, amtT_apply]
  rfl

theorem varT_apply (k : Fin 1000) (a : Fin 768) :
    varT x0 x1 x2 (ix2 k a) = max (Spec.var0 (sumT x0 (ix2 k a)) (sumT x1 (ix2 k a)) (cntT x2 (ix1 k))) Spec.w0 := by
  simp only [varT, maximumf_apply, hdivf_apply, addf_apply, subf_apply, mulf_apply, bc_nil_apply, bc_row768_apply,
    colT_apply, amtT_apply, aveT_apply, constant_apply]
  rfl

theorem denT_apply (k : Fin 1000) (u : Fin 1) : denT x2 a4 (ix2 k u) = cntT x2 (ix1 k) + a4 (ix1 k) := by
  unfold denT
  rw [addf_apply, colT_apply, sc_col_apply]

theorem wgtT_apply (k : Fin 1000) (u : Fin 1) :
    wgtT (posT x2 a4) (ratT x2 a4) (constant S_ .f32 0x00000000#32) (ix2 k u) = Spec.wgt (cntT x2 (ix1 k)) (a4 (ix1 k)) := by
  simp only [wgtT, posT, ratT, select_apply, cmpf_apply, hdivf_apply, maximumf_apply, bc_nil_apply, colT_apply,
    denT_apply, constant_apply]
  rfl

theorem omwT_apply (w : FVec Ideal S1000x1 .f32) (k : Fin 1000) (u : Fin 1) : omwT w (ix2 k u) = Spec.w1 - w (ix2 k u) := by
  unfold omwT
  rw [subf_apply, bc_nil_apply]
  rfl

theorem ncT_apply (w : FVec Ideal S1000x1 .f32) (vr av a5 a6 : FVec Ideal S1000x768 .f32) (k : Fin 1000) (a : Fin 768) :
    ncT w vr av a5 a6 (ix2 k a)
      = (a6 (ix2 k a) * (Spec.w1 - w (ix2 k (0 : Fin 1))) + vr (ix2 k a) * w (ix2 k (0 : Fin 1)))
        + (w (ix2 k (0 : Fin 1)) * (Spec.w1 - w (ix2 k (0 : Fin 1)))) * ((a5 (ix2 k a) - av (ix2 k a)) * (a5 (ix2 k a) - av (ix2 k a))) := by
  simp only [ncT, addf_apply, mulf_apply, subf_apply, bc_row768_apply, omwT_apply]

theorem tabT_apply (nc a2 : FVec Ideal S1000x768 .f32) (a7 : FVec Ideal S1 .f32) (k q : Fin 1000) :
    tabT nc a2 a7 (ix2 k q)
      = Spec.tab (fun k a => nc (ix2 k a)) (fun k a => a2 (ix2 k a)) (a7 (ix1 (0 : Fin 1))) k q := by
  simp only [tabT, mulf_apply, addf_apply, subf_apply, bc_nil_apply, bc_row1000_apply, bc_col_apply, sc_scalar_apply,
    dot_apply, tr_apply, sum_row_apply, constant_apply]
  rfl

end Reads

/-- The table the third stretch computes, read after the first two, is the specification's table of the summed moments. -/
theorem tabOf_mid (k q : Fin 1000) :
    tabOf (StableHlo.after hostOps1_1 (StableHlo.after hostOps1 Wv)) (ix2 k q) = tabW Wv k q := by
  unfold tabOf
  rw [s2_v32, s2_v22, s2_v9, s2_arg2, s2_arg5, s2_arg6, s2_arg7, s1_v27, s1_v31, s1_cst7, s1_v22, s1_v9, s1_arg2,
    s1_arg5, s1_arg6, s1_arg7, tabT_apply]
  refine congrArg (fun nc => Spec.tab nc
    (fun k a => (Wv (Proc.devRef .tc main_arg2) : S1000x768.Idx → EReal) (ix2 k a))
    ((Wv (Proc.devRef .tc main_arg7) : S1.Idx → EReal) (ix1 (0 : Fin 1))) k q) ?_
  funext k' a
  rw [ncT_apply, wgtT_apply, varT_apply, aveT_apply, sumT_apply, sumT_apply, cntT_apply]
  rfl

end HostMid

open HostMid

/-- No stretch writes `y`. -/
theorem mid_arg0 : mid Wv (Proc.devRef .tc main_arg0) = Wv (Proc.devRef .tc main_arg0) := by
  unfold mid
  rw [s3_arg0, s2_arg0, s1_arg0]

/-- No stretch writes the labels. -/
theorem mid_arg3 : mid Wv (Proc.devRef .tc main_arg3) = Wv (Proc.devRef .tc main_arg3) := by
  unfold mid
  rw [s3_arg3, s2_arg3, s1_arg3]

/-- The high part is the table. -/
theorem mid_hi (k q : Fin 1000) :
    (mid Wv (Proc.devRef .tc main_v66) : S1000x1000.Idx → EReal) (ix2 k q) = tabW Wv k q := by
  unfold mid
  rw [s3_v66]
  exact tabOf_mid Wv k q

/-- The low part is the table minus itself. -/
theorem mid_lo (k q : Fin 1000) :
    (mid Wv (Proc.devRef .tc main_v69) : S1000x1000.Idx → EReal) (ix2 k q) = tabW Wv k q - tabW Wv k q := by
  unfold mid
  rw [s3_v69]
  show tabOf (StableHlo.after hostOps1_1 (StableHlo.after hostOps1 Wv)) (ix2 k q)
    - tabOf (StableHlo.after hostOps1_1 (StableHlo.after hostOps1 Wv)) (ix2 k q) = _
  rw [tabOf_mid]

end Cert.KernelIdeal.Val

end
-- ==== Proof.Region1.lean ====
import proofs.«402928_j18021682774196_3_alg».proof.Proof.Gen.KernelIdeal.Frame
import proofs.«402928_j18021682774196_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

/-!
  The second region's result array: each 1024-row block is `y` plus the one-hot product of the labels with the
  table's high part, plus the one-hot product with its low part; the sixteen blocks tile the array.
-/

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The one-hot entry -/

/-- A comparison bit widened to a word and converted is the one-hot entry of the specification. -/
theorem oh_word (l : BitVec 32) (j : Fin 1000) :
    (FloatOps.sitofp (F := Ideal) .f32 ((IntOp.cmpi .eq l (BitVec.ofNat 32 j.val)).setWidth 32) : EReal) = Spec.oh l j := by
  unfold Spec.oh
  by_cases h : l = BitVec.ofNat 32 j.val
  · rw [if_pos h]
    have e : IntOp.cmpi .eq l (BitVec.ofNat 32 j.val) = 1#1 := by
      show BitVec.ofBool (l == BitVec.ofNat 32 j.val) = 1#1
      rw [h]; simp
    rw [e]
    show ((((1#1 : BitVec 1).setWidth 32).toInt : ℝ) : EReal) = 1
    rw [show ((1#1 : BitVec 1).setWidth 32).toInt = 1 by decide]
    norm_num
  · rw [if_neg h]
    have e : IntOp.cmpi .eq l (BitVec.ofNat 32 j.val) = 0#1 := by
      show BitVec.ofBool (l == BitVec.ofNat 32 j.val) = 0#1
      have : (l == BitVec.ofNat 32 j.val) = false := by simpa using h
      rw [this]; rfl
    rw [e]
    show ((((0#1 : BitVec 1).setWidth 32).toInt : ℝ) : EReal) = 0
    rw [show ((0#1 : BitVec 1).setWidth 32).toInt = 0 by decide]
    norm_num

/-- A vector cast to a one-column matrix reads, at `(i, u)`, the vector at `i`. -/
theorem col_cast_apply {α : Type} (x : S1024.Idx → α) (h : S1024.ShapeCasts S1024x1) (i : Fin 1024) (u : Fin 1) :
    shapeCast S1024x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along the rows reads, at `(p, c)`, the column at `p`. -/
theorem col_bcast_apply {α : Type} (v : S1024x1.Idx → α) (h : S1024x1.Broadcasts S1024x1000) (p : Fin 1024) (c : Fin 1000) :
    broadcastTo S1024x1000 v h (ix2 p c) = v (ix2 p (0 : Fin 1)) := by
  refine broadcastTo_apply v h (ix2 p c) (ix2 p (0 : Fin 1)) fun ax => ?_
  match ax with
  | ⟨0, _⟩ =>
    show p.val = if (1024 : Nat) = 1 then 0 else p.val
    rw [if_neg (by decide)]
  | ⟨1, _⟩ => rfl

/-! ## The product's operand indices -/

/-- The left operand's row is the result's row. -/
theorem lhs_row (i : S1024x1000.Idx) (k : dot_S1024x1000_S1000x1000_S1024x1000_1_0_0_1_n_n.contr.Idx) :
    (dot_S1024x1000_S1000x1000_S1024x1000_1_0_0_1_n_n.lhsIdx i k 0).val = (i 0).val := by
  unfold DotDims.lhsIdx
  rw [dif_neg (show ¬(0 : Fin S1024x1000.rank) ∈ dot_S1024x1000_S1000x1000_S1024x1000_1_0_0_1_n_n.lhsBatch by decide), dif_pos (show (0 : Fin S1024x1000.rank) ∈ dot_S1024x1000_S1000x1000_S1024x1000_1_0_0_1_n_n.lhsNonContracting by decide)]
  rfl
/-- The left operand's column is the contraction index. -/
theorem lhs_contr (i : S1024x1000.Idx) (k : dot_S1024x1000_S1000x1000_S1024x1000_1_0_0_1_n_n.contr.Idx) :
    (dot_S1024x1000_S1000x1000_S1024x1000_1_0_0_1_n_n.lhsIdx i k 1).val = (k ⟨0, by decide⟩).val :=
  dot_S1024x1000_S1000x1000_S1024x1000_1_0_0_1_n_n.lhsIdx_val_of_single rfl i k
/-- The right operand's row is the contraction index. -/
theorem rhs_contr (i : S1024x1000.Idx) (k : dot_S1024x1000_S1000x1000_S1024x1000_1_0_0_1_n_n.contr.Idx) :
    (dot_S1024x1000_S1000x1000_S1024x1000_1_0_0_1_n_n.rhsIdx i k 0).val = (k ⟨0, by decide⟩).val :=
  dot_S1024x1000_S1000x1000_S1024x1000_1_0_0_1_n_n.rhsIdx_val_of_single rfl i k
/-- The right operand's column is the result's column. -/
theorem rhs_col (i : S1024x1000.Idx) (k : dot_S1024x1000_S1000x1000_S1024x1000_1_0_0_1_n_n.contr.Idx) :
    (dot_S1024x1000_S1000x1000_S1024x1000_1_0_0_1_n_n.rhsIdx i k 1).val = (i 1).val := by
  unfold DotDims.rhsIdx
  rw [dif_neg (show ¬(1 : Fin S1000x1000.rank) ∈ dot_S1024x1000_S1000x1000_S1024x1000_1_0_0_1_n_n.rhsBatch by decide), dif_pos (show (1 : Fin S1000x1000.rank) ∈ dot_S1024x1000_S1000x1000_S1024x1000_1_0_0_1_n_n.rhsNonContracting by decide)]
  rfl

/-- The product into a zero accumulator, entry `(r, q)`: the sum over the classes of row `r` of the left operand
    times column `q` of the right. -/
theorem matmul_zero_at (a : FVec Ideal S1024x1000 .bf16) (b : FVec Ideal S1000x1000 .bf16) (r : Fin 1024) (q : Fin 1000) :
    matmul dot_S1024x1000_S1000x1000_S1024x1000_1_0_0_1_n_n none a b (constant (F := Ideal) S1024x1000 .f32 0x00000000#32) (ix2 r q)
      = ∑ j : Fin 1000, a (ix2 r j) * b (ix2 j q) := by
  simp only [matmul]
  rw [Ideal.matmul_constant_zero_apply, ← Equiv.sum_comp (ValueIdx.contrEquiv1 dot_S1024x1000_S1000x1000_S1024x1000_1_0_0_1_n_n 1000 rfl rfl).symm]
  refine Finset.sum_congr rfl fun k _ => ?_
  have hk := ValueIdx.contrEquiv1_symm_val dot_S1024x1000_S1000x1000_S1024x1000_1_0_0_1_n_n 1000 rfl rfl k
  have el : dot_S1024x1000_S1000x1000_S1024x1000_1_0_0_1_n_n.lhsIdx (ix2 r q) ((ValueIdx.contrEquiv1 dot_S1024x1000_S1000x1000_S1024x1000_1_0_0_1_n_n 1000 rfl rfl).symm k) = ix2 r k := funext fun a => Fin.ext (by
    match a with
    | ⟨0, _⟩ => exact lhs_row _ _
    | ⟨1, _⟩ => exact (lhs_contr _ _).trans hk)
  have er : dot_S1024x1000_S1000x1000_S1024x1000_1_0_0_1_n_n.rhsIdx (ix2 r q) ((ValueIdx.contrEquiv1 dot_S1024x1000_S1000x1000_S1024x1000_1_0_0_1_n_n 1000 rfl rfl).symm k) = ix2 k q := funext fun a => Fin.ext (by
    match a with
    | ⟨0, _⟩ => exact (rhs_contr _ _).trans hk
    | ⟨1, _⟩ => exact rhs_col _ _)
  rw [el, er]

/-! ## The one-hot operand and the payload -/

/-- The one-hot matrix of the block's labels, entry `(r, j)`. -/
theorem onehot_at (lv : Vec Ideal S1024 .i32) (hc : S1024.ShapeCasts S1024x1) (hb : S1024x1.Broadcasts S1024x1000)
    (hio : S1024x1000.Iotas .tc 32 [1]) (h1 : 1 < 32) (hbits : FTy.bits .bf16 < FTy.bits .f32) (r : Fin 1024) (j : Fin 1000) :
    (truncf .bf16 (sitofp .f32 (extui 32 (cmpi .eq (broadcastTo S1024x1000 (shapeCast S1024x1 lv hc) hb)
        (iota .tc S1024x1000 32 [1] hio)) h1) : FVec Ideal S1024x1000 .f32) hbits : FVec Ideal S1024x1000 .bf16) (ix2 r j)
      = Spec.oh (lv (ix1 r)) j := by
  show FloatOps.sitofp (F := Ideal) .f32 ((IntOp.cmpi .eq (broadcastTo S1024x1000 (shapeCast S1024x1 lv hc) hb (ix2 r j))
        (iota .tc S1024x1000 32 [1] hio (ix2 r j))).setWidth 32) = _
  rw [col_bcast_apply, col_cast_apply, iota_single_apply]
  exact oh_word (lv (ix1 r)) j

/-- The body's stored value at `(r, q)`: `y` plus the one-hot row of label `r` against column `q` of the high part,
    plus the same against the low part. -/
theorem payload_at (lv : Vec Ideal S1024 .i32) (hi lo : Vec Ideal S1000x1000 .bf16) (yv : Vec Ideal S1024x1000 .f32)
    (r : Fin 1024) (q : Fin 1000) :
    k1_pay1 lv hi lo yv (ix2 r q) = (yv (ix2 r q) + ∑ j : Fin 1000, Spec.oh (lv (ix1 r)) j * hi (ix2 j q))
      + ∑ j : Fin 1000, Spec.oh (lv (ix1 r)) j * lo (ix2 j q) := by
  unfold k1_pay1
  rw [addf_apply, addf_apply, matmul_zero_at, matmul_zero_at]
  simp only [shapeCast_self]
  refine congrArg₂ (· + ·) (congrArg (yv (ix2 r q) + ·) (Finset.sum_congr rfl fun j _ => ?_)) (Finset.sum_congr rfl fun j _ => ?_)
  · exact congrArg (· * hi (ix2 j q)) (onehot_at lv _ _ _ _ _ r j)
  · exact congrArg (· * lo (ix2 j q)) (onehot_at lv _ _ _ _ _ r j)

/-! ## The index maps, decided over the sixteen grid points -/

/-- The sample and result blocks move down the rows with the point; the label block with them; the two tables are
    read whole at every point. -/
theorem index_facts : ∀ t : Fin cfg1.N, win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point is one of sixteen. -/
theorem point_lt (t : Fin cfg1.N) : t.val < 16 := lt_of_lt_of_eq t.isLt N_1

/-- Row `r` of the block of point `t`, as a row of the array. -/
def rowAt (t : Fin cfg1.N) (r : Fin 1024) : Fin 16384 := ⟨1024 * t.val + r.val, by have := point_lt t; omega⟩

/-! ## The blocks the body reads, entry by entry -/

/-- The block of `y` at point `t` is rows `1024 t …` of the array. -/
theorem y_block_at (c : Dev nD) (t : Fin cfg1.N) (r : Fin 1024) (q : Fin 1000) :
    (iblk1 V c 0 t : S1024x1000.Idx → EReal) (ix2 r q) = (V c main_arg0 : S16384x1000.Idx → EReal) (ix2 (rowAt t r) q) := by
  obtain ⟨e0, e1, -⟩ := index_facts t
  show V c main_arg0 (((cfg1.win 0).blk t).view.emb (ix2 r q)) = V c main_arg0 (ix2 (rowAt t r) q)
  refine congrArg (V c main_arg0) (funext fun a => Fin.ext ?_)
  match a with
  | ⟨0, _⟩ => show win1_0.index t (0 : Fin 2) * 1024 + 1 * r.val = 1024 * t.val + r.val; omega
  | ⟨1, _⟩ => show win1_0.index t (1 : Fin 2) * 1000 + 1 * q.val = q.val; omega

/-- The block of labels at point `t` is entries `1024 t …` of the label array. -/
theorem label_block_at (c : Dev nD) (t : Fin cfg1.N) (r : Fin 1024) :
    (iblk1 V c 1 t : S1024.Idx → BitVec 32) (ix1 r) = (V c main_arg3 : S16384.Idx → BitVec 32) (ix1 (rowAt t r)) := by
  obtain ⟨-, -, e2, -⟩ := index_facts t
  show V c main_arg3 (((cfg1.win 1).blk t).view.emb (ix1 r)) = V c main_arg3 (ix1 (rowAt t r))
  refine congrArg (V c main_arg3) (funext fun a => Fin.ext ?_)
  match a with
  | ⟨0, _⟩ => show win1_1.index t (0 : Fin 1) * 1024 + 1 * r.val = 1024 * t.val + r.val; omega

/-- The high table's block is the whole table at every point. -/
theorem hi_block_at (c : Dev nD) (t : Fin cfg1.N) (j q : Fin 1000) :
    (iblk1 V c 2 t : S1000x1000.Idx → EReal) (ix2 j q) = (V c main_v66 : S1000x1000.Idx → EReal) (ix2 j q) := by
  obtain ⟨-, -, -, e3, e4, -⟩ := index_facts t
  show V c main_v66 (((cfg1.win 2).blk t).view.emb (ix2 j q)) = V c main_v66 (ix2 j q)
  refine congrArg (V c main_v66) (funext fun a => Fin.ext ?_)
  match a with
  | ⟨0, _⟩ => show win1_2.index t (0 : Fin 2) * 1000 + 1 * j.val = j.val; omega
  | ⟨1, _⟩ => show win1_2.index t (1 : Fin 2) * 1000 + 1 * q.val = q.val; omega

/-- The low table's block is the whole table at every point. -/
theorem lo_block_at (c : Dev nD) (t : Fin cfg1.N) (j q : Fin 1000) :
    (iblk1 V c 3 t : S1000x1000.Idx → EReal) (ix2 j q) = (V c main_v69 : S1000x1000.Idx → EReal) (ix2 j q) := by
  obtain ⟨-, -, -, -, -, e5, e6, -⟩ := index_facts t
  show V c main_v69 (((cfg1.win 3).blk t).view.emb (ix2 j q)) = V c main_v69 (ix2 j q)
  refine congrArg (V c main_v69) (funext fun a => Fin.ext ?_)
  match a with
  | ⟨0, _⟩ => show win1_3.index t (0 : Fin 2) * 1000 + 1 * j.val = j.val; omega
  | ⟨1, _⟩ => show win1_3.index t (1 : Fin 2) * 1000 + 1 * q.val = q.val; omega

/-- Entry `(r, q)` of the result's block at point `t` is entry `(1024 t + r, q)` of the array. -/
theorem out_block_emb (t : Fin cfg1.N) (r : Fin 1024) (q : Fin 1000) :
    ((cfg1.win 4).blk t).view.emb (ix2 r q) = (ix2 (rowAt t r) q : S16384x1000.Idx) := by
  obtain ⟨-, -, -, -, -, -, -, e7, e8⟩ := index_facts t
  refine funext fun a => Fin.ext ?_
  match a with
  | ⟨0, _⟩ => show win1_4.index t (0 : Fin 2) * 1024 + 1 * r.val = 1024 * t.val + r.val; omega
  | ⟨1, _⟩ => show win1_4.index t (1 : Fin 2) * 1000 + 1 * q.val = q.val; omega

/-! ## From the blocks to the array -/

theorem zero_offsets2 : (![0, 0] : Fin 2 → Nat) = fun _ => 0 := funext fun a => by fin_cases a <;> rfl
theorem zero_offsets1 : (![0] : Fin 1 → Nat) = fun _ => 0 := funext fun a => by fin_cases a; rfl

/-- The whole result array as one function of the arrays the region finds: the lookup of the specification. -/
def lookupArr (c : Dev nD) : S16384x1000.Idx → EReal := fun i =>
  Spec.lookup (fun n q => (V c main_arg0 : S16384x1000.Idx → EReal) (ix2 n q))
    (fun n => (V c main_arg3 : S16384.Idx → BitVec 32) (ix1 n))
    (fun j q => (V c main_v66 : S1000x1000.Idx → EReal) (ix2 j q))
    (fun j q => (V c main_v69 : S1000x1000.Idx → EReal) (ix2 j q)) (i 0) (i 1)

/-- What point `t` writes back is block `t` of the lookup. -/
theorem flushed_eq_lookup (c : Dev nD) (t : Fin cfg1.N) :
    (dat1 V c).flushed 4 t = ((cfg1.win 4).blk t).view.read (Elt Ideal) (lookupArr V c) := by
  show (cfg1.win 4).cut (grid1.coords t) ((dat1 V c).after 4 t) = _
  rw [after1_4]
  unfold out1_4
  rw [View.canon_unit_zero zero_offsets2]
  simp only [View.ld_unit_zero (S := S1024x1000) zero_offsets2, View.ld_unit_zero (S := S1000x1000) zero_offsets2,
    View.ld_unit_zero (S := S1024) zero_offsets1]
  funext j
  obtain ⟨r, q, rfl⟩ : ∃ (r : Fin 1024) (q : Fin 1000), j = ix2 r q := ⟨j 0, j 1, eq_ix2 j⟩
  show k1_pay1 (iblk1 V c 1 t) (iblk1 V c 2 t) (iblk1 V c 3 t) (iblk1 V c 0 t) (ix2 r q)
    = lookupArr V c (((cfg1.win 4).blk t).view.emb (ix2 r q))
  rw [payload_at, out_block_emb, y_block_at, label_block_at]
  simp only [hi_block_at, lo_block_at]
  rfl

/-- An index of the array is in point `t`'s block iff each coordinate is in the block's range on its axis. -/
theorem mem_out_block (t : Fin cfg1.N) (i : S16384x1000.Idx) :
    i ∈ ((cfg1.win 4).blk t).view.set ↔ ∀ a : Fin 2, win1_4.index t a * S1024x1000.size a ≤ (i a).val ∧ (i a).val < win1_4.index t a * S1024x1000.size a + S1024x1000.size a := by
  show i ∈ ((View.whole main_v70).slice (win1_4.rect t)).set ↔ _
  rw [View.set_slice_whole, Rect.mem_set_unit]
  exact Iff.rfl

/-- Row `n` of the array lies in the block of point `n / 1024`, which is written back. -/
theorem out_cover (i : S16384x1000.Idx) :
    ∃ t : Fin cfg1.N, (cfg1.win 4).flush t = true ∧ i ∈ ((cfg1.win 4).blk t).view.set := by
  have hi0 : (i 0).val < 16384 := (i 0).isLt
  have hi1 : (i 1).val < 1000 := (i 1).isLt
  have hN : cfg1.N = 16 := N_1
  let t : Fin cfg1.N := ⟨(i 0).val / 1024, by rw [hN]; omega⟩
  have ht : t.val = (i 0).val / 1024 := rfl
  obtain ⟨-, -, -, -, -, -, -, e7, e8⟩ := index_facts t
  refine ⟨t, flush1_4 t, ?_⟩
  rw [mem_out_block]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1000 ≤ (i 1).val ∧ (i 1).val < win1_4.index t (1 : Fin 2) * 1000 + 1000; omega

/-- The result array after the region, entry by entry. -/
theorem region1_out (c : Dev nD) (n : Fin 16384) (q : Fin 1000) :
    ((dat1 V c).arrAt 4 cfg1.N : S16384x1000.Idx → EReal) (ix2 n q)
      = Spec.lookup (fun n q => (V c main_arg0 : S16384x1000.Idx → EReal) (ix2 n q))
          (fun n => (V c main_arg3 : S16384.Idx → BitVec 32) (ix1 n))
          (fun j q => (V c main_v66 : S1000x1000.Idx → EReal) (ix2 j q))
          (fun j q => (V c main_v69 : S1000x1000.Idx → EReal) (ix2 j q)) n q :=
  congrFun ((dat1 V c).arrAt_eq_of_cover 4 (lookupArr V c) (fun t _ => flushed_eq_lookup V c t) out_cover) (ix2 n q)

end Cert.KernelIdeal.Val

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Math.lean ====
import proofs.«402928_j18021682774196_3_alg».proof.Proof.Spec
import proofs.«402928_j18021682774196_3_alg».proof.Proof.LibReal
import Mathlib.Algebra.BigOperators.Fin
import Mathlib.Algebra.Order.BigOperators.Group.Finset
import Mathlib.Tactic.Ring
import Mathlib.Tactic.NormNum

/-!
  Over the reals the two results agree.

  With every float input real and every label a class index: every moment, mean, variance, weight, blended
  covariance and table entry is real; the variance `(Σ e·f² − 2·ave·Σ e·f + (Σ e)·ave²) / max cnt 1` is
  `Σ e·(f − ave)² / max cnt 1 ≥ 0` for the one-hot entries `e ∈ {0, 1}`, so clamping it at zero changes
  nothing; a real table entry minus itself is zero; the one-hot product selects the label's row; and a label
  in range is its own row index.
-/

noncomputable section

namespace Cert.Spec

open Idealize.ShloMosaic Cert.LibReal
open scoped BigOperators

/-! ### The samples by half, tile and row -/

/-- The enumeration `(p, j, r) ↦ 8192 p + 512 j + r` of the samples, with its inverse by quotient and
    remainder. -/
def rowEquiv : Fin 2 × Fin 16 × Fin 512 ≃ Fin 16384 where
  toFun x := row x.1 x.2.1 x.2.2
  invFun n := (⟨n.val / 8192, by omega⟩, ⟨n.val % 8192 / 512, by omega⟩, ⟨n.val % 512, by omega⟩)
  left_inv := by
    rintro ⟨p, j, r⟩
    simp only [row, Prod.mk.injEq, Fin.ext_iff]
    omega
  right_inv := by
    intro n
    simp only [row, Fin.ext_iff]
    omega

/-- The samples enumerated by half, tile and row. -/
theorem sum_rows (g : Fin 16384 → EReal) : ∑ p : Fin 2, ∑ j : Fin 16, ∑ r : Fin 512, g (row p j r) = ∑ n, g n := by
  rw [← Fintype.sum_equiv rowEquiv (fun x => g (row x.1 x.2.1 x.2.2)) g (fun _ => rfl)]
  rw [Fintype.sum_prod_type]
  refine Finset.sum_congr rfl fun p _ => ?_
  rw [Fintype.sum_prod_type]

/-! ### The four literal words -/

/-- The all-zero word is the real zero. -/
theorem w0_eq : w0 = 0 := by
  simp [w0, Ideal.ofBits, Ideal.ieee]

/-- Exponent field 127 and an empty fraction: `2^23 · 2^(127 − 127 − 23) = 1`. -/
theorem w1_eq : w1 = ((1 : ℝ) : EReal) := by
  simp [w1, Ideal.ofBits, Ideal.ieee, -EReal.coe_mul]
  norm_num

/-- Exponent field 128 and an empty fraction: `2^23 · 2^(128 − 127 − 23) = 2`. -/
theorem w2_eq : w2 = ((2 : ℝ) : EReal) := by
  simp [w2, Ideal.ofBits, Ideal.ieee, -EReal.coe_mul]
  norm_num

/-- Exponent field 126 and an empty fraction: `2^23 · 2^(126 − 127 − 23) = 1/2`. -/
theorem wh_eq : wh = ((1 / 2 : ℝ) : EReal) := by
  simp [wh, Ideal.ofBits, Ideal.ieee, -EReal.coe_mul]
  norm_num

theorem isReal_w0 : IsReal w0 := by rw [w0_eq]; exact IsReal.zero
theorem isReal_w1 : IsReal w1 := by rw [w1_eq]; exact IsReal.coe 1
theorem isReal_w2 : IsReal w2 := by rw [w2_eq]; exact IsReal.coe 2
theorem isReal_wh : IsReal wh := by rw [wh_eq]; exact IsReal.coe _

/-! ### Everything computed from real inputs is real -/

theorem isReal_oh (l : BitVec 32) (k : Fin 1000) : IsReal (oh l k) := by
  unfold oh
  by_cases h : l = BitVec.ofNat 32 k.val
  · rw [if_pos h]; exact IsReal.one
  · rw [if_neg h]; exact IsReal.zero

theorem isReal_cnt (l : Fin 16384 → BitVec 32) (k : Fin 1000) : IsReal (cnt l k) :=
  IsReal.sum _ _ fun n _ => isReal_oh (l n) k

theorem isReal_sf (l : Fin 16384 → BitVec 32) (f : Fin 16384 → Fin 768 → EReal) (hf : ∀ n a, IsReal (f n a))
    (k : Fin 1000) (a : Fin 768) : IsReal (sf l f k a) :=
  IsReal.sum _ _ fun n _ => IsReal.mul (isReal_oh (l n) k) (hf n a)

theorem isReal_sf2 (l : Fin 16384 → BitVec 32) (f : Fin 16384 → Fin 768 → EReal) (hf : ∀ n a, IsReal (f n a))
    (k : Fin 1000) (a : Fin 768) : IsReal (sf2 l f k a) :=
  IsReal.sum _ _ fun n _ => IsReal.mul (isReal_oh (l n) k) (IsReal.mul (hf n a) (hf n a))

/-- The divisor is at least one, so positive. -/
theorem amount_pos (c : EReal) : 0 < amount c := by
  unfold amount
  rw [w1_eq]
  exact lt_of_lt_of_le (EReal.coe_pos.mpr one_pos) (le_max_right _ _)

theorem amount_ne_zero (c : EReal) : amount c ≠ 0 := (amount_pos c).ne'

theorem isReal_amount {c : EReal} (hc : IsReal c) : IsReal (amount c) := IsReal.max hc isReal_w1

theorem isReal_ave {s c : EReal} (hs : IsReal s) (hc : IsReal c) : IsReal (ave s c) :=
  IsReal.div hs (isReal_amount hc) (amount_ne_zero c)

theorem isReal_var0 {s s2 c : EReal} (hs : IsReal s) (hs2 : IsReal s2) (hc : IsReal c) : IsReal (var0 s s2 c) :=
  IsReal.div
    (IsReal.add (IsReal.sub hs2 (IsReal.mul (IsReal.mul isReal_w2 (isReal_ave hs hc)) hs))
      (IsReal.mul (IsReal.mul hc (isReal_ave hs hc)) (isReal_ave hs hc)))
    (isReal_amount hc) (amount_ne_zero c)

/-- The weight is a quotient by a divisor that is at least one, or zero. -/
theorem isReal_wgt {c c0 : EReal} (hc : IsReal c) (hc0 : IsReal c0) : IsReal (wgt c c0) := by
  unfold wgt Scalar.select
  by_cases h : Ideal.cmp .ogt (c + c0) w0 = 1
  · rw [if_pos h]
    exact IsReal.div hc (isReal_amount (IsReal.add hc hc0)) (amount_ne_zero (c + c0))
  · rw [if_neg h]
    exact isReal_w0

theorem isReal_ncovOf {v s c c0 mean cov : EReal} (hv : IsReal v) (hs : IsReal s) (hc : IsReal c) (hc0 : IsReal c0)
    (hmean : IsReal mean) (hcov : IsReal cov) : IsReal (ncovOf v s c c0 mean cov) := by
  have hw := isReal_wgt hc hc0
  have ha := isReal_ave hs hc
  unfold ncovOf
  exact IsReal.add (IsReal.add (IsReal.mul hcov (IsReal.sub isReal_w1 hw)) (IsReal.mul hv hw))
    (IsReal.mul (IsReal.mul hw (IsReal.sub isReal_w1 hw)) (IsReal.mul (IsReal.sub hmean ha) (IsReal.sub hmean ha)))

theorem isReal_quad {nc W : Fin 1000 → Fin 768 → EReal} (hnc : ∀ k a, IsReal (nc k a)) (hW : ∀ k a, IsReal (W k a))
    (k c : Fin 1000) : IsReal (quad nc W k c) := by
  unfold quad
  exact IsReal.add
    (IsReal.sub (IsReal.sum _ _ fun a _ => IsReal.mul (hnc k a) (IsReal.mul (hW c a) (hW c a)))
      (IsReal.mul isReal_w2 (IsReal.sum _ _ fun a _ => IsReal.mul (IsReal.mul (hW k a) (hnc k a)) (hW c a))))
    (IsReal.sum _ _ fun a _ => IsReal.mul (IsReal.mul (hW k a) (hW k a)) (hnc k a))

theorem isReal_tab {nc W : Fin 1000 → Fin 768 → EReal} {ratio : EReal} (hnc : ∀ k a, IsReal (nc k a))
    (hW : ∀ k a, IsReal (W k a)) (hratio : IsReal ratio) (k c : Fin 1000) : IsReal (tab nc W ratio k c) :=
  IsReal.mul (IsReal.mul isReal_wh hratio) (isReal_quad hnc hW k c)

/-- A real minus itself is zero (an infinity minus itself is not). -/
theorem sub_self_of_isReal {x : EReal} (h : IsReal x) : x - x = 0 := by
  obtain ⟨r, rfl⟩ := h
  rw [← EReal.coe_sub, sub_self]
  rfl

/-! ### The variance of the one-hot moments is not negative -/

/-- Expanding the square under the sum: `Σ e f² − 2A Σ e f + (Σ e) A² = Σ e (f − A)²`. -/
theorem real_var_num (e f : Fin 16384 → ℝ) (A : ℝ) :
    ((∑ n, e n * (f n * f n)) - (2 * A) * (∑ n, e n * f n)) + ((∑ n, e n) * A) * A
      = ∑ n, e n * ((f n - A) * (f n - A)) := by
  rw [Finset.mul_sum, Finset.sum_mul, Finset.sum_mul, ← Finset.sum_sub_distrib, ← Finset.sum_add_distrib]
  exact Finset.sum_congr rfl fun n _ => by ring

/-- With weights `e ≥ 0` every term `e (f − A)²` is a product of nonnegatives. -/
theorem real_var_num_nonneg (e f : Fin 16384 → ℝ) (he : ∀ n, 0 ≤ e n) (A : ℝ) :
    0 ≤ ((∑ n, e n * (f n * f n)) - (2 * A) * (∑ n, e n * f n)) + ((∑ n, e n) * A) * A := by
  rw [real_var_num]
  exact Finset.sum_nonneg fun n _ => mul_nonneg (he n) (mul_self_nonneg _)

theorem max_coe (a b : ℝ) : max (a : EReal) (b : EReal) = ((max a b : ℝ) : EReal) :=
  (EReal.coe_strictMono.monotone.map_max).symm

theorem max_one_pos (c : ℝ) : 0 < max c 1 := lt_of_lt_of_le one_pos (le_max_right c 1)

theorem amount_coe (c : ℝ) : amount (c : EReal) = ((max c 1 : ℝ) : EReal) := by
  unfold amount
  rw [w1_eq, max_coe]

theorem ave_coe (s c : ℝ) : ave (s : EReal) (c : EReal) = ((s * (1 / max c 1) : ℝ) : EReal) := by
  unfold ave
  rw [amount_coe, Ideal.div_coe (max_one_pos c).ne', ← EReal.coe_mul]

/-- The variance of real moments, as one real expression. -/
theorem var0_coe (s s2 c : ℝ) : var0 (s : EReal) (s2 : EReal) (c : EReal)
    = ((((s2 - (2 * (s * (1 / max c 1))) * s) + (c * (s * (1 / max c 1))) * (s * (1 / max c 1))) * (1 / max c 1) : ℝ) : EReal) := by
  unfold var0
  rw [ave_coe, amount_coe, w2_eq, Ideal.div_coe (max_one_pos c).ne']
  simp only [← EReal.coe_mul, ← EReal.coe_sub, ← EReal.coe_add]

/-- The key fact: on the one-hot moments of real features the variance is `Σ e (f − ave)² / max cnt 1 ≥ 0`. -/
theorem var0_moments_nonneg (l : Fin 16384 → BitVec 32) (f : Fin 16384 → Fin 768 → EReal) (hf : ∀ n a, IsReal (f n a))
    (k : Fin 1000) (a : Fin 768) : 0 ≤ var0 (sf l f k a) (sf2 l f k a) (cnt l k) := by
  choose fr hfr using hf
  have hoh : ∀ n, oh (l n) k = (((if l n = BitVec.ofNat 32 k.val then (1 : ℝ) else 0) : ℝ) : EReal) := by
    intro n
    unfold oh
    by_cases h : l n = BitVec.ofNat 32 k.val
    · rw [if_pos h, if_pos h]; rfl
    · rw [if_neg h, if_neg h]; rfl
  have he : ∀ n, (0 : ℝ) ≤ (if l n = BitVec.ofNat 32 k.val then (1 : ℝ) else 0) := by
    intro n
    by_cases h : l n = BitVec.ofNat 32 k.val
    · rw [if_pos h]; exact zero_le_one
    · rw [if_neg h]
  have hcnt : cnt l k = ((∑ n, (if l n = BitVec.ofNat 32 k.val then (1 : ℝ) else 0) : ℝ) : EReal) := by
    unfold cnt
    rw [coe_sum]
    exact Finset.sum_congr rfl fun n _ => hoh n
  have hsf : sf l f k a = ((∑ n, (if l n = BitVec.ofNat 32 k.val then (1 : ℝ) else 0) * fr n a : ℝ) : EReal) := by
    unfold sf
    rw [coe_sum]
    exact Finset.sum_congr rfl fun n _ => by rw [hoh n, hfr n a, EReal.coe_mul]
  have hsf2 : sf2 l f k a
      = ((∑ n, (if l n = BitVec.ofNat 32 k.val then (1 : ℝ) else 0) * (fr n a * fr n a) : ℝ) : EReal) := by
    unfold sf2
    rw [coe_sum]
    exact Finset.sum_congr rfl fun n _ => by rw [hoh n, hfr n a, EReal.coe_mul, EReal.coe_mul]
  rw [hcnt, hsf, hsf2, var0_coe]
  apply EReal.coe_nonneg.mpr
  apply mul_nonneg
  · exact real_var_num_nonneg _ (fun n => fr n a) he _
  · exact (one_div_pos.mpr (max_one_pos _)).le

/-- So clamping the variance at zero changes nothing: the two covariance tables are one. -/
theorem ncTabK_eq_ncTabR (l : Fin 16384 → BitVec 32) (f : Fin 16384 → Fin 768 → EReal) (hf : ∀ n a, IsReal (f n a))
    (c0 : Fin 1000 → EReal) (mean cov : Fin 1000 → Fin 768 → EReal) :
    ncTabK (cnt l) (sf l f) (sf2 l f) c0 mean cov = ncTabR (cnt l) (sf l f) (sf2 l f) c0 mean cov := by
  funext k a
  unfold ncTabK ncTabR ncovK ncovR
  rw [max_eq_left]
  rw [w0_eq]
  exact var0_moments_nonneg l f hf k a

theorem isReal_ncTabK (l : Fin 16384 → BitVec 32) (f : Fin 16384 → Fin 768 → EReal) (hf : ∀ n a, IsReal (f n a))
    (c0 : Fin 1000 → EReal) (mean cov : Fin 1000 → Fin 768 → EReal) (hc0 : ∀ k, IsReal (c0 k))
    (hmean : ∀ k a, IsReal (mean k a)) (hcov : ∀ k a, IsReal (cov k a)) (k : Fin 1000) (a : Fin 768) :
    IsReal (ncTabK (cnt l) (sf l f) (sf2 l f) c0 mean cov k a) := by
  unfold ncTabK ncovK
  exact isReal_ncovOf
    (IsReal.max (isReal_var0 (isReal_sf l f hf k a) (isReal_sf2 l f hf k a) (isReal_cnt l k)) isReal_w0)
    (isReal_sf l f hf k a) (isReal_cnt l k) (hc0 k) (hmean k a) (hcov k a)

/-! ### The one-hot product selects the label's row -/

/-- Class indices are below `2^32`, so their words differ when they do. -/
theorem ofNat_eq_iff (k j : Fin 1000) : BitVec.ofNat 32 k.val = BitVec.ofNat 32 j.val ↔ k = j := by
  constructor
  · intro h
    have h' := congrArg BitVec.toNat h
    rw [BitVec.toNat_ofNat, BitVec.toNat_ofNat] at h'
    apply Fin.ext
    omega
  · rintro rfl; rfl

theorem oh_ofNat_self (k : Fin 1000) : oh (BitVec.ofNat 32 k.val) k = 1 := if_pos rfl

theorem oh_ofNat_ne {k j : Fin 1000} (h : j ≠ k) : oh (BitVec.ofNat 32 k.val) j = 0 :=
  if_neg fun h' => h ((ofNat_eq_iff k j).mp h').symm

theorem sum_oh_mul (k : Fin 1000) (X : Fin 1000 → EReal) : ∑ j, oh (BitVec.ofNat 32 k.val) j * X j = X k := by
  rw [Finset.sum_eq_single k]
  · rw [oh_ofNat_self, one_mul]
  · intro j _ hj
    rw [oh_ofNat_ne hj, zero_mul]
  · intro h
    exact absurd (Finset.mem_univ k) h

/-- A class index read as a signed word is not negative, stays as it is, and is below the clamp. -/
theorem rowOf_ofNat (k : Fin 1000) : rowOf (BitVec.ofNat 32 k.val) = k := by
  have hn : (BitVec.ofNat 32 k.val).toNat = k.val := by
    rw [BitVec.toNat_ofNat]; omega
  have hi : (BitVec.ofNat 32 k.val).toInt = (k.val : Int) := by
    rw [BitVec.toInt_eq_toNat_of_lt (by rw [hn]; omega), hn]
  have hs : IntOp.cmpi .slt (BitVec.ofNat 32 k.val) 0#32 = 0#1 := by
    show BitVec.ofBool ((BitVec.ofNat 32 k.val).slt 0#32) = 0#1
    rw [BitVec.slt_eq_decide, hi, BitVec.toInt_zero]
    have : ¬ ((k.val : Int) < 0) := by omega
    rw [decide_eq_false this]
    rfl
  apply Fin.ext
  show min (Scalar.select (IntOp.cmpi .slt (BitVec.ofNat 32 k.val) 0#32) (BitVec.ofNat 32 k.val + 1000#32)
    (BitVec.ofNat 32 k.val)).toInt.toNat 999 = k.val
  rw [hs]
  show min (BitVec.ofNat 32 k.val).toInt.toNat 999 = k.val
  rw [hi]
  omega

/-! ### The two results -/

/-- Under real inputs and labels in range the looked-up table and the gathered form agree. -/
theorem kout_eq_rout (y : Fin 16384 → Fin 1000 → EReal) (f : Fin 16384 → Fin 768 → EReal) (W : Fin 1000 → Fin 768 → EReal)
    (l : Fin 16384 → BitVec 32) (c0 : Fin 1000 → EReal) (mean cov : Fin 1000 → Fin 768 → EReal) (ratio : EReal)
    (hy : ∀ n q, IsReal (y n q)) (hf : ∀ n a, IsReal (f n a)) (hW : ∀ k a, IsReal (W k a))
    (hc0 : ∀ k, IsReal (c0 k)) (hmean : ∀ k a, IsReal (mean k a)) (hcov : ∀ k a, IsReal (cov k a))
    (hratio : IsReal ratio) (hl : ∀ n, ∃ k : Fin 1000, l n = BitVec.ofNat 32 k.val)
    (n : Fin 16384) (q : Fin 1000) :
    KOut y f W l c0 mean cov ratio n q = ROut y f W l c0 mean cov ratio n q := by
  obtain ⟨k, hk⟩ := hl n
  have hT : ∀ j c, IsReal (tab (ncTabK (cnt l) (sf l f) (sf2 l f) c0 mean cov) W ratio j c) := fun j c =>
    isReal_tab (isReal_ncTabK l f hf c0 mean cov hc0 hmean hcov) hW hratio j c
  have hlo : ∑ j, oh (l n) j * (tab (ncTabK (cnt l) (sf l f) (sf2 l f) c0 mean cov) W ratio j q - tab (ncTabK (cnt l) (sf l f) (sf2 l f) c0 mean cov) W ratio j q) = 0 :=
    Finset.sum_eq_zero fun j _ => by rw [sub_self_of_isReal (hT j q), mul_zero]
  have hhi : ∑ j, oh (l n) j * tab (ncTabK (cnt l) (sf l f) (sf2 l f) c0 mean cov) W ratio j q = tab (ncTabK (cnt l) (sf l f) (sf2 l f) c0 mean cov) W ratio k q := by
    rw [hk]
    exact sum_oh_mul k fun j => tab (ncTabK (cnt l) (sf l f) (sf2 l f) c0 mean cov) W ratio j q
  show (y n q + ∑ j, oh (l n) j * tab (ncTabK (cnt l) (sf l f) (sf2 l f) c0 mean cov) W ratio j q) + ∑ j, oh (l n) j * (tab (ncTabK (cnt l) (sf l f) (sf2 l f) c0 mean cov) W ratio j q - tab (ncTabK (cnt l) (sf l f) (sf2 l f) c0 mean cov) W ratio j q)
    = y n q + wh * (ratio * quad (ncTabR (cnt l) (sf l f) (sf2 l f) c0 mean cov) W (rowOf (l n)) q)
  rw [hlo, hhi, add_zero, hk, rowOf_ofNat, ncTabK_eq_ncTabR l f hf]
  show y n q + (wh * ratio) * quad (ncTabR (cnt l) (sf l f) (sf2 l f) c0 mean cov) W k q = y n q + wh * (ratio * quad (ncTabR (cnt l) (sf l f) (sf2 l f) c0 mean cov) W k q)
  rw [mul_assoc]

end Cert.Spec

end
-- ==== Proof.KernelValue.lean ====
import proofs.«402928_j18021682774196_3_alg».proof.Proof.RunResult
import proofs.«402928_j18021682774196_3_alg».proof.Proof.Region0
import proofs.«402928_j18021682774196_3_alg».proof.Proof.HostMid
import proofs.«402928_j18021682774196_3_alg».proof.Proof.Region1
import proofs.«402928_j18021682774196_3_alg».proof.Proof.Math

/-!
  The kernel program's result array as a function of its arguments.

  The fold through the program's segments composes three facts: the first region leaves, per half of the
  samples, the one-hot sums of that half (its three result arrays); the host operations between the regions
  add the two halves — giving the moments over all samples, once the samples are enumerated by half, tile and
  row — and form the per-class table with its high and low parts; the second region adds to `y` the one-hot
  lookups of both parts.  No host operation and no region writes an argument, so every array the later
  segments read of an argument is the launch contents.
-/

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The arguments over plain indices -/

abbrev argY (c : Dev nD) : Fin 16384 → Fin 1000 → EReal :=
  fun n q => (m ((c.tc : Thread nD τ).loc main_arg0) : S16384x1000.Idx → EReal) (ix2 n q)
abbrev argF (c : Dev nD) : Fin 16384 → Fin 768 → EReal :=
  fun n a => (m ((c.tc : Thread nD τ).loc main_arg1) : S16384x768.Idx → EReal) (ix2 n a)
abbrev argW (c : Dev nD) : Fin 1000 → Fin 768 → EReal :=
  fun k a => (m ((c.tc : Thread nD τ).loc main_arg2) : S1000x768.Idx → EReal) (ix2 k a)
abbrev argL (c : Dev nD) : Fin 16384 → BitVec 32 :=
  fun n => (m ((c.tc : Thread nD τ).loc main_arg3) : S16384.Idx → BitVec 32) (ix1 n)
abbrev argC0 (c : Dev nD) : Fin 1000 → EReal :=
  fun k => (m ((c.tc : Thread nD τ).loc main_arg4) : S1000.Idx → EReal) (ix1 k)
abbrev argMean (c : Dev nD) : Fin 1000 → Fin 768 → EReal :=
  fun k a => (m ((c.tc : Thread nD τ).loc main_arg5) : S1000x768.Idx → EReal) (ix2 k a)
abbrev argCov (c : Dev nD) : Fin 1000 → Fin 768 → EReal :=
  fun k a => (m ((c.tc : Thread nD τ).loc main_arg6) : S1000x768.Idx → EReal) (ix2 k a)
abbrev argRatio (c : Dev nD) : EReal :=
  (m ((c.tc : Thread nD τ).loc main_arg7) : S1.Idx → EReal) (ix1 (0 : Fin 1))

/-! ## The arguments at the first region's exit are the launch contents -/

theorem w1_arg0 (c : Dev nD) : W1 m ρ c (Proc.devRef .tc main_arg0) = m ((c : Thread nD τ).loc main_arg0) :=
  (W1_of_ne m ρ c main_arg0 (by decide)).trans rfl
theorem w1_arg2 (c : Dev nD) : W1 m ρ c (Proc.devRef .tc main_arg2) = m ((c : Thread nD τ).loc main_arg2) :=
  (W1_of_ne m ρ c main_arg2 (by decide)).trans rfl
theorem w1_arg4 (c : Dev nD) : W1 m ρ c (Proc.devRef .tc main_arg4) = m ((c : Thread nD τ).loc main_arg4) :=
  (W1_of_ne m ρ c main_arg4 (by decide)).trans rfl
theorem w1_arg5 (c : Dev nD) : W1 m ρ c (Proc.devRef .tc main_arg5) = m ((c : Thread nD τ).loc main_arg5) :=
  (W1_of_ne m ρ c main_arg5 (by decide)).trans rfl
theorem w1_arg6 (c : Dev nD) : W1 m ρ c (Proc.devRef .tc main_arg6) = m ((c : Thread nD τ).loc main_arg6) :=
  (W1_of_ne m ρ c main_arg6 (by decide)).trans rfl
theorem w1_arg7 (c : Dev nD) : W1 m ρ c (Proc.devRef .tc main_arg7) = m ((c : Thread nD τ).loc main_arg7) :=
  (W1_of_ne m ρ c main_arg7 (by decide)).trans rfl
/-- The labels are an input window of the first region: read back through it. -/
theorem w1_arg3 (c : Dev nD) : W1 m ρ c (Proc.devRef .tc main_arg3) = m ((c : Thread nD τ).loc main_arg3) :=
  ((W1_arr m ρ c 1).trans (((dat0 (V0 m ρ) c).arrAt_in 1 rfl _).trans (A_eq0 (V0 m ρ) c 1))).trans rfl

/-! ## The moments over all samples -/

/-- The two halves' counts added are the class counts. -/
theorem cntW_eq (c : Dev nD) (k : Fin 1000) : cntW (W1 m ρ c) k = Spec.cnt (argL m c) k := by
  have h : ∀ p : Fin 2, (W1 m ρ c (Proc.devRef .tc main_v0_2) : S2x1x1000.Idx → EReal) (ix3 p (0 : Fin 1) k)
      = ∑ j : Fin 16, ∑ r : Fin 512, Spec.oh (argL m c (Spec.row p j r)) k :=
    fun p => (congrFun (W1_arr m ρ c 4) (ix3 p (0 : Fin 1) k)).trans (region0_cnt (V0 m ρ) c p k)
  have hs : cntW (W1 m ρ c) k = ∑ p : Fin 2, ∑ j : Fin 16, ∑ r : Fin 512, Spec.oh (argL m c (Spec.row p j r)) k :=
    Finset.sum_congr rfl fun p _ => h p
  exact hs.trans (Spec.sum_rows fun n => Spec.oh (argL m c n) k)

/-- The two halves' feature sums added are the class sums. -/
theorem sfW_eq (c : Dev nD) (k : Fin 1000) (a : Fin 768) : sfW (W1 m ρ c) k a = Spec.sf (argL m c) (argF m c) k a := by
  have h : ∀ p : Fin 2, (W1 m ρ c (Proc.devRef .tc main_v0_0) : S2x1000x768.Idx → EReal) (ix3 p k a)
      = ∑ j : Fin 16, ∑ r : Fin 512, Spec.oh (argL m c (Spec.row p j r)) k * argF m c (Spec.row p j r) a :=
    fun p => (congrFun (W1_arr m ρ c 2) (ix3 p k a)).trans (region0_sumf (V0 m ρ) c p k a)
  have hs : sfW (W1 m ρ c) k a
      = ∑ p : Fin 2, ∑ j : Fin 16, ∑ r : Fin 512, Spec.oh (argL m c (Spec.row p j r)) k * argF m c (Spec.row p j r) a :=
    Finset.sum_congr rfl fun p _ => h p
  exact hs.trans (Spec.sum_rows fun n => Spec.oh (argL m c n) k * argF m c n a)

/-- The two halves' sums of squares added are the class sums of squares. -/
theorem sf2W_eq (c : Dev nD) (k : Fin 1000) (a : Fin 768) : sf2W (W1 m ρ c) k a = Spec.sf2 (argL m c) (argF m c) k a := by
  have h : ∀ p : Fin 2, (W1 m ρ c (Proc.devRef .tc main_v0_1) : S2x1000x768.Idx → EReal) (ix3 p k a)
      = ∑ j : Fin 16, ∑ r : Fin 512, Spec.oh (argL m c (Spec.row p j r)) k * (argF m c (Spec.row p j r) a * argF m c (Spec.row p j r) a) :=
    fun p => (congrFun (W1_arr m ρ c 3) (ix3 p k a)).trans (region0_sumf2 (V0 m ρ) c p k a)
  have hs : sf2W (W1 m ρ c) k a
      = ∑ p : Fin 2, ∑ j : Fin 16, ∑ r : Fin 512,
          Spec.oh (argL m c (Spec.row p j r)) k * (argF m c (Spec.row p j r) a * argF m c (Spec.row p j r) a) :=
    Finset.sum_congr rfl fun p _ => h p
  exact hs.trans (Spec.sum_rows fun n => Spec.oh (argL m c n) k * (argF m c n a * argF m c n a))

/-- The table the host operations form is the table of the arguments' moments. -/
theorem tabW_eq (c : Dev nD) (k q : Fin 1000) :
    tabW (W1 m ρ c) k q
      = Spec.tab (Spec.ncTabK (Spec.cnt (argL m c)) (Spec.sf (argL m c) (argF m c)) (Spec.sf2 (argL m c) (argF m c))
          (argC0 m c) (argMean m c) (argCov m c)) (argW m c) (argRatio m c) k q := by
  have e1 : cntW (W1 m ρ c) = Spec.cnt (argL m c) := funext (cntW_eq m ρ c)
  have e2 : sfW (W1 m ρ c) = Spec.sf (argL m c) (argF m c) := funext fun k => funext fun a => sfW_eq m ρ c k a
  have e3 : sf2W (W1 m ρ c) = Spec.sf2 (argL m c) (argF m c) := funext fun k => funext fun a => sf2W_eq m ρ c k a
  have a4 : (fun k : Fin 1000 => (W1 m ρ c (Proc.devRef .tc main_arg4) : S1000.Idx → EReal) (ix1 k)) = argC0 m c :=
    funext fun k => congrFun (w1_arg4 m ρ c) (ix1 k)
  have a5 : (fun (k : Fin 1000) (a : Fin 768) => (W1 m ρ c (Proc.devRef .tc main_arg5) : S1000x768.Idx → EReal) (ix2 k a)) = argMean m c :=
    funext fun k => funext fun a => congrFun (w1_arg5 m ρ c) (ix2 k a)
  have a6 : (fun (k : Fin 1000) (a : Fin 768) => (W1 m ρ c (Proc.devRef .tc main_arg6) : S1000x768.Idx → EReal) (ix2 k a)) = argCov m c :=
    funext fun k => funext fun a => congrFun (w1_arg6 m ρ c) (ix2 k a)
  have a2 : (fun (k : Fin 1000) (a : Fin 768) => (W1 m ρ c (Proc.devRef .tc main_arg2) : S1000x768.Idx → EReal) (ix2 k a)) = argW m c :=
    funext fun k => funext fun a => congrFun (w1_arg2 m ρ c) (ix2 k a)
  have a7 : (W1 m ρ c (Proc.devRef .tc main_arg7) : S1.Idx → EReal) (ix1 (0 : Fin 1)) = argRatio m c :=
    congrFun (w1_arg7 m ρ c) (ix1 (0 : Fin 1))
  show Spec.tab (Spec.ncTabK (cntW (W1 m ρ c)) (sfW (W1 m ρ c)) (sf2W (W1 m ρ c)) _ _ _) _ _ k q = _
  rw [e1, e2, e3, a4, a5, a6, a2, a7]

/-! ## The second region's inputs -/

theorem v4_arg0 (c : Dev nD) : V4 m ρ c main_arg0 = m ((c : Thread nD τ).loc main_arg0) :=
  (mid_arg0 (W1 m ρ c)).trans (w1_arg0 m ρ c)
theorem v4_arg3 (c : Dev nD) : V4 m ρ c main_arg3 = m ((c : Thread nD τ).loc main_arg3) :=
  (mid_arg3 (W1 m ρ c)).trans (w1_arg3 m ρ c)

/-! ## The result -/

/-- The result array's final contents, entry by entry. -/
theorem result_eq (c : Dev nD) (n : Fin 16384) (q : Fin 1000) :
    (W5 m ρ c (Proc.devRef .tc main_v70) : S16384x1000.Idx → EReal) (ix2 n q)
      = Spec.KOut (argY m c) (argF m c) (argW m c) (argL m c) (argC0 m c) (argMean m c) (argCov m c) (argRatio m c) n q := by
  refine (congrFun (W5_arr m ρ c 4) (ix2 n q)).trans ?_
  refine (region1_out (V4 m ρ) c n q).trans ?_
  have hA : (fun (n : Fin 16384) (q : Fin 1000) => (V4 m ρ c main_arg0 : S16384x1000.Idx → EReal) (ix2 n q)) = argY m c :=
    funext fun n => funext fun q => congrFun (v4_arg0 m ρ c) (ix2 n q)
  have hB : (fun n : Fin 16384 => (V4 m ρ c main_arg3 : S16384.Idx → BitVec 32) (ix1 n)) = argL m c :=
    funext fun n => congrFun (v4_arg3 m ρ c) (ix1 n)
  have hC : (fun (j q : Fin 1000) => (V4 m ρ c main_v66 : S1000x1000.Idx → EReal) (ix2 j q))
      = Spec.tab (Spec.ncTabK (Spec.cnt (argL m c)) (Spec.sf (argL m c) (argF m c)) (Spec.sf2 (argL m c) (argF m c))
          (argC0 m c) (argMean m c) (argCov m c)) (argW m c) (argRatio m c) :=
    funext fun j => funext fun q => (mid_hi (W1 m ρ c) j q).trans (tabW_eq m ρ c j q)
  have hD : (fun (j q : Fin 1000) => (V4 m ρ c main_v69 : S1000x1000.Idx → EReal) (ix2 j q))
      = fun j q => Spec.tab (Spec.ncTabK (Spec.cnt (argL m c)) (Spec.sf (argL m c) (argF m c)) (Spec.sf2 (argL m c) (argF m c))
            (argC0 m c) (argMean m c) (argCov m c)) (argW m c) (argRatio m c) j q
          - Spec.tab (Spec.ncTabK (Spec.cnt (argL m c)) (Spec.sf (argL m c) (argF m c)) (Spec.sf2 (argL m c) (argF m c))
            (argC0 m c) (argMean m c) (argCov m c)) (argW m c) (argRatio m c) j q :=
    funext fun j => funext fun q => (mid_lo (W1 m ρ c) j q).trans (by rw [tabW_eq m ρ c j q])
  rw [hA, hB, hC, hD]
  rfl

/-- The result array as one function of the launch contents. -/
def kout (c : Dev nD) : Buf (Elt Ideal) ((c.tc : Thread nD τ).loc main_v70) :=
  fun i => Spec.KOut (argY m c) (argF m c) (argW m c) (argL m c) (argC0 m c) (argMean m c) (argCov m c) (argRatio m c) (i 0) (i 1)

/-- Every weakly fair execution of the kernel program terminates with the result array at `kout` and the
    arguments unchanged. -/
theorem kernel_value : θ_run defs (onTc (τ := τ) (main (F := Ideal))) ⟨m, fun _ => 0, ρ⟩ (fun r => ∀ c : Dev nD,
      r.2.mem ((c.tc : Thread nD τ).loc main_v70) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (funext fun i =>
      (congrArg (W5 m ρ c (Proc.devRef .tc main_v70) : S16384x1000.Idx → EReal) (eq_ix2 i)).trans
        (result_eq m ρ c (i 0) (i 1))), (h c).2⟩)
    (run_result m ρ)

end Cert.KernelIdeal.Val

end
-- ==== Proof.RefRead.lean ====
import proofs.«402928_j18021682774196_3_alg».proof.Proof.Gen.ReferenceIdeal.Read

/-! The reference's run and its read-at-an-index lemmas, gathered under one import. -/
-- ==== Proof.RefValue.lean ====
import proofs.«402928_j18021682774196_3_alg».proof.Proof.RefRead
import proofs.«402928_j18021682774196_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The reference's result, read at an index: `y` plus half the ratio times the quadratic form of the blended
  covariance (variance as computed) at the row the sample's label selects.

  The road: the one-hot matrix entry is `Spec.oh`; its column sums and its products with the features and their squares are
  the three moments; the blended covariance table is `Spec.ncTabR` of the moments, operation for operation; a row gather
  reads the operand's row at the start index, signed and clamped, and the start index is the label wrapped by the number
  of classes, which is what `Spec.rowOf` is written over; the three contractions over the features are the three sums of
  `Spec.quad`.
-/

set_option maxRecDepth 16384

noncomputable section

namespace Cert.ReferenceIdeal.RefVal

open Cert.ReferenceIdeal Cert.ReferenceIdeal.Gen Idealize.ShloMosaic Idealize.ShloMosaic.TcCoe Idealize.ShloMosaic.ValueIdx Idealize.SL.Sem
open Cert.ReferenceIdeal.Read
open scoped BigOperators

/-! ## The arguments by coordinates -/

/-- The labels by sample. -/
abbrev lab (x3 : (⟨S16384, .i32⟩ : BufTy).Contents (Elt Ideal)) : Fin 16384 → BitVec 32 := fun n => x3 (ix1 n)
/-- The features by sample and feature. -/
abbrev feat (x1 : (⟨S16384x768, .f32⟩ : BufTy).Contents (Elt Ideal)) : Fin 16384 → Fin 768 → EReal := fun n a => x1 (ix2 n a)
/-- A per-class table by class and feature. -/
abbrev tab2 (x : (⟨S1000x768, .f32⟩ : BufTy).Contents (Elt Ideal)) : Fin 1000 → Fin 768 → EReal := fun k a => x (ix2 k a)
/-- A per-class vector by class. -/
abbrev vec1 (x4 : (⟨S1000, .f32⟩ : BufTy).Contents (Elt Ideal)) : Fin 1000 → EReal := fun k => x4 (ix1 k)

/-! ## The one-hot matrix and the three moments -/

/-- An equality test of two words, converted unsigned, is one where they agree and zero elsewhere. -/
theorem uitofp_eq (l w : BitVec 32) :
    (FloatOps.uitofp (F := Ideal) .f32 (IntOp.cmpi .eq l w) : EReal) = if l = w then 1 else 0 := by
  show (((IntOp.cmpi .eq l w).toNat : ℝ) : EReal) = _
  unfold IntOp.cmpi
  by_cases h : l = w
  · simp [h]
  · have hb : (l == w) = false := by simpa using h
    simp [h, hb]

/-- The one-hot matrix at sample `n` and class `k`. -/
theorem onehot_apply (x3 : (⟨S16384, .i32⟩ : BufTy).Contents (Elt Ideal)) (n : Fin 16384) (k : Fin 1000) :
    val_main_v0 (F := Ideal) x3 (ix2 n k) = Spec.oh (lab x3 n) k := by
  rw [val_main_v0_apply, val_main_call0_v4_apply, val_main_call0_v2_apply, val_main_call0_v0_apply,
    val_main_call0_v3_apply, val_main_call0_v1_apply, uitofp_eq]
  have e : idx_main_call0_v0 (idx_main_call0_v2 (ix2 n k)) = ix1 n :=
    funext fun a => Fin.ext (by match a with | ⟨0, _⟩ => rfl)
  rw [e]
  rfl

/-- The class counts are the column sums of the one-hot matrix. -/
theorem cnt_apply (x3 : (⟨S16384, .i32⟩ : BufTy).Contents (Elt Ideal)) (k : Fin 1000) :
    val_main_v1 (F := Ideal) x3 (ix1 k) = Spec.cnt (lab x3) k := by
  rw [val_main_v1_apply, val_main_cst_apply, Ideal.ofBits_def, Ideal.ofBits_zero_f32, zero_add]
  unfold Spec.cnt
  refine Finset.sum_congr rfl fun n _ => ?_
  have e : idx_main_v1 (ix1 k) n = ix2 n k :=
    funext fun a => Fin.ext (by match a with | ⟨0, _⟩ => rfl | ⟨1, _⟩ => rfl)
  rw [e, onehot_apply]

/-- The feature sums per class: the one-hot matrix, transposed, times the features. -/
theorem sf_apply (x1 : (⟨S16384x768, .f32⟩ : BufTy).Contents (Elt Ideal)) (x3 : (⟨S16384, .i32⟩ : BufTy).Contents (Elt Ideal))
    (k : Fin 1000) (a : Fin 768) :
    val_main_v6 (F := Ideal) x1 x3 (ix2 k a) = Spec.sf (lab x3) (feat x1) k a := by
  rw [val_main_v6_apply]
  unfold Spec.sf
  refine Finset.sum_congr rfl fun n _ => ?_
  have e : idx_main_v5 (lidx_main_v6 (ix2 k a) n) = ix2 n k :=
    funext fun b => Fin.ext (by match b with | ⟨0, _⟩ => rfl | ⟨1, _⟩ => rfl)
  have e' : ridx_main_v6 (ix2 k a) n = ix2 n a :=
    funext fun b => Fin.ext (by match b with | ⟨0, _⟩ => rfl | ⟨1, _⟩ => rfl)
  rw [val_main_v5_apply, e, e', onehot_apply]

/-- The sums of squared features per class. -/
theorem sf2_apply (x1 : (⟨S16384x768, .f32⟩ : BufTy).Contents (Elt Ideal)) (x3 : (⟨S16384, .i32⟩ : BufTy).Contents (Elt Ideal))
    (k : Fin 1000) (a : Fin 768) :
    val_main_v11 (F := Ideal) x1 x3 (ix2 k a) = Spec.sf2 (lab x3) (feat x1) k a := by
  rw [val_main_v11_apply]
  unfold Spec.sf2
  refine Finset.sum_congr rfl fun n _ => ?_
  have e : idx_main_v9 (lidx_main_v11 (ix2 k a) n) = ix2 n k :=
    funext fun b => Fin.ext (by match b with | ⟨0, _⟩ => rfl | ⟨1, _⟩ => rfl)
  have e' : ridx_main_v11 (ix2 k a) n = ix2 n a :=
    funext fun b => Fin.ext (by match b with | ⟨0, _⟩ => rfl | ⟨1, _⟩ => rfl)
  rw [val_main_v9_apply, e, e', onehot_apply, val_main_v10_apply, Ideal.mulf_def]

/-! ## A row gather read at an index -/

/-- The row gather's dimension numbers: operand `[1000, 768]`, one start index per sample, the whole row taken. -/
abbrev rowDims : GatherDims S1000x768 S16384x1 S16384x768 := gather_S1000x768_S16384x1_S16384x768_1_0_n_n_0_1_1768

/-- On the class axis the operand index of a row gather is the start index, read signed and clamped to the last row. -/
theorem rowDims_axis0 (idx : IVec S16384x1 32) (n : Fin 16384) (a : Fin 768) :
    (rowDims.operandIdx (ix2 n a) idx 0).val = min (idx (ix2 n (0 : Fin 1))).toInt.toNat 999 := by
  have hmem : (0 : Fin 2) ∈ rowDims.startIndexMap := List.mem_singleton.mpr rfl
  have hb : rowDims.batchCoord (ix2 n a) 0 = 0 := GatherDims.batchCoord_eq_zero _ _ _ List.not_mem_nil
  have ho : rowDims.offCoord (ix2 n a) 0 = 0 :=
    GatherDims.offCoord_eq_zero _ _ _ fun h => ((GatherDims.mem_sKept _ _).mp h).1 (List.mem_singleton.mpr rfl)
  have hs : rowDims.start (ix2 n a) idx 0 = min (idx (ix2 n (0 : Fin 1))).toInt.toNat 999 := by
    unfold GatherDims.start
    rw [dif_pos hmem]
    have hsi : rowDims.siIdx (ix2 n a) ⟨List.idxOf (0 : Fin 2) rowDims.startIndexMap, List.idxOf_lt_length_iff.2 hmem⟩
        = ix2 n (0 : Fin 1) := by
      funext c
      refine Fin.ext ?_
      match c with
      | ⟨0, _⟩ => rfl
      | ⟨1, _⟩ => rfl
    rw [hsi]
    rfl
  show rowDims.start (ix2 n a) idx 0 + rowDims.batchCoord (ix2 n a) 0 + rowDims.offCoord (ix2 n a) 0 = _
  rw [hs, hb, ho]
  omega

/-- On the feature axis it is the result's own feature coordinate. -/
theorem rowDims_axis1 (idx : IVec S16384x1 32) (n : Fin 16384) (a : Fin 768) :
    (rowDims.operandIdx (ix2 n a) idx 1).val = a.val := by
  have hb : rowDims.batchCoord (ix2 n a) 1 = 0 := GatherDims.batchCoord_eq_zero _ _ _ List.not_mem_nil
  have hs : rowDims.start (ix2 n a) idx 1 = 0 := by
    unfold GatherDims.start
    rw [dif_neg (show ¬ (1 : Fin 2) ∈ rowDims.startIndexMap by decide)]
  have ho : rowDims.offCoord (ix2 n a) 1 = a.val := by
    unfold GatherDims.offCoord
    rw [dif_pos (show (1 : Fin 2) ∈ rowDims.sKept by decide)]
    rfl
  show rowDims.start (ix2 n a) idx 1 + rowDims.batchCoord (ix2 n a) 1 + rowDims.offCoord (ix2 n a) 1 = _
  rw [hs, hb, ho]
  omega

/-- A row gather at sample `n` and feature `a`: the operand's row at the clamped start index, same feature. -/
theorem gather_row {α : Type} (x : S1000x768.Idx → α) (idx : IVec S16384x1 32) (n : Fin 16384) (a : Fin 768)
    (l : BitVec 32) (hl : idx (ix2 n (0 : Fin 1)) = l) :
    Host.gather rowDims x idx (ix2 n a) = x (ix2 (⟨min l.toInt.toNat 999, by omega⟩ : Fin 1000) a) := by
  subst hl
  unfold Host.gather
  refine congrArg x (funext fun b => Fin.ext ?_)
  match b with
  | ⟨0, _⟩ => exact rowDims_axis0 idx n a
  | ⟨1, _⟩ => exact rowDims_axis1 idx n a

/-- A label wrapped by the number of classes when it is negative. -/
abbrev wrap (l : BitVec 32) : BitVec 32 := Scalar.select (IntOp.cmpi .slt l 0#32) (l + 1000#32) l

/-- The start indices of the first gather are the wrapped labels. -/
theorem wrapped_apply (x3 : (⟨S16384, .i32⟩ : BufTy).Contents (Elt Ideal)) (n : Fin 16384) (z : Fin 1) :
    val_main_v51 (F := Ideal) x3 (ix2 n z) = wrap (lab x3 n) := by
  have e : idx_main_v51 (ix2 n z) = ix1 n := funext fun b => Fin.ext (by match b with | ⟨0, _⟩ => rfl)
  rw [val_main_v51_apply, e, val_main_v50_apply, val_main_v47_apply, val_main_v46_apply, val_main_c_apply,
    val_main_v49_apply, val_main_v48_apply, val_main_c_7_apply]
  rfl

/-- The start indices of the second gather are the same wrapped labels. -/
theorem wrapped_apply' (x3 : (⟨S16384, .i32⟩ : BufTy).Contents (Elt Ideal)) (n : Fin 16384) (z : Fin 1) :
    val_main_v58 (F := Ideal) x3 (ix2 n z) = wrap (lab x3 n) := by
  have e : idx_main_v58 (ix2 n z) = ix1 n := funext fun b => Fin.ext (by match b with | ⟨0, _⟩ => rfl)
  rw [val_main_v58_apply, e, val_main_v57_apply, val_main_v54_apply, val_main_v53_apply, val_main_c_8_apply,
    val_main_v56_apply, val_main_v55_apply, val_main_c_9_apply]
  rfl

/-- The weights gathered per sample: the row of the sample's class. -/
theorem wrow_apply (x2 : (⟨S1000x768, .f32⟩ : BufTy).Contents (Elt Ideal)) (x3 : (⟨S16384, .i32⟩ : BufTy).Contents (Elt Ideal)) (n : Fin 16384) (a : Fin 768) :
    val_main_v59 (F := Ideal) x2 x3 (ix2 n a) = tab2 x2 (Spec.rowOf (lab x3 n)) a := by
  unfold val_main_v59
  generalize hw : val_main_v58 (F := Ideal) x3 = w
  have hz : w (ix2 n (0 : Fin 1)) = wrap (lab x3 n) := by rw [← hw]; exact wrapped_apply' x3 n 0
  rw [show gather_S1000x768_S16384x1_S16384x768_1_0_n_n_0_1_1768 = rowDims from rfl, gather_row x2 w n a (wrap (lab x3 n)) hz]
  rfl

/-! ## The blended covariance table -/

/-- The divisor `max cnt 1` as a column. -/
theorem amtcol_apply (x3 : (⟨S16384, .i32⟩ : BufTy).Contents (Elt Ideal)) (k : Fin 1000) (z : Fin 1) :
    val_main_v4 (F := Ideal) x3 (ix2 k z) = Spec.amount (Spec.cnt (lab x3) k) := by
  have e : idx_main_v4 (ix2 k z) = ix1 k := funext fun b => Fin.ext (by match b with | ⟨0, _⟩ => rfl)
  rw [val_main_v4_apply, e, val_main_v3_apply, val_main_v2_apply, val_main_cst_0_apply, cnt_apply,
    Ideal.maximumf_def, Ideal.ofBits_def]
  rfl

/-- The divisor over the features, where the mean divides by it. -/
theorem amt_apply (x3 : (⟨S16384, .i32⟩ : BufTy).Contents (Elt Ideal)) (k : Fin 1000) (a : Fin 768) :
    val_main_v7 (F := Ideal) x3 (ix2 k a) = Spec.amount (Spec.cnt (lab x3) k) := by
  have e : idx_main_v7 (ix2 k a) = ix2 k (0 : Fin 1) :=
    funext fun b => Fin.ext (by match b with | ⟨0, _⟩ => rfl | ⟨1, _⟩ => rfl)
  rw [val_main_v7_apply, e, amtcol_apply]

/-- The divisor over the features, where the variance divides by it. -/
theorem amt_apply' (x3 : (⟨S16384, .i32⟩ : BufTy).Contents (Elt Ideal)) (k : Fin 1000) (a : Fin 768) :
    val_main_v21 (F := Ideal) x3 (ix2 k a) = Spec.amount (Spec.cnt (lab x3) k) := by
  have e : idx_main_v21 (ix2 k a) = ix2 k (0 : Fin 1) :=
    funext fun b => Fin.ext (by match b with | ⟨0, _⟩ => rfl | ⟨1, _⟩ => rfl)
  rw [val_main_v21_apply, e, amtcol_apply]

/-- The class mean of a feature. -/
theorem ave_apply (x1 : (⟨S16384x768, .f32⟩ : BufTy).Contents (Elt Ideal)) (x3 : (⟨S16384, .i32⟩ : BufTy).Contents (Elt Ideal)) (k : Fin 1000) (a : Fin 768) :
    val_main_v8 (F := Ideal) x1 x3 (ix2 k a) = Spec.ave (Spec.sf (lab x3) (feat x1) k a) (Spec.cnt (lab x3) k) := by
  rw [val_main_v8_apply, sf_apply, amt_apply, Ideal.hostDivf_def]
  rfl

/-- The counts over the features. -/
theorem cntb_apply (x3 : (⟨S16384, .i32⟩ : BufTy).Contents (Elt Ideal)) (k : Fin 1000) (a : Fin 768) :
    val_main_v17 (F := Ideal) x3 (ix2 k a) = Spec.cnt (lab x3) k := by
  have e : idx_main_v17 (ix2 k a) = ix2 k (0 : Fin 1) :=
    funext fun b => Fin.ext (by match b with | ⟨0, _⟩ => rfl | ⟨1, _⟩ => rfl)
  have e' : idx_main_v16 (ix2 k (0 : Fin 1)) = ix1 k := funext fun b => Fin.ext (by match b with | ⟨0, _⟩ => rfl)
  rw [val_main_v17_apply, e, val_main_v16_apply, e', cnt_apply]

/-- The class variance of a feature, by the expanded square. -/
theorem var_apply (x1 : (⟨S16384x768, .f32⟩ : BufTy).Contents (Elt Ideal)) (x3 : (⟨S16384, .i32⟩ : BufTy).Contents (Elt Ideal)) (k : Fin 1000) (a : Fin 768) :
    val_main_v22 (F := Ideal) x1 x3 (ix2 k a) = Spec.var0 (Spec.sf (lab x3) (feat x1) k a) (Spec.sf2 (lab x3) (feat x1) k a) (Spec.cnt (lab x3) k) := by
  rw [val_main_v22_apply, val_main_v20_apply, val_main_v15_apply, val_main_v14_apply, val_main_v13_apply,
    val_main_v12_apply, val_main_cst_1_apply, val_main_v19_apply, val_main_v18_apply, cntb_apply, ave_apply,
    sf_apply, sf2_apply, amt_apply']
  simp only [Ideal.hostDivf_def, Ideal.addf_def, Ideal.subf_def, Ideal.mulf_def, Ideal.ofBits_def]
  rfl

/-- The blending weight of a class. -/
theorem wgt_apply (x3 : (⟨S16384, .i32⟩ : BufTy).Contents (Elt Ideal)) (x4 : (⟨S1000, .f32⟩ : BufTy).Contents (Elt Ideal)) (k : Fin 1000) :
    val_main_v29 (F := Ideal) x3 x4 (ix1 k) = Spec.wgt (Spec.cnt (lab x3) k) (vec1 x4 k) := by
  rw [val_main_v29_apply, val_main_v25_apply, val_main_v28_apply, val_main_v27_apply, val_main_v23_apply,
    val_main_v24_apply, val_main_cst_2_apply, val_main_v26_apply, val_main_cst_3_apply,
    val_main_call1_v1_apply, val_main_call1_v0_apply, val_main_cst_4_apply, cnt_apply]
  simp only [Ideal.hostDivf_def, Ideal.addf_def, Ideal.maximumf_def, Ideal.ofBits_def, Ideal.cmpf_def]
  rfl

/-- The blending weight as a column. -/
theorem wgtcol_apply (x3 : (⟨S16384, .i32⟩ : BufTy).Contents (Elt Ideal)) (x4 : (⟨S1000, .f32⟩ : BufTy).Contents (Elt Ideal)) (k : Fin 1000) (z : Fin 1) :
    val_main_v30 (F := Ideal) x3 x4 (ix2 k z) = Spec.wgt (Spec.cnt (lab x3) k) (vec1 x4 k) := by
  have e : idx_main_v30 (ix2 k z) = ix1 k := funext fun b => Fin.ext (by match b with | ⟨0, _⟩ => rfl)
  rw [val_main_v30_apply, e, wgt_apply]

/-- The blended covariance of class `k` and feature `a`, variance as computed. -/
theorem newcov_apply (x1 : (⟨S16384x768, .f32⟩ : BufTy).Contents (Elt Ideal)) (x3 : (⟨S16384, .i32⟩ : BufTy).Contents (Elt Ideal)) (x4 : (⟨S1000, .f32⟩ : BufTy).Contents (Elt Ideal)) (x5 x6 : (⟨S1000x768, .f32⟩ : BufTy).Contents (Elt Ideal)) (k : Fin 1000) (a : Fin 768) :
    val_main_v45 (F := Ideal) x1 x3 x4 x5 x6 (ix2 k a) = Spec.ncTabR (Spec.cnt (lab x3)) (Spec.sf (lab x3) (feat x1)) (Spec.sf2 (lab x3) (feat x1)) (vec1 x4) (tab2 x5) (tab2 x6) k a := by
  have e33 : idx_main_v33 (ix2 k a) = ix2 k (0 : Fin 1) :=
    funext fun b => Fin.ext (by match b with | ⟨0, _⟩ => rfl | ⟨1, _⟩ => rfl)
  have e35 : idx_main_v35 (ix2 k a) = ix2 k (0 : Fin 1) :=
    funext fun b => Fin.ext (by match b with | ⟨0, _⟩ => rfl | ⟨1, _⟩ => rfl)
  have e43 : idx_main_v43 (ix2 k a) = ix2 k (0 : Fin 1) :=
    funext fun b => Fin.ext (by match b with | ⟨0, _⟩ => rfl | ⟨1, _⟩ => rfl)
  rw [val_main_v45_apply, val_main_v37_apply, val_main_v34_apply, val_main_v33_apply, e33, val_main_v32_apply,
    val_main_v31_apply, val_main_cst_5_apply, val_main_v36_apply, val_main_v35_apply, e35, var_apply,
    val_main_v44_apply, val_main_v43_apply, e43, val_main_v40_apply, val_main_v39_apply, val_main_v38_apply,
    val_main_cst_6_apply, val_main_v42_apply, val_main_v41_apply, ave_apply, wgtcol_apply]
  simp only [Ideal.addf_def, Ideal.subf_def, Ideal.mulf_def, Ideal.ofBits_def]
  rfl

/-- The covariance rows gathered per sample: the row of the sample's class. -/
theorem ncrow_apply (x1 : (⟨S16384x768, .f32⟩ : BufTy).Contents (Elt Ideal)) (x3 : (⟨S16384, .i32⟩ : BufTy).Contents (Elt Ideal)) (x4 : (⟨S1000, .f32⟩ : BufTy).Contents (Elt Ideal)) (x5 x6 : (⟨S1000x768, .f32⟩ : BufTy).Contents (Elt Ideal)) (n : Fin 16384) (a : Fin 768) :
    val_main_v52 (F := Ideal) x1 x3 x4 x5 x6 (ix2 n a) = Spec.ncTabR (Spec.cnt (lab x3)) (Spec.sf (lab x3) (feat x1)) (Spec.sf2 (lab x3) (feat x1)) (vec1 x4) (tab2 x5) (tab2 x6) (Spec.rowOf (lab x3 n)) a := by
  unfold val_main_v52
  generalize hw : val_main_v51 (F := Ideal) x3 = w
  generalize hT : val_main_v45 (F := Ideal) x1 x3 x4 x5 x6 = T
  have hz : w (ix2 n (0 : Fin 1)) = wrap (lab x3 n) := by rw [← hw]; exact wrapped_apply x3 n 0
  rw [show gather_S1000x768_S16384x1_S16384x768_1_0_n_n_0_1_1768 = rowDims from rfl, gather_row T w n a (wrap (lab x3 n)) hz, ← hT]
  exact newcov_apply x1 x3 x4 x5 x6 (Spec.rowOf (lab x3 n)) a

/-! ## The three sums of the quadratic form, and the result -/

/-- The gathered covariance row against the squared weights of class `q`. -/
theorem term1_apply (x1 : (⟨S16384x768, .f32⟩ : BufTy).Contents (Elt Ideal)) (x2 : (⟨S1000x768, .f32⟩ : BufTy).Contents (Elt Ideal)) (x3 : (⟨S16384, .i32⟩ : BufTy).Contents (Elt Ideal)) (x4 : (⟨S1000, .f32⟩ : BufTy).Contents (Elt Ideal)) (x5 x6 : (⟨S1000x768, .f32⟩ : BufTy).Contents (Elt Ideal)) (n : Fin 16384) (q : Fin 1000) :
    val_main_v62 (F := Ideal) x1 x2 x3 x4 x5 x6 (ix2 n q)
      = ∑ a, Spec.ncTabR (Spec.cnt (lab x3)) (Spec.sf (lab x3) (feat x1)) (Spec.sf2 (lab x3) (feat x1)) (vec1 x4) (tab2 x5) (tab2 x6) (Spec.rowOf (lab x3 n)) a * (tab2 x2 q a * tab2 x2 q a) := by
  rw [val_main_v62_apply]
  refine Finset.sum_congr rfl fun a _ => ?_
  have e : lidx_main_v62 (ix2 n q) a = ix2 n a :=
    funext fun b => Fin.ext (by match b with | ⟨0, _⟩ => rfl | ⟨1, _⟩ => rfl)
  have e' : idx_main_v61 (ridx_main_v62 (ix2 n q) a) = ix2 q a :=
    funext fun b => Fin.ext (by match b with | ⟨0, _⟩ => rfl | ⟨1, _⟩ => rfl)
  rw [e, ncrow_apply, val_main_v61_apply, e', val_main_v60_apply, Ideal.mulf_def]

/-- The gathered weight row times the gathered covariance row, against the weights of class `q`. -/
theorem term2_apply (x1 : (⟨S16384x768, .f32⟩ : BufTy).Contents (Elt Ideal)) (x2 : (⟨S1000x768, .f32⟩ : BufTy).Contents (Elt Ideal)) (x3 : (⟨S16384, .i32⟩ : BufTy).Contents (Elt Ideal)) (x4 : (⟨S1000, .f32⟩ : BufTy).Contents (Elt Ideal)) (x5 x6 : (⟨S1000x768, .f32⟩ : BufTy).Contents (Elt Ideal)) (n : Fin 16384) (q : Fin 1000) :
    val_main_v65 (F := Ideal) x1 x2 x3 x4 x5 x6 (ix2 n q)
      = ∑ a, (tab2 x2 (Spec.rowOf (lab x3 n)) a * Spec.ncTabR (Spec.cnt (lab x3)) (Spec.sf (lab x3) (feat x1)) (Spec.sf2 (lab x3) (feat x1)) (vec1 x4) (tab2 x5) (tab2 x6) (Spec.rowOf (lab x3 n)) a) * tab2 x2 q a := by
  rw [val_main_v65_apply]
  refine Finset.sum_congr rfl fun a _ => ?_
  have e : lidx_main_v65 (ix2 n q) a = ix2 n a :=
    funext fun b => Fin.ext (by match b with | ⟨0, _⟩ => rfl | ⟨1, _⟩ => rfl)
  have e' : idx_main_v64 (ridx_main_v65 (ix2 n q) a) = ix2 q a :=
    funext fun b => Fin.ext (by match b with | ⟨0, _⟩ => rfl | ⟨1, _⟩ => rfl)
  rw [e, val_main_v63_apply, wrow_apply, ncrow_apply, val_main_v64_apply, e', Ideal.mulf_def]

/-- The squared gathered weight row against the gathered covariance row. -/
theorem term3_apply (x1 : (⟨S16384x768, .f32⟩ : BufTy).Contents (Elt Ideal)) (x2 : (⟨S1000x768, .f32⟩ : BufTy).Contents (Elt Ideal)) (x3 : (⟨S16384, .i32⟩ : BufTy).Contents (Elt Ideal)) (x4 : (⟨S1000, .f32⟩ : BufTy).Contents (Elt Ideal)) (x5 x6 : (⟨S1000x768, .f32⟩ : BufTy).Contents (Elt Ideal)) (n : Fin 16384) :
    val_main_v68 (F := Ideal) x1 x2 x3 x4 x5 x6 (ix1 n)
      = ∑ a, (tab2 x2 (Spec.rowOf (lab x3 n)) a * tab2 x2 (Spec.rowOf (lab x3 n)) a) * Spec.ncTabR (Spec.cnt (lab x3)) (Spec.sf (lab x3) (feat x1)) (Spec.sf2 (lab x3) (feat x1)) (vec1 x4) (tab2 x5) (tab2 x6) (Spec.rowOf (lab x3 n)) a := by
  rw [val_main_v68_apply, val_main_cst_10_apply, Ideal.ofBits_def, Ideal.ofBits_zero_f32, zero_add]
  refine Finset.sum_congr rfl fun a _ => ?_
  have e : idx_main_v68 (ix1 n) a = ix2 n a :=
    funext fun b => Fin.ext (by match b with | ⟨0, _⟩ => rfl | ⟨1, _⟩ => rfl)
  rw [e, val_main_v67_apply, val_main_v66_apply, wrow_apply, ncrow_apply, Ideal.mulf_def, Ideal.mulf_def]

/-- The last stage at sample `n` and class `q`, over the arguments as arrays. -/
theorem out_apply (x0 : (⟨S16384x1000, .f32⟩ : BufTy).Contents (Elt Ideal)) (x1 : (⟨S16384x768, .f32⟩ : BufTy).Contents (Elt Ideal)) (x2 : (⟨S1000x768, .f32⟩ : BufTy).Contents (Elt Ideal)) (x3 : (⟨S16384, .i32⟩ : BufTy).Contents (Elt Ideal)) (x4 : (⟨S1000, .f32⟩ : BufTy).Contents (Elt Ideal)) (x5 x6 : (⟨S1000x768, .f32⟩ : BufTy).Contents (Elt Ideal)) (x7 : (⟨S1, .f32⟩ : BufTy).Contents (Elt Ideal)) (n : Fin 16384) (q : Fin 1000) :
    val_main_v80 (F := Ideal) x0 x1 x2 x3 x4 x5 x6 x7 (ix2 n q)
      = Spec.ROut (fun n q => x0 (ix2 n q)) (feat x1) (tab2 x2) (lab x3) (vec1 x4) (tab2 x5) (tab2 x6)
          (x7 (ix1 (0 : Fin 1))) n q := by
  have e73 : idx_main_v69 (idx_main_v73 (ix2 n q)) = ix1 n := funext fun b => Fin.ext (by match b with | ⟨0, _⟩ => rfl)
  have e76 : idx_main_v75 (idx_main_v76 (ix2 n q)) = ix1 (0 : Fin 1) :=
    funext fun b => Fin.ext (by match b with | ⟨0, _⟩ => rfl)
  rw [val_main_v80_apply, val_main_v79_apply, val_main_v78_apply, val_main_cst_12_apply, val_main_v77_apply,
    val_main_v76_apply, val_main_v75_apply, e76, val_main_v74_apply, val_main_v72_apply, val_main_v71_apply,
    val_main_v70_apply, val_main_cst_11_apply, val_main_v73_apply, val_main_v69_apply, e73,
    term1_apply, term2_apply, term3_apply]
  simp only [Ideal.addf_def, Ideal.subf_def, Ideal.mulf_def, Ideal.ofBits_def]
  rfl

/-- The reference's result entry as the gathered form of the arguments. -/
theorem ref_out (m : (ℓ : Loc nD τ sig) → Buf (Elt Ideal) ℓ) (c : Dev nD) (n : Fin 16384) (q : Fin 1000) :
    (Cert.ReferenceIdeal.Value.res_out0 (F := Ideal) m c : S16384x1000.Idx → EReal) (ix2 n q)
      = Spec.ROut (fun n q => (m ((c.tc : Thread nD τ).loc main_arg0) : S16384x1000.Idx → EReal) (ix2 n q))
          (fun n a => (m ((c.tc : Thread nD τ).loc main_arg1) : S16384x768.Idx → EReal) (ix2 n a))
          (fun k a => (m ((c.tc : Thread nD τ).loc main_arg2) : S1000x768.Idx → EReal) (ix2 k a))
          (fun n => (m ((c.tc : Thread nD τ).loc main_arg3) : S16384.Idx → BitVec 32) (ix1 n))
          (fun k => (m ((c.tc : Thread nD τ).loc main_arg4) : S1000.Idx → EReal) (ix1 k))
          (fun k a => (m ((c.tc : Thread nD τ).loc main_arg5) : S1000x768.Idx → EReal) (ix2 k a))
          (fun k a => (m ((c.tc : Thread nD τ).loc main_arg6) : S1000x768.Idx → EReal) (ix2 k a))
          ((m ((c.tc : Thread nD τ).loc main_arg7) : S1.Idx → EReal) (ix1 (0 : Fin 1))) n q := by
  show (Cert.ReferenceIdeal.Value.res_main_v80 (F := Ideal) m c : S16384x1000.Idx → EReal) (ix2 n q) = _
  rw [val_main_v80_eq]
  exact out_apply _ _ _ _ _ _ _ _ n q

end Cert.ReferenceIdeal.RefVal

end
-- ==== Proof.PreRead.lean ====
import proofs.«402928_j18021682774196_3_alg».proof.Proof.Gen.Pre_finite_inputs
import proofs.«402928_j18021682774196_3_alg».proof.Proof.LibReal
import Idealize.ShloMosaic.Lib.ReduceAll
import Idealize.ShloMosaic.Lib.StableHlo.Predicate
import Idealize.ShloMosaic.Lib.ValueIdx

/-!
  The precondition read: every float input holds real numbers, and every label is a class index.

  The predicate is a conjunction of eight `all`s.  Seven of them test `|x| < +∞` at every entry of a
  float array; on the extended reals `|x| = max x (-x)` is `⊤` at both infinities, so the test passes
  exactly at the reals.  The eighth tests `0 ≤ l` and `l < 1000` at every label, both read signed; a
  word whose signed value lies in `[0, 1000)` has that value as its unsigned value too, and so is the
  word of a class index.
-/

noncomputable section

namespace Cert.PreRead

open Idealize.ShloMosaic Idealize.ShloMosaic.ValueIdx Cert.LibReal Cert.Pre_finite_inputs

variable [Cert.Pre_finite_inputs.Facts]

/-- The shape of a scalar has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- `|x| < +∞` holds on the extended reals only at a real: `max ⊥ (-⊥) = max ⊤ (-⊤) = ⊤`. -/
theorem isReal_of_abs_lt_inf (x : EReal)
    (h : Ideal.cmp .olt (max x (-x)) (Ideal.ofBits .f32 0x7F800000#32) = 1#1) : IsReal x := by
  rw [inf_word] at h
  induction x using EReal.rec with
  | bot => exfalso; simp [Ideal.cmp] at h
  | coe r => exact IsReal.coe r
  | top => exfalso; simp [Ideal.cmp] at h

/-- One conjunct `all (|x| < +∞)` of the predicate: every entry of `x` is real. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant S_ .f32 0x7F800000#32)))
          (constantI S_ 1 1#1) hr h0 ix0 = 1#1) (i : s.Idx) : IsReal (x i) :=
  isReal_of_abs_lt_inf (x i) (Host.reduce_andi_all _ _ hr h0 ix0 e i)

/-- A word that is signed at least 0 and signed below 1000 is the word of a class index. -/
theorem class_of_range (l : BitVec 32) (h1 : IntOp.cmpi .sge l 0#32 = 1#1) (h2 : IntOp.cmpi .slt l 1000#32 = 1#1) :
    ∃ k : Fin 1000, l = BitVec.ofNat 32 k.val := by
  simp only [IntOp.cmpi, StableHlo.Predicate.ofBool_eq_one_iff, BitVec.sle, BitVec.slt, decide_eq_true_eq] at h1 h2
  have z : (0#32 : BitVec 32).toInt = 0 := by decide
  have t : (1000#32 : BitVec 32).toInt = 1000 := by decide
  rw [z] at h1
  rw [t] at h2
  have hl := l.isLt
  have hn : l.toNat < 1000 := by
    rw [BitVec.toInt_eq_toNat_cond] at h1 h2
    split at h1 <;> omega
  refine ⟨⟨l.toNat, hn⟩, ?_⟩
  apply BitVec.eq_of_toNat_eq
  simp only [BitVec.toNat_ofNat]
  omega

/-- All ones of the precondition says: each float array's entries are real, and each label is `k` for a class `k < 1000`. -/
theorem decode (x0 : FVec Ideal S16384x1000 .f32) (x1 : FVec Ideal S16384x768 .f32) (x2 : FVec Ideal S1000x768 .f32)
    (x3 : IVec S16384 32) (x4 : FVec Ideal S1000 .f32) (x5 x6 : FVec Ideal S1000x768 .f32) (x7 : FVec Ideal S1 .f32)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x4 i))
      ∧ (∀ i, IsReal (x5 i)) ∧ (∀ i, IsReal (x6 i)) ∧ (∀ i, IsReal (x7 i))
      ∧ (∀ i, ∃ k : Fin 1000, x3 i = BitVec.ofNat 32 k.val) := by
  have h0 := congrFun h ix0
  dsimp only [fn, fn_part1, fn_part2] at h0
  -- the eight conjuncts, last joined first
  obtain ⟨h33, h39⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨all_real x0 _ _ _ h3, all_real x1 _ _ _ h7, all_real x2 _ _ _ h12, all_real x4 _ _ _ h17,
    all_real x5 _ _ _ h22, all_real x6 _ _ _ h27, all_real x7 _ _ _ h32, fun i => ?_⟩
  -- the label conjunct at sample `i`: both compares are one there
  obtain ⟨ha, hb⟩ := IntOp.andi_eq_one.1 (Host.reduce_andi_all _ _ _ _ ix0 h39 i)
  exact class_of_range (x3 i) ha hb

end Cert.PreRead

end
-- ==== Proof.lean ====
/-
  The certificate's proof.

  The kernel program computes, in a first launch, the per-class one-hot sums of the features, of their squares
  and of ones over two halves of the samples; on the host it adds the halves, forms each class's mean and variance
  (clamped below at zero), blends the variance into the running covariance, and tabulates for every pair of classes
  `S k c = ½·ratio·Σₐ nc k a (W c a − W k a)²` (in expanded form), split into a high part and a low part; a second
  launch adds to `y` the one-hot lookups of both parts at each sample's label.  The reference computes the same
  moments by dense one-hot products, does not clamp, gathers each sample's covariance and weight rows by its
  label, and forms the expanded quadratic form per sample.

  Over the extended reals, with every float input real and every label a class index, the two agree: the moments
  are the same sums once the samples are enumerated by half, tile and row; the variance is a sum of nonnegative
  terms over a positive divisor, so the clamp is idle; a real table entry minus itself is zero, so the low part
  contributes nothing; the one-hot product selects the label's row, which is also the row the gather reads for a
  label in range.  The label range is a precondition of the statement: outside it the reference's gather indexes
  out of range.

  `frame_Kernel` and `frame_KernelIdeal` are the generated frames; `frame_ReferenceIdeal` is the reference's
  generated run with the result dropped; `preserves` is the one ledger entry's statement (a format change
  through bf16 and back is the identity at the ideal instance).
-/
import proofs.«402928_j18021682774196_3_alg».proof.Defs
import proofs.«402928_j18021682774196_3_alg».proof.Proof.Gen.Kernel
import proofs.«402928_j18021682774196_3_alg».proof.Proof.Gen.Kernel.Skeleton
import proofs.«402928_j18021682774196_3_alg».proof.Proof.Gen.Kernel.Launch
import proofs.«402928_j18021682774196_3_alg».proof.Proof.Gen.Kernel.Points
import proofs.«402928_j18021682774196_3_alg».proof.Proof.Gen.Kernel.Frame
import proofs.«402928_j18021682774196_3_alg».proof.Proof.Gen.KernelIdeal
import proofs.«402928_j18021682774196_3_alg».proof.Proof.Gen.KernelIdeal.Skeleton
import proofs.«402928_j18021682774196_3_alg».proof.Proof.Gen.KernelIdeal.Launch
import proofs.«402928_j18021682774196_3_alg».proof.Proof.Gen.KernelIdeal.Points
import proofs.«402928_j18021682774196_3_alg».proof.Proof.Gen.KernelIdeal.Frame
import proofs.«402928_j18021682774196_3_alg».proof.Proof.Gen.ReferenceIdeal
import proofs.«402928_j18021682774196_3_alg».proof.Proof.Gen.Pre_finite_inputs
import proofs.«402928_j18021682774196_3_alg».proof.Proof.KernelValue
import proofs.«402928_j18021682774196_3_alg».proof.Proof.RefValue
import proofs.«402928_j18021682774196_3_alg».proof.Proof.PreRead
import proofs.«402928_j18021682774196_3_alg».proof.Proof.Math
import Idealize.ShloMosaic.Adequacy
import Idealize.ShloMosaic.Init

noncomputable section

namespace Cert.Proof

open Idealize.ShloMosaic Idealize.ShloMosaic.ValueIdx Idealize.SL.Sem

/-- The reference runs and leaves its arguments unchanged: its run with the result dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The one rewrite of the ideal pass: widening back a value narrowed to bf16 is the identity on extended reals. -/
theorem preserves : Cert.preserves_Kernel_KernelIdeal := IdealRules.truncf_extf.statement _ .f32 .bf16

/-- Both programs end with the same result array: the kernel's at the looked-up table of its arguments, the
    reference's at the gathered form of arguments that agree, and the two are one function under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.kout m c, Cert.KernelIdeal.Val.kernel_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨r0, r1, r2, r4, r5, r6, r7, rl⟩ := Cert.PreRead.decode _ _ _ _ _ _ _ _ (hpre c)
  funext i
  refine ((congrArg (Cert.ReferenceIdeal.Value.res_out0 (F := Ideal) m' c : Cert.ReferenceIdeal.S16384x1000.Idx → EReal)
    (eq_ix2 i)).trans (Cert.ReferenceIdeal.RefVal.ref_out m' c (i 0) (i 1))).trans ?_
  rw [h0, h1, h2, h3, h4, h5, h6, h7]
  exact (Cert.Spec.kout_eq_rout _ _ _ _ _ _ _ _ (fun n q => r0 _) (fun n a => r1 _) (fun k a => r2 _)
    (fun k => r4 _) (fun k a => r5 _) (fun k a => r6 _) (r7 _) (fun n => rl _) (i 0) (i 1)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, preserves, algebraic⟩

end Cert.Proof

end
